-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S64x64 : Shape := ⟨2, ![64, 64]⟩
abbrev S64 : Shape := ⟨1, ![64]⟩
abbrev S256 : Shape := ⟨1, ![256]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg6 : IVec S256 32) (main_v31 : IVec S_ 1) (main_v32 : IVec S256 32) : IVec S_ 1 :=
  let main_v33 : IVec S256 1 := cmpi .sge main_arg6 main_v32
  let main_c_13 : IVec S_ 1 := constantI S_ 1 1#1
  let main_v34 : IVec S_ 1 := (fun x v => Host.reduce IntOp.andi x v reducesTo_S256_S_d0 h_S_) main_v33 main_c_13
  let main_v35 : IVec S_ 1 := andi main_v31 main_v34
  let main_c_14 : IVec S_ 32 := constantI S_ 32 64#32
  let main_v36 : IVec S256 32 := broadcastInDim S256 ![] bcast_S_S256 main_c_14
  let main_v37 : IVec S256 1 := cmpi .slt main_arg6 main_v36
  let main_c_15 : IVec S_ 1 := constantI S_ 1 1#1
  let main_v38 : IVec S_ 1 := (fun x v => Host.reduce IntOp.andi x v reducesTo_S256_S_d0 h_S_) main_v37 main_c_15
  let main_v39 : IVec S_ 1 := andi main_v35 main_v38
  main_v39

def fn_part1 {F : FTy → Type} [FloatOps F] (main_arg4 : FVec F S64 .f32) (main_arg5 : IVec S256 32) (main_arg6 : IVec S256 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 4294967232#32
  let main_v24 : IVec S256 32 := broadcastInDim S256 ![] bcast_S_S256 main_c_8
  let main_v25 : IVec S256 1 := cmpi .sge main_arg5 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v23 main_v26
  let main_c_10 : IVec S_ 32 := constantI S_ 32 64#32
  let main_v28 : IVec S256 32 := broadcastInDim S256 ![] bcast_S_S256 main_c_10
  let main_v29 : IVec S256 1 := cmpi .slt main_arg5 main_v28
  let main_c_11 : IVec S_ 1 := constantI S_ 1 1#1
  let main_v30 : IVec S_ 1 := (fun x v => Host.reduce IntOp.andi x v reducesTo_S256_S_d0 h_S_) main_v29 main_c_11
  let main_v31 : IVec S_ 1 := andi main_v27 main_v30
  let main_c_12 : IVec S_ 32 := constantI S_ 32 4294967232#32
  let main_v32 : IVec S256 32 := broadcastInDim S256 ![] bcast_S_S256 main_c_12
  fn_part2 (F := F) main_arg6 main_v31 main_v32

def fn {F : FTy → Type} [FloatOps F] (main_arg0 : FVec F S2048x4096 .f32) (main_arg1 : FVec F S4096x4096 .f32) (main_arg2 : FVec F S64x64 .f32) (main_arg3 : FVec F S64x64 .f32) (main_arg4 : FVec F S64 .f32) (main_arg5 : IVec S256 32) (main_arg6 : IVec S256 32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S2048x4096 : Shape := ⟨2, ![2048, 4096]⟩
abbrev S4096x4096 : Shape := ⟨2, ![4096, 4096]⟩
abbrev S64x64 : Shape := ⟨2, ![64, 64]⟩
abbrev S64 : Shape := ⟨1, ![64]⟩
abbrev S256 : Shape := ⟨1, ![256]⟩
abbrev S256x256 : Shape := ⟨2, ![256, 256]⟩
abbrev S4096x256 : Shape := ⟨2, ![4096, 256]⟩
abbrev S256x4096 : Shape := ⟨2, ![256, 4096]⟩
abbrev S_ : Shape := ⟨0, ![]⟩
abbrev S256x1 : Shape := ⟨2, ![256, 1]⟩
abbrev S256x2 : Shape := ⟨2, ![256, 2]⟩
abbrev S2048x64x64 : Shape := ⟨3, ![2048, 64, 64]⟩
abbrev S128x64x64 : Shape := ⟨3, ![128, 64, 64]⟩
abbrev S1x64x64 : Shape := ⟨3, ![1, 64, 64]⟩

abbrev nBuf : Space → Nat
  | .hbm => 95
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S256, .i32⟩
  | .hbm, ⟨6, _⟩ => ⟨S256, .i32⟩
  | .hbm, ⟨7, _⟩ => ⟨S2048x4096, .f32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S256x1, .i32⟩
  | .hbm, ⟨24, _⟩ => ⟨S256x2, .i32⟩
  | .hbm, ⟨25, _⟩ => ⟨S256, .f32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S256x1, .i32⟩
  | .hbm, ⟨42, _⟩ => ⟨S256x2, .i32⟩
  | .hbm, ⟨43, _⟩ => ⟨S256, .f32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S_, .f32⟩
  | .hbm, ⟨73, _⟩ => ⟨S64x64, .f32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S256, .i32⟩
  | .hbm, ⟨81, _⟩ => ⟨S_, .i32⟩
  | .hbm, ⟨82, _⟩ => ⟨S256, .i32⟩
  | .hbm, ⟨83, _⟩ => ⟨S256, .i1⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S256x1, .i32⟩
  | .hbm, ⟨89, _⟩ => ⟨S256x1, .i32⟩
  | .hbm, ⟨90, _⟩ => ⟨S256x2, .i32⟩
  | .hbm, ⟨91, _⟩ => ⟨S64x64, .f32⟩
  | .hbm, ⟨92, _⟩ => ⟨S2048x64x64, .f32⟩
  | .hbm, ⟨93, _⟩ => ⟨S2048x64x64, .f32⟩
  | .hbm, ⟨94, _⟩ => ⟨S2048x4096, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x256, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S128x64x64, .f32⟩
  | .local _ .vmem, ⟨8, _⟩ => ⟨S128x64x64, .f32⟩
  | .local _ .vmem, ⟨9, _⟩ => ⟨S64x64, .f32⟩
  | .local _ .vmem, ⟨10, _⟩ => ⟨S128x64x64, .f32⟩
  | .local _ .vmem, ⟨11, _⟩ => ⟨S128x64x64, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_15 : Ref sig .tc := ⟨.hbm, 81, rfl⟩
abbrev main_v57 : Ref sig .tc := ⟨.hbm, 82, rfl⟩
abbrev main_v58 : Ref sig .tc := ⟨.hbm, 83, rfl⟩
abbrev main_c_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  transposes_S4096x256_p1_0_S256x4096 : S4096x256.Transposes [1, 0] S256x4096
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S_S64x64 : S_.BroadcastsInDim S64x64 (![] : Fin 0 → Fin S64x64.rank)
  shapeCasts_S2048x4096_S2048x64x64 : S2048x4096.ShapeCasts S2048x64x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S1x64x64 : S64x64.ShapeCasts S1x64x64
  shapeCasts_S1x64x64_S1x64x64 : S1x64x64.ShapeCasts S1x64x64
  broadcasts_S1x64x64_S128x64x64 : S1x64x64.Broadcasts S128x64x64
  shapeCasts_S2048x64x64_S2048x4096 : S2048x64x64.ShapeCasts S2048x4096
  dot_S256x256_S256x4096_S256x4096_1_0_0_1_n_n_wf : DotDims.WF S256x256 S256x4096 S256x4096 [1] [0] [0] [1] [] []
  gather_S64x64_S256x2_S256_n_01_n_n_01_1_11_wf : GatherDims.WF S64x64 S256x2 S256 [] [0, 1] [] [0, 1] [] 1 ![1, 1]
  gather_S64_S256x1_S256_n_0_n_n_0_1_1_wf : GatherDims.WF S64 S256x1 S256 [] [0] [] [0] [] 1 ![1]
  scatter_S64x64_S256x2_S256_n_01_01_1_wf : ScatterDims.WF S64x64 S256x2 S256 [] [0, 1] [0, 1] 1
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x4096.size a
  hwx0_0 : ∀ i : grid0.Coords, EltTy.bits .f32 = 32 ∨ (Rect.block (s := S2048x4096) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .f32 = 32 ∨ (Rect.block (s := S2048x4096) S256x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x64.size a ≤ S2048x64x64.size a
  hwx1_0 : ∀ i : grid1.Coords, EltTy.bits .f32 = 32 ∨ (Rect.block (s := S2048x64x64) S128x64x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64x64.size a ≤ S2048x64x64.size a
  hwx1_2 : ∀ i : grid1.Coords, EltTy.bits .f32 = 32 ∨ (Rect.block (s := S2048x64x64) S128x64x64.size (cc1_transform_2 i) (hinb1_2 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def gather_S64x64_S256x2_S256_n_01_n_n_01_1_11 : GatherDims S64x64 S256x2 S256 where
  offsetDims := []
  collapsedSliceDims := [0, 1]
  operandBatchingDims := []
  startIndicesBatchingDims := []
  startIndexMap := [0, 1]
  indexVectorDim := 1
  sliceSizes := ![1, 1]
  wf := gather_S64x64_S256x2_S256_n_01_n_n_01_1_11_wf
def gather_S64_S256x1_S256_n_0_n_n_0_1_1 : GatherDims S64 S256x1 S256 where
  offsetDims := []
  collapsedSliceDims := [0]
  operandBatchingDims := []
  startIndicesBatchingDims := []
  startIndexMap := [0]
  indexVectorDim := 1
  sliceSizes := ![1]
  wf := gather_S64_S256x1_S256_n_0_n_n_0_1_1_wf
def scatter_S64x64_S256x2_S256_n_01_01_1 : ScatterDims S64x64 S256x2 S256 where
  updateWindowDims := []
  insertedWindowDims := [0, 1]
  scatterDimsToOperandDims := [0, 1]
  indexVectorDim := 1
  wf := scatter_S64x64_S256x2_S256_n_01_01_1_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v66) S128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S128x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S64x64 : Shape := ⟨2, ![64, 64]⟩
abbrev S64 : Shape := ⟨1, ![64]⟩
abbrev S256 : Shape := ⟨1, ![256]⟩
abbrev S2048x64x64 : Shape := ⟨3, ![2048, 64, 64]⟩
abbrev S_ : Shape := ⟨0, ![]⟩
abbrev S256x1 : Shape := ⟨2, ![256, 1]⟩
abbrev S256x2 : Shape := ⟨2, ![256, 2]⟩
abbrev S2048x256x64 : Shape := ⟨3, ![2048, 256, 64]⟩
abbrev S1x256x1 : Shape := ⟨3, ![1, 256, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S256, .i32⟩
  | .hbm, ⟨6, _⟩ => ⟨S256, .i32⟩
  | .hbm, ⟨7, _⟩ => ⟨S4096x4096, .f32⟩
  | .hbm, ⟨8, _⟩ => ⟨S2048x4096, .f32⟩
  | .hbm, ⟨9, _⟩ => ⟨S2048x64x64, .f32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x1, .i32⟩
  | .hbm, ⟨26, _⟩ => ⟨S256x2, .i32⟩
  | .hbm, ⟨27, _⟩ => ⟨S256, .f32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S256x1, .i32⟩
  | .hbm, ⟨44, _⟩ => ⟨S256x2, .i32⟩
  | .hbm, ⟨45, _⟩ => ⟨S256, .f32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S256, .i32⟩
  | .hbm, ⟨81, _⟩ => ⟨S256x1, .i32⟩
  | .hbm, ⟨82, _⟩ => ⟨S2048x256x64, .f32⟩
  | .hbm, ⟨83, _⟩ => ⟨S1x256x1, .f32⟩
  | .hbm, ⟨84, _⟩ => ⟨S2048x256x64, .f32⟩
  | .hbm, ⟨85, _⟩ => ⟨S2048x256x64, .f32⟩
  | .hbm, ⟨86, _⟩ => ⟨S_, .f32⟩
  | .hbm, ⟨87, _⟩ => ⟨S2048x64x64, .f32⟩
  | .hbm, ⟨88, _⟩ => ⟨S_, .i32⟩
  | .hbm, ⟨89, _⟩ => ⟨S256, .i32⟩
  | .hbm, ⟨90, _⟩ => ⟨S256, .i1⟩
  | .hbm, ⟨91, _⟩ => ⟨S_, .i32⟩
  | .hbm, ⟨92, _⟩ => ⟨S256, .i32⟩
  | .hbm, ⟨93, _⟩ => ⟨S256, .i32⟩
  | .hbm, ⟨94, _⟩ => ⟨S256, .i32⟩
  | .hbm, ⟨95, _⟩ => ⟨S256x1, .i32⟩
  | .hbm, ⟨96, _⟩ => ⟨S2048x64x64, .f32⟩
  | .hbm, ⟨97, _⟩ => ⟨S2048x4096, .f32⟩
  | .hbm, ⟨98, _⟩ => ⟨S_, .f32⟩
  | .hbm, ⟨99, _⟩ => ⟨S2048x4096, .f32⟩
  | .hbm, ⟨100, _⟩ => ⟨S2048x4096, .f32⟩
  | .hbm, ⟨101, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_c_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  transposes_S4096x4096_S4096x4096_1_0 : S4096x4096.Transposes [1, 0] S4096x4096
  shapeCasts_S2048x4096_S2048x64x64 : S2048x4096.ShapeCasts S2048x64x64
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S256_S1x256x1_1 : S256.BroadcastsInDim S1x256x1 (![1] : Fin 1 → Fin S1x256x1.rank)
  bcast_S1x256x1_S2048x256x64_0_1_2 : S1x256x1.BroadcastsInDim S2048x256x64 (![0, 1, 2] : Fin 3 → Fin S2048x256x64.rank)
  bcast_S_S2048x64x64 : S_.BroadcastsInDim S2048x64x64 (![] : Fin 0 → Fin S2048x64x64.rank)
  shapeCasts_S2048x64x64_S2048x4096 : S2048x64x64.ShapeCasts S2048x4096
  bcast_S_S2048x4096 : S_.BroadcastsInDim S2048x4096 (![] : Fin 0 → Fin S2048x4096.rank)
  dot_S2048x4096_S4096x4096_S2048x4096_1_0_0_1_n_n_wf : DotDims.WF S2048x4096 S4096x4096 S2048x4096 [1] [0] [0] [1] [] []
  gather_S64x64_S256x2_S256_n_01_n_n_01_1_11_wf : GatherDims.WF S64x64 S256x2 S256 [] [0, 1] [] [0, 1] [] 1 ![1, 1]
  gather_S64_S256x1_S256_n_0_n_n_0_1_1_wf : GatherDims.WF S64 S256x1 S256 [] [0] [] [0] [] 1 ![1]
  gather_S2048x64x64_S256x1_S2048x256x64_02_1_n_n_1_1_2048164_wf : GatherDims.WF S2048x64x64 S256x1 S2048x256x64 [0, 2] [1] [] [1] [] 1 ![2048, 1, 64]
  scatter_S2048x64x64_S256x1_S2048x256x64_02_1_1_1_wf : ScatterDims.WF S2048x64x64 S256x1 S2048x256x64 [0, 2] [1] [1] 1

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def gather_S64x64_S256x2_S256_n_01_n_n_01_1_11 : GatherDims S64x64 S256x2 S256 where
  offsetDims := []
  collapsedSliceDims := [0, 1]
  operandBatchingDims := []
  startIndicesBatchingDims := []
  startIndexMap := [0, 1]
  indexVectorDim := 1
  sliceSizes := ![1, 1]
  wf := gather_S64x64_S256x2_S256_n_01_n_n_01_1_11_wf
def gather_S64_S256x1_S256_n_0_n_n_0_1_1 : GatherDims S64 S256x1 S256 where
  offsetDims := []
  collapsedSliceDims := [0]
  operandBatchingDims := []
  startIndicesBatchingDims := []
  startIndexMap := [0]
  indexVectorDim := 1
  sliceSizes := ![1]
  wf := gather_S64_S256x1_S256_n_0_n_n_0_1_1_wf
def gather_S2048x64x64_S256x1_S2048x256x64_02_1_n_n_1_1_2048164 : GatherDims S2048x64x64 S256x1 S2048x256x64 where
  offsetDims := [0, 2]
  collapsedSliceDims := [1]
  operandBatchingDims := []
  startIndicesBatchingDims := []
  startIndexMap := [1]
  indexVectorDim := 1
  sliceSizes := ![2048, 1, 64]
  wf := gather_S2048x64x64_S256x1_S2048x256x64_02_1_n_n_1_1_2048164_wf
def scatter_S2048x64x64_S256x1_S2048x256x64_02_1_1_1 : ScatterDims S2048x64x64 S256x1 S2048x256x64 where
  updateWindowDims := [0, 2]
  insertedWindowDims := [1]
  scatterDimsToOperandDims := [1]
  indexVectorDim := 1
  wf := scatter_S2048x64x64_S256x1_S2048x256x64_02_1_1_1_wf

class Facts : Prop extends Facts₀ where

variable [Facts]
-- ==== Proof.K.Step.lean ====
/- The matmul kernel's one arithmetic step and its two conditions.

At grid point (i, k) the kernel adds, to an accumulator block of 256 x 4096 entries, the product of
the 256 x 256 block (i, k) of the left matrix with the transpose of the 4096 x 256 block (·, k) of the
right one; the accumulator starts from zeros when k = 0, and is copied to the output block when
k = 15. This module names that step and puts the two conditions in closed form over the point. -/
import proofs.«414142_j15384572854802_2_alg».proof.Proof.Gen.Kernel.Launch
import proofs.«414142_j15384572854802_2_alg».proof.Proof.Gen.Kernel.Skeleton
import proofs.«414142_j15384572854802_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the accumulation: the block product added to the accumulator, which is zeros at
    the first point of a row of the grid and what the point before left otherwise. -/
def accStep (first : Bool) (prev : Vec F S256x4096 .f32) (x : Vec F S256x256 .f32) (w : Vec F S4096x256 .f32) :
    Vec F S256x4096 .f32 :=
  k0_pay2 x w (if first then (k0_pay1 (F := F)) else prev)

/-- At a first point the step does not read what the accumulator held. -/
theorem accStep_first (prev prev' : Vec F S256x4096 .f32) (x : Vec F S256x256 .f32) (w : Vec F S4096x256 .f32) :
    accStep true prev x w = accStep true prev' x w := rfl

/-- The reset condition holds exactly where the second grid coordinate is 0. -/
theorem reset_iff (i : grid0.Coords) :
    (Scalar.cmpi .ne (Scalar.extui (Scalar.cmpi .eq (BitVec.ofNat 32 (i 1).val) 0#32)) 0#32 = 1#1) ↔ (i 1).val = 0 :=
  (by decide : ∀ k : Fin 16,
    (Scalar.cmpi .ne (Scalar.extui (Scalar.cmpi .eq (BitVec.ofNat 32 k.val) 0#32)) 0#32 = 1#1) ↔ k.val = 0) (i 1)

/-- The copy-out condition holds exactly where the second grid coordinate is 15. -/
theorem copyOut_iff (i : grid0.Coords) : k0_cond2 i = 1#1 ↔ (i 1).val = 15 := by
  unfold k0_cond2
  exact (by decide : ∀ k : Fin 16,
    (Scalar.cmpi .ne (Scalar.extui (Scalar.cmpi .eq (BitVec.ofNat 32 k.val) 15#32)) 0#32 = 1#1) ↔ k.val = 15) (i 1)

/-- The second coordinate of point `t` is `t mod 16`, the first `t / 16`. -/
theorem coords_snd (t : Fin cfg0.N) : (grid0.coords t 1).val = t.val % 16 :=
  (by decide +kernel : ∀ t : Fin grid0.N, (grid0.coords t 1).val = t.val % 16) t
theorem coords_fst (t : Fin cfg0.N) : (grid0.coords t 0).val = t.val / 16 :=
  (by decide +kernel : ∀ t : Fin grid0.N, (grid0.coords t 0).val = t.val / 16) t

end Cert.Kernel.Hand

end
-- ==== Proof.K.Body0.lean ====
/- The matmul kernel's body as a triple: from the two input blocks, the output buffer and the
accumulator at any contents, it ends with the accumulator one step further and, at the last point
of a grid row, the output buffer holding the accumulator. -/
import proofs.«414142_j15384572854802_2_alg».proof.Proof.K.Step
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-buffer access are zero. -/
private theorem zeros2 : (![0, 0] : Fin 2 → ℕ) = fun _ => 0 := by
  funext a; fin_cases a <;> rfl

/-- A whole-buffer store at the head of a list of stores covers every index. -/
private theorem cover_head (w : Vec F S256x4096 .f32) (L : List (View.Piece (Elt F) S256x4096 .f32))
    (y : S256x4096.Idx) :
    ∃ p ∈ ((⟨Rect.unit ![0, 0] S256x4096.size inb_S256x4096_S256x4096_0_0, w⟩ :: L :
      List (View.Piece (Elt F) S256x4096 .f32))), y ∈ p.1.set :=
  ⟨_, List.mem_cons_self .., View.mem_set_unit_zero (S := S256x4096) zeros2 inb_S256x4096_S256x4096_0_0 y⟩

/-- After a whole-buffer store, made last, the buffer reads as that store's payload. -/
private theorem read_store {κ : Kind} {sp : Space} (v : View sig κ sp S256x4096 .f32)
    (f : v.ty.Contents (Elt F)) (w : Vec F S256x4096 .f32) (L : List (View.Piece (Elt F) S256x4096 .f32)) :
    v.read (Elt F) (v.writes (Elt F) f
      (⟨Rect.unit ![0, 0] S256x4096.size inb_S256x4096_S256x4096_0_0, w⟩ :: L)) = w := by
  rw [View.read_writes_eq_canon _ _ _ (cover_head w L), View.canon_cons_unit_zero (S := S256x4096) zeros2]

set_option maxHeartbeats 1000000 in
/-- At the first point of a grid row, not the last: the accumulator is reset, then stepped; the
    output buffer is not touched. -/
private theorem body_first (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : (i 1).val = 0) (h15 : ¬ (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                d2
            ∗ owns (c : Thread nD τ) arg5 fullShare (accStep true dS x0 x1)) -∗ K ⟨⟩))
      ⊢ wp frame (wpE (defs₀ (F := F)) Variants.none c none) E
          (cc0__matmul_kernel i arg2 harg2 arg3 harg3 arg4 harg4 arg5 harg5) K := by
  have hc0 := (reset_iff i).mpr h0
  have hc15 : ¬ k0_cond2 i = 1#1 := fun h => h15 ((copyOut_iff i).mp h)
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  rw [read_store, View.readCov_unit_zero (S := S256x4096) _ hz, l2, l3]
  rfl

set_option maxHeartbeats 1000000 in
/-- At a point neither first nor last of its grid row: the accumulator is stepped from what it
    held; the output buffer is not touched. -/
private theorem body_mid (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : ¬ (i 1).val = 0) (h15 : ¬ (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                d2
            ∗ owns (c : Thread nD τ) arg5 fullShare (accStep false dS x0 x1)) -∗ K ⟨⟩))
      ⊢ wp frame (wpE (defs₀ (F := F)) Variants.none c none) E
          (cc0__matmul_kernel i arg2 harg2 arg3 harg3 arg4 harg4 arg5 harg5) K := by
  have hc0 : ¬ (Scalar.cmpi .ne (Scalar.extui (Scalar.cmpi .eq (BitVec.ofNat 32 (i 1).val) 0#32)) 0#32 = 1#1) :=
    fun h => h0 ((reset_iff i).mp h)
  have hc15 : ¬ k0_cond2 i = 1#1 := fun h => h15 ((copyOut_iff i).mp h)
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  have l5 : View.readAt (Elt F) arg5.view (Rect.unit ![0, 0] S256x4096.size inb_S256x4096_S256x4096_0_0).toLoadRect f5
      = View.read (Elt F) arg5.view f5 := View.ld_unit_zero (S := S256x4096) hz _ _
  rw [read_store, l2, l3, l5]
  rfl

set_option maxHeartbeats 1000000 in
/-- At the last point of a grid row (which is not the first): the accumulator is stepped from what
    it held, and the output buffer takes the accumulator's new contents. -/
private theorem body_last (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : ¬ (i 1).val = 0) (h15 : (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                (accStep false dS x0 x1)
            ∗ owns (c : Thread nD τ) arg5 fullShare (accStep false dS x0 x1)) -∗ K ⟨⟩))
      ⊢ wp frame (wpE (defs₀ (F := F)) Variants.none c none) E
          (cc0__matmul_kernel i arg2 harg2 arg3 harg3 arg4 harg4 arg5 harg5) K := by
  have hc0 : ¬ (Scalar.cmpi .ne (Scalar.extui (Scalar.cmpi .eq (BitVec.ofNat 32 (i 1).val) 0#32)) 0#32 = 1#1) :=
    fun h => h0 ((reset_iff i).mp h)
  have hc15 : k0_cond2 i = 1#1 := (copyOut_iff i).mpr h15
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  have l5 : View.readAt (Elt F) arg5.view (Rect.unit ![0, 0] S256x4096.size inb_S256x4096_S256x4096_0_0).toLoadRect f5
      = View.read (Elt F) arg5.view f5 := View.ld_unit_zero (S := S256x4096) hz _ _
  isplitl [H4]
  · iexists _; isplitr
    swap; · iexact H4
    ipureintro
    sl_unfold_run_names
    rw [read_store, View.readCov_unit_zero (S := S256x4096) _ hz, l2, l3, l5]
    rfl
  iexists _; isplitr
  swap; · iexact H5
  ipureintro
  sl_unfold_run_names
  rw [read_store, l2, l3, l5]
  rfl

/-- The body at grid coordinates `i`: inputs kept; the accumulator `arg5` one step on from `dS`
    (from zeros where `i 1 = 0`); the output buffer `arg4` at the new accumulator where `i 1 = 15`
    and untouched elsewhere. -/
theorem sound_kernel0 (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                (if (i 1).val = 15 then accStep (decide ((i 1).val = 0)) dS x0 x1 else d2)
            ∗ owns (c : Thread nD τ) arg5 fullShare (accStep (decide ((i 1).val = 0)) dS x0 x1)) -∗ K ⟨⟩))
      ⊢ wp frame (wpE (defs₀ (F := F)) Variants.none c none) E
          (cc0__matmul_kernel i arg2 harg2 arg3 harg3 arg4 harg4 arg5 harg5) K := by
  by_cases h0 : (i 1).val = 0
  · have h15 : ¬ (i 1).val = 15 := by omega
    rw [if_neg h15, decide_eq_true h0]
    exact body_first c E i arg2 harg2 arg3 harg3 arg4 harg4 arg5 harg5 x0 x1 d2 dS K h0 h15
  · rw [decide_eq_false h0]
    by_cases h15 : (i 1).val = 15
    · rw [if_pos h15]
      exact body_last c E i arg2 harg2 arg3 harg3 arg4 harg4 arg5 harg5 x0 x1 d2 dS K h0 h15
    · rw [if_neg h15]
      exact body_mid c E i arg2 harg2 arg3 harg3 arg4 harg4 arg5 harg5 x0 x1 d2 dS K h0 h15

end Cert.Kernel.Hand

end
-- ==== Proof.K.Data0.lean ====
/- The matmul region's proof data. The accumulator lives in a scratch buffer that the kernel carries from
point to point, so the region's invariant names its contents: after point n it holds the running sum of
the block products of the current grid row up to n. The output block is stored only at the last point of a
row; at the other points the output window is idle and its buffer is handed back as found. -/
import proofs.«414142_j15384572854802_2_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The left matrix's 256 x 256 block and the right matrix's 4096 x 256 block at point `t`. -/
abbrev xblk (c : Dev nD) (t : Fin cfg0.N) : Vec F S256x256 .f32 := iblk0 V c 0 t
abbrev wblk (c : Dev nD) (t : Fin cfg0.N) : Vec F S4096x256 .f32 := iblk0 V c 1 t

/-- The accumulator after point `n`: one step on from what point `n - 1` left (from zeros at the first
    point of a grid row). -/
def accAt (c : Dev nD) : (n : ℕ) → n < cfg0.N → Vec F S256x4096 .f32
  | 0, hn => accStep (decide ((grid0.coords ⟨0, hn⟩ 1).val = 0)) (k0_pay1 (F := F)) (xblk V c ⟨0, hn⟩) (wblk V c ⟨0, hn⟩)
  | n + 1, hn => accStep (decide ((grid0.coords ⟨n + 1, hn⟩ 1).val = 0)) (accAt c n (Nat.lt_of_succ_lt hn))
      (xblk V c ⟨n + 1, hn⟩) (wblk V c ⟨n + 1, hn⟩)

theorem accAt_zero (c : Dev nD) (hn : 0 < cfg0.N) :
    accAt V c 0 hn = accStep (decide ((grid0.coords ⟨0, hn⟩ 1).val = 0)) (k0_pay1 (F := F)) (xblk V c ⟨0, hn⟩) (wblk V c ⟨0, hn⟩) := rfl
theorem accAt_succ (c : Dev nD) (n : ℕ) (hn : n + 1 < cfg0.N) :
    accAt V c (n + 1) hn = accStep (decide ((grid0.coords ⟨n + 1, hn⟩ 1).val = 0)) (accAt V c n (Nat.lt_of_succ_lt hn))
      (xblk V c ⟨n + 1, hn⟩) (wblk V c ⟨n + 1, hn⟩) := rfl

/-- The accumulator's scratch buffer. -/
abbrev scM : Memref sig .tc .vmem S256x4096 .f32 := Memref.whole cc0_scratch0

/-- The core's other scoped buffers that are no staging buffer of this region (the mixing region's
    staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position `n`: before the first point the class's (every scratch at anything);
    afterwards the accumulator at what the point before left, the other scoped buffers at anything, and the
    generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ otherScoped (F := F) c ∗ (∃ r, prngReg c r))

/-- The proof data of the matmul pipeline on core `c`: the arrays as the region finds them; after the body at
    point `t` each input's buffer at its block and the output's at the accumulator; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt V c t.val t.isLt := by dsimp only [dat0]

/-! ## The invariant, position by position -/

private theorem PhiS_zero (c : Dev nD) (n : ℕ) (h : n ≤ cfg0.N) (hz : n = 0) : PhiS V c n h = Pipeline.ΦA spec0 c := by
  subst hz; rfl

/-- After point `n`: the accumulator at that point's contents. -/
private theorem PhiS_succ (c : Dev nD) (n : ℕ) (hn : n < cfg0.N) :
    PhiS V c (n + 1) hn = iprop(owns (c : Thread nD τ) scM fullShare (accAt V c n hn) ∗ otherScoped (F := F) c ∗ (∃ r, prngReg c r)) := rfl

/-- Before a point that is not the first: the accumulator at what the point before left. -/
private theorem PhiS_pos (c : Dev nD) (n : ℕ) (h : n ≤ cfg0.N) (hz : n ≠ 0) :
    PhiS V c n h = iprop(owns (c : Thread nD τ) scM fullShare (accAt V c (n - 1) (by omega)) ∗ otherScoped (F := F) c ∗ (∃ r, prngReg c r)) := by
  cases n with
  | zero => exact absurd rfl hz
  | succ n => rfl

/-- The invariant at a point's start, restated at the point's number. -/
private theorem PhiS_castSucc (c : Dev nD) (t : Fin cfg0.N) :
    (dat0 V c).Φ t.castSucc = PhiS V c t.val (Nat.le_of_lt t.isLt) := by
  dsimp only [dat0]; simp only [Fin.coe_castSucc]

/-- The class's invariant with the scoped rest enumerated: the accumulator's scratch at some contents, the
    other scoped buffers, the generator register. -/
private theorem PhiA0_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-! ## The accumulator, one step unfolded at a point -/

/-- At a point that is not the first the accumulator is one step on from the point before. -/
private theorem accAt_pos (c : Dev nD) (t : Fin cfg0.N) (hz : t.val ≠ 0) :
    accAt V c t.val t.isLt = accStep (decide ((grid0.coords t 1).val = 0))
      (accAt V c (t.val - 1) (Nat.lt_of_le_of_lt (Nat.sub_le _ _) t.isLt)) (xblk V c t) (wblk V c t) := by
  obtain ⟨n, hn⟩ := t
  cases n with
  | zero => exact absurd rfl hz
  | succ n => exact accAt_succ V c n hn

/-- At the first point the step starts from zeros, whatever the scratch held. -/
private theorem accAt_first (c : Dev nD) (t : Fin cfg0.N) (hz : t.val = 0) (dS : Vec F S256x4096 .f32) :
    accAt V c t.val t.isLt = accStep (decide ((grid0.coords t 1).val = 0)) dS (xblk V c t) (wblk V c t) := by
  have hf : decide ((grid0.coords t 1).val = 0) = true := by
    rw [coords_snd t, hz]; rfl
  obtain ⟨n, hn⟩ := t
  cases n with
  | zero =>
    rw [accAt_zero V c hn, hf]
    exact accStep_first _ _ _ _
  | succ n => exact absurd hz (Nat.succ_ne_zero n)

/-! ## Where the windows are idle and written back -/

private theorem liveAt0_0 (t : Fin cfg0.N) : cfg0.idle 0 (grid0.coords t) = false := rfl
private theorem liveAt0_1 (t : Fin cfg0.N) : cfg0.idle 1 (grid0.coords t) = false := rfl
private theorem idle0_2_eq (i : grid0.Coords) : cfg0.idle 2 i = !(k0_cond2 i == 1#1) := rfl

/-- The output window is live at the last point of a grid row, -/
private theorem liveAt0_2 (t : Fin cfg0.N) (h : t.val % 16 = 15) : cfg0.idle 2 (grid0.coords t) = false := by
  have hc : k0_cond2 (grid0.coords t) = 1#1 := (copyOut_iff _).mpr (by rw [coords_snd t]; exact h)
  rw [idle0_2_eq, hc]; rfl

/-- idle at every other point, -/
private theorem idleAt0_2 (t : Fin cfg0.N) (h : ¬ t.val % 16 = 15) : cfg0.idle 2 (grid0.coords t) = true := by
  have hc : ¬ k0_cond2 (grid0.coords t) = 1#1 := fun hc => h (by rw [← coords_snd t]; exact (copyOut_iff _).mp hc)
  rw [idle0_2_eq, show (k0_cond2 (grid0.coords t) == 1#1) = false from beq_eq_false_iff_ne.mpr hc]; rfl

/-- and not written back there. -/
private theorem noFlush0_2 (t : Fin cfg0.N) (h : ¬ t.val % 16 = 15) : (cfg0.win 2).flush t = false := by
  cases hf : (cfg0.win 2).flush t
  · rfl
  · exact absurd ((flush0_2 t).mp hf) h

/-! ## What the body finds in the inputs' buffers -/

/-- Each input's current staging buffer holds its block at every point. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks. The invariant hands the body the accumulator
    at what the point before left (at anything at the first point, where the step does not read it) and takes
    it back one step on. At the last point of a grid row the output buffer takes the new accumulator; at every
    other point the output window is idle and its buffer comes back as found. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h15 : t.val % 16 = 15
  · have hi15 : (grid0.coords t 1).val = 15 := by rw [coords_snd t]; exact h15
    have hz : t.val ≠ 0 := by omega
    rw [show (dat0 V c).leavesExact 2 t = owns (c : Thread nD τ) (ms0_2 t) fullShare ((dat0 V c).after 2 t) from by
      unfold Dat.leavesExact; rw [liveAt0_2 t h15], after0_2]
    rw [accAt_pos V c t hz]
    rw [PhiS_castSucc V c t, PhiS_pos V c _ _ hz]
    iintro ⟨⟨HS, Hoth, Hg⟩, Ho, ⟨%d0, H0⟩, ⟨%d1, H1⟩, ⟨%d2, H2⟩⟩
    have hk := sound_kernel0 (F := F) c Set.univ (grid0.coords t) (ms0_0 t) (hs0_0 t) (ms0_1 t) (hs0_1 t)
      (ms0_2 t) (hs0_2 t) scM (Memref.isWhole_whole _) (xblk V c t) (wblk V c t)
      ((dat0 V c).before 2 t d2) (accAt V c (t.val - 1) (Nat.lt_of_le_of_lt (Nat.sub_le _ _) t.isLt))
    rw [if_pos hi15] at hk
    iapply (hk _)
    isplitl [H0]; · iexact H0
    isplitl [H1]; · iexact H1
    isplitl [H2]; · iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hi15 : ¬ (grid0.coords t 1).val = 15 := by rw [coords_snd t]; exact h15
    rw [Dat.leavesExact_idle (dat0 V c) 2 t (idleAt0_2 t h15) (noFlush0_2 t h15)]
    by_cases hz : t.val = 0
    · rw [PhiS_castSucc V c t, PhiS_zero V c _ _ hz, PhiA0_eq]
      iintro ⟨⟨⟨⟨%dS, HS⟩, Hoth⟩, Hg⟩, Ho, ⟨%d0, H0⟩, ⟨%d1, H1⟩, ⟨%d2, H2⟩⟩
      rw [accAt_first V c t hz dS]
      have hk := sound_kernel0 (F := F) c Set.univ (grid0.coords t) (ms0_0 t) (hs0_0 t) (ms0_1 t) (hs0_1 t)
        (ms0_2 t) (hs0_2 t) scM (Memref.isWhole_whole _) (xblk V c t) (wblk V c t)
        ((dat0 V c).before 2 t d2) dS
      rw [if_neg hi15] at hk
      iapply (hk _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists d2; iexact H2
    · rw [accAt_pos V c t hz]
      rw [PhiS_castSucc V c t, PhiS_pos V c _ _ hz]
      iintro ⟨⟨HS, Hoth, Hg⟩, Ho, ⟨%d0, H0⟩, ⟨%d1, H1⟩, ⟨%d2, H2⟩⟩
      have hk := sound_kernel0 (F := F) c Set.univ (grid0.coords t) (ms0_0 t) (hs0_0 t) (ms0_1 t) (hs0_1 t)
        (ms0_2 t) (hs0_2 t) scM (Memref.isWhole_whole _) (xblk V c t) (wblk V c t)
        ((dat0 V c).before 2 t d2) (accAt V c (t.val - 1) (Nat.lt_of_le_of_lt (Nat.sub_le _ _) t.isLt))
      rw [if_neg hi15] at hk
      iapply (hk _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class's back: the accumulator's contents are forgotten. -/
private theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, Hoth, Hg⟩
  isplitl [HS Hoth]
  · isplitl [HS]
    · iexists _; iexact HS
    iexact Hoth
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.K.Body1.lean ====
/- The mixing kernel's body as a triple: from a block of 128 batch rows of the node array and the
64 x 64 mixing table it stores, into the output block, each node row plus one half of the table
applied to the node rows. -/
import proofs.«414142_j15384572854802_2_alg».proof.Proof.Gen.Kernel.Launch
import proofs.«414142_j15384572854802_2_alg».proof.Proof.Gen.Kernel.Skeleton
import proofs.«414142_j15384572854802_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body: inputs kept, the output buffer at the one store's value. -/
theorem sound_kernel1 (c : Dev nD) (E : Set ℕ) (i : grid1.Coords)
    (arg1 : Memref sig .tc .vmem S128x64x64 .f32) (harg1 : arg1.IsWhole)
    (arg2 : Memref sig .tc .vmem S64x64 .f32) (harg2 : arg2.IsWhole)
    (arg3 : Memref sig .tc .vmem S128x64x64 .f32) (harg3 : arg3.IsWhole)
    (x0 : Vec F S128x64x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E
          (cc1__entangle_kernel i arg1 harg1 arg2 harg2 arg3 harg3) K := by
  simp only [cc1__entangle_kernel_eq_skeleton]; unfold cc1__entangle_kernel_skel
  unfold owns
  iintro ⟨⟨%f0, %hf0, H0⟩, ⟨%f1, %hf1, H1⟩, ⟨%d, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the zero offsets, as the constant function
  have hz3 : (![0, 0, 0] : Fin 3 → ℕ) = fun _ => 0 := funext fun a => by fin_cases a <;> rfl
  have hz2 : (![0, 0] : Fin 2 → ℕ) = fun _ => 0 := funext fun a => by fin_cases a <;> rfl
  -- each load through the whole buffer reads the contents
  have e0 : View.readAt (Elt F) arg1.view
      (Rect.unit ![0, 0, 0] S128x64x64.size inb_S128x64x64_S128x64x64_0_0_0).toLoadRect f0
        = View.read (Elt F) arg1.view f0 :=
    View.ld_unit_zero (S := S128x64x64) hz3 inb_S128x64x64_S128x64x64_0_0_0 (View.read (Elt F) arg1.view f0)
  have e1 : View.readAt (Elt F) arg2.view
      (Rect.unit ![0, 0] S64x64.size inb_S64x64_S64x64_0_0).toLoadRect f1
        = View.read (Elt F) arg2.view f1 :=
    View.ld_unit_zero (S := S64x64) hz2 inb_S64x64_S64x64_0_0 (View.read (Elt F) arg2.view f1)
  rw [e0, e1]
  -- the one store is through the whole buffer, so it covers it and its canon is its payload
  exact (View.read_writes_eq_canon _ _ _ (fun y => ⟨_, List.mem_singleton_self _,
      View.mem_set_unit_zero (S := S128x64x64) hz3 inb_S128x64x64_S128x64x64_0_0_0 y⟩)).trans
    (View.canon_unit_zero (S := S128x64x64) hz3 inb_S128x64x64_S128x64x64_0_0_0 _)

end Cert.Kernel.Hand

end
-- ==== Proof.K.Data1.lean ====
/- The mixing region's proof data: every point loads its block of node rows and the whole mixing table and
stores its whole output block, so each output block after the body is the one store's value of the two
input blocks and the region keeps the class's invariant. -/
import proofs.«414142_j15384572854802_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The proof data of the mixing pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

/-- Each input's current staging buffer holds its block at every point, fetched there or not: where it is not
fetched its block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies at those blocks;
the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- The region's invariant is the class's at every point: what the launch hands it, and what it gives back. -/
theorem hin1 (c : Dev nD) : Pipeline.ΦA spec1 c ⊢ (dat1 V c).Φ 0 := by
  rw [show (dat1 V c).Φ 0 = Pipeline.ΦA spec1 c from rfl]
theorem hout1 (c : Dev nD) : (dat1 V c).Φ (Fin.last cfg1.N) ⊢ Pipeline.ΦA spec1 c := by
  rw [show (dat1 V c).Φ (Fin.last cfg1.N) = Pipeline.ΦA spec1 c from rfl]

end Cert.Kernel.Hand

end
-- ==== Proof.K.Run.lean ====
/- The whole program run. @main is: the matmul region, two stretches of host operations (together the 85
operations that build the mixing table and reshape the product into node rows), the mixing region, and one
last reshape. The buffers' contents at each boundary are a fold from the launch memory: a host stretch
applies its operations, a region replaces its arrays by what its write-backs leave. Every weakly fair
execution terminates with every unscoped buffer at the last valuation of that fold. -/
import proofs.«414142_j15384572854802_2_alg».proof.Proof.K.Data0
import proofs.«414142_j15384572854802_2_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the matmul region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the matmul region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations, then after the second: the mixing region's entry. -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev V3 : (c : Dev nD) → (b : Ref sig .tc) → Buf (Elt F) ((c : Thread nD τ).loc b) := fun c b => W3 m ρ c b
/-- At the mixing region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation: what the program returns from. -/
abbrev W5 : Dev nD → Valuation τ sig (Elt F) := fun c => StableHlo.after main_part1_ops1 (W4 m ρ c)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V0 m ρ) c)
  hout c := (hout0 (V0 m ρ) c).trans (show Pipeline.ΦA spec0 c ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m ρ) c)
  hout c := (hout1 (V3 m ρ) c).trans (show Pipeline.ΦA spec1 c ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .host (hseg main_part1_ops0 main_part1_ops0_sub main_part1_ops0_fresh (W2 m ρ)),
    .region (reg1 m ρ),
    .host (hseg main_part1_ops1 main_part1_ops1_sub main_part1_ops1_fresh (W4 m ρ)) ]
theorem main_run (c : Dev nD) : main (F := F) c = Pipeline.Seg.run (segs m ρ) := (main_chain_windows c).trans (by chain_rfl)

set_option backward.isDefEq.respectTransparency.types false in
/-- THE RUN: from any memory with zero counters, every weakly fair execution of @main terminates, nothing
    faulting, and every final memory has every unscoped buffer at the last valuation of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.Spec.lean ====
/- The specification: what both programs compute, as one function of the argument arrays.

A linear layer `out = x · Wᵀ` over 2048 batch rows and 4096 features, read as 64 nodes of 64 slots each;
256 directed edges (src e → dst e) between the nodes, each weighted by
`σ(s, d) = (1 + ecoeff[s, d] · cos(phase[s, d])) / (1 + tension[s] · tension[d])`; the result adds to every
node row one half of the weighted sum of the rows of the nodes with an edge into it. An index word is read as
NumPy reads it on an axis of extent 64: a negative word counts from the end. The weight of an edge depends
only on its two end nodes, which is what lets the kernel sum the weights per pair of nodes first. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev T2048x4096 : Shape := ⟨2, ![2048, 4096]⟩
abbrev T4096x4096 : Shape := ⟨2, ![4096, 4096]⟩
abbrev T64x64 : Shape := ⟨2, ![64, 64]⟩
abbrev T64 : Shape := ⟨1, ![64]⟩
abbrev T256 : Shape := ⟨1, ![256]⟩
abbrev T2048x64x64 : Shape := ⟨3, ![2048, 64, 64]⟩

/-- The two float literals both programs carry, kept as their words: 1.0 and 0.5. -/
abbrev one : EReal := Ideal.ofBits .f32 0x3F800000#32
abbrev half : EReal := Ideal.ofBits .f32 0x3F000000#32

/-- An index word on an axis of extent 64 as NumPy reads it: a negative word counts from the end. -/
def norm (w : BitVec 32) : BitVec 32 := if w.toInt < 0 then w + 64#32 else w

/-- The words that index an axis of extent 64 in range. -/
def InRange (w : BitVec 32) : Prop := -64 ≤ w.toInt ∧ w.toInt < 64

/-- A word as a position below 64 (reduced mod 64 so that it is total; in range it is the word). -/
def fin64 (w : BitVec 32) : Fin 64 := ⟨w.toNat % 64, Nat.mod_lt _ (by decide)⟩

/-- The node an index word names. -/
def pos (w : BitVec 32) : Fin 64 := fin64 (norm w)

/-- An in-range word, normalised, is a word of [0, 64), -/
theorem norm_range {w : BitVec 32} (h : InRange w) : 0 ≤ (norm w).toInt ∧ (norm w).toInt < 64 := by
  obtain ⟨h1, h2⟩ := h
  have hw : w.toNat < 2 ^ 32 := w.isLt
  have h64 : (64#32 : BitVec 32).toNat = 64 := by decide
  unfold norm
  split
  · rename_i hneg
    rw [BitVec.toInt_eq_toNat_cond] at h1 h2 hneg ⊢
    rw [BitVec.toNat_add, h64]
    omega
  · omega

/-- and its position is its value. -/
theorem pos_val {w : BitVec 32} (h : InRange w) : ((pos w).val : Int) = (norm w).toInt := by
  obtain ⟨h1, h2⟩ := norm_range h
  have hlt : (norm w).toNat < 2 ^ 32 := (norm w).isLt
  show (((norm w).toNat % 64 : Nat) : Int) = (norm w).toInt
  rw [BitVec.toInt_eq_toNat_cond] at h1 h2 ⊢
  omega

/-- Column `64 s + p` of the 4096 features: slot `p` of node `s`. -/
def col (s p : Fin 64) : Fin 4096 := ⟨64 * s.val + p.val, by omega⟩

/-- The node and the slot of a feature column. -/
def nodeOf (o : Fin 4096) : Fin 64 := ⟨o.val / 64, by omega⟩
def slotOf (o : Fin 4096) : Fin 64 := ⟨o.val % 64, by omega⟩
theorem col_nodeOf_slotOf (o : Fin 4096) : col (nodeOf o) (slotOf o) = o := by
  apply Fin.ext; simp only [col, nodeOf, slotOf]; omega
theorem nodeOf_col (s p : Fin 64) : nodeOf (col s p) = s := by
  apply Fin.ext; simp only [col, nodeOf]; omega
theorem slotOf_col (s p : Fin 64) : slotOf (col s p) = p := by
  apply Fin.ext; simp only [col, slotOf]; omega

section
variable (x : T2048x4096.Idx → EReal) (W : T4096x4096.Idx → EReal) (ecoeff phase : T64x64.Idx → EReal)
  (tension : T64.Idx → EReal) (src dst : T256.Idx → BitVec 32)

/-- The linear layer: row `b` of `x` against row `o` of `W`. -/
def out (b : Fin 2048) (o : Fin 4096) : EReal := ∑ k : Fin 4096, x (ix2 b k) * W (ix2 o k)

/-- The weight of an edge from node `s` to node `d`. -/
def sigma (s d : Fin 64) : EReal :=
  Ideal.div (one + ecoeff (ix2 s d) * Ideal.cos (phase (ix2 s d))) (one + tension (ix1 s) * tension (ix1 d))

/-- The two end nodes and the weight of edge `e`. -/
def srcOf (e : Fin 256) : Fin 64 := pos (src (ix1 e))
def dstOf (e : Fin 256) : Fin 64 := pos (dst (ix1 e))
def scale (e : Fin 256) : EReal := sigma ecoeff phase tension (srcOf src e) (dstOf dst e)

/-- What the edges bring into slot `p` of node `d` in batch row `b`: over the edges into `d`, the source node's
    slot times the edge's weight. -/
def entangled (b : Fin 2048) (d p : Fin 64) : EReal :=
  ∑ e : Fin 256, if dstOf dst e = d then out x W b (col (srcOf src e) p) * scale ecoeff phase tension src dst e else 0

/-- The result at batch row `b`, feature column `o`. -/
def result (b : Fin 2048) (o : Fin 4096) : EReal :=
  out x W b o + half * entangled x W ecoeff phase tension src dst b (nodeOf o) (slotOf o)

/-- The result array. -/
def G : T2048x4096.Idx → EReal := fun i => result x W ecoeff phase tension src dst (i 0) (i 1)

/-- THE KERNEL'S ARRANGEMENT. The mixing table: entry (d, s) sums the weights of the edges from `s` to `d`; -/
def table (d s : Fin 64) : EReal :=
  ∑ e : Fin 256, if dstOf dst e = d ∧ srcOf src e = s then scale ecoeff phase tension src dst e else 0

/-- and the mixed node row: the row plus one half of the table applied to the node rows. -/
def mixed (b : Fin 2048) (d p : Fin 64) : EReal :=
  out x W b (col d p) + half * ∑ s : Fin 64, table ecoeff phase tension src dst d s * out x W b (col s p)

end

end Cert.Spec

end
-- ==== Proof.K.HostLayout.lean ====
/- What the host operations' layout steps do to the buffers of the run: no host operation and no region writes
an argument array, so each reaches the end as launched; the reshape between the regions reads the product at
column 64 d + p as slot p of node d, and the last reshape reads the mixed rows back the same way. -/
import proofs.«414142_j15384572854802_2_alg».proof.Proof.K.Run
import proofs.«414142_j15384572854802_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ) (ρ : Dev nD → PrngReg)

/-! ## What the host stretches leave alone -/

/-- No operation of the first host stretch writes an argument or the product. -/
theorem part0_ops0_keeps (V : Valuation τ sig (Elt F)) (r : Ref sig .tc)
    (hr : r = main_arg0 ∨ r = main_arg1 ∨ r = main_arg2 ∨ r = main_arg3 ∨ r = main_arg4 ∨ r = main_arg5 ∨ r = main_arg6 ∨ r = main_v0) :
    StableHlo.after (main_part0_ops0 : List (HloOp τ sig (Elt F))) V (Proc.devRef .tc r) = V (Proc.devRef .tc r) := by
  refine StableHlo.after_of_forall_not_mem (b := Proc.devRef .tc r) _ _ (List.forall_iff_forall_mem.mp ?_)
  simp only [main_part0_ops0, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl | rfl
  all_goals (repeat' apply And.intro)
  all_goals exact StableHlo.devRef_ne_of_ne (by decide)

/-- No operation of the second host stretch writes an argument. -/
theorem part1_ops0_keeps (V : Valuation τ sig (Elt F)) (r : Ref sig .tc)
    (hr : r = main_arg0 ∨ r = main_arg1 ∨ r = main_arg2 ∨ r = main_arg3 ∨ r = main_arg4 ∨ r = main_arg5 ∨ r = main_arg6) :
    StableHlo.after (main_part1_ops0 : List (HloOp τ sig (Elt F))) V (Proc.devRef .tc r) = V (Proc.devRef .tc r) := by
  refine StableHlo.after_of_forall_not_mem (b := Proc.devRef .tc r) _ _ (List.forall_iff_forall_mem.mp ?_)
  simp only [main_part1_ops0, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl
  all_goals (repeat' apply And.intro)
  all_goals exact StableHlo.devRef_ne_of_ne (by decide)

/-- The last reshape writes no argument. -/
theorem part1_ops1_keeps (V : Valuation τ sig (Elt F)) (r : Ref sig .tc)
    (hr : r = main_arg0 ∨ r = main_arg1 ∨ r = main_arg2 ∨ r = main_arg3 ∨ r = main_arg4 ∨ r = main_arg5 ∨ r = main_arg6) :
    StableHlo.after (main_part1_ops1 : List (HloOp τ sig (Elt F))) V (Proc.devRef .tc r) = V (Proc.devRef .tc r) := by
  refine StableHlo.after_of_forall_not_mem (b := Proc.devRef .tc r) _ _ (List.forall_iff_forall_mem.mp ?_)
  simp only [main_part1_ops1, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl
  all_goals (repeat' apply And.intro)
  all_goals exact StableHlo.devRef_ne_of_ne (by decide)

/-! ## The arguments end as launched -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := part1_ops1_keeps _ main_arg0 (by decide)
    _ = W3 m ρ c (Proc.devRef .tc main_arg0) := W4_of_ne m ρ c main_arg0 (by decide)
    _ = W2 m ρ c (Proc.devRef .tc main_arg0) := part1_ops0_keeps _ main_arg0 (by decide)
    _ = W1 m ρ c (Proc.devRef .tc main_arg0) := part0_ops0_keeps _ main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := part1_ops1_keeps _ main_arg1 (by decide)
    _ = W3 m ρ c (Proc.devRef .tc main_arg1) := W4_of_ne m ρ c main_arg1 (by decide)
    _ = W2 m ρ c (Proc.devRef .tc main_arg1) := part1_ops0_keeps _ main_arg1 (by decide)
    _ = W1 m ρ c (Proc.devRef .tc main_arg1) := part0_ops0_keeps _ main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := part1_ops1_keeps _ main_arg2 (by decide)
    _ = W3 m ρ c (Proc.devRef .tc main_arg2) := W4_of_ne m ρ c main_arg2 (by decide)
    _ = W2 m ρ c (Proc.devRef .tc main_arg2) := part1_ops0_keeps _ main_arg2 (by decide)
    _ = W1 m ρ c (Proc.devRef .tc main_arg2) := part0_ops0_keeps _ main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := part1_ops1_keeps _ main_arg3 (by decide)
    _ = W3 m ρ c (Proc.devRef .tc main_arg3) := W4_of_ne m ρ c main_arg3 (by decide)
    _ = W2 m ρ c (Proc.devRef .tc main_arg3) := part1_ops0_keeps _ main_arg3 (by decide)
    _ = W1 m ρ c (Proc.devRef .tc main_arg3) := part0_ops0_keeps _ main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := part1_ops1_keeps _ main_arg4 (by decide)
    _ = W3 m ρ c (Proc.devRef .tc main_arg4) := W4_of_ne m ρ c main_arg4 (by decide)
    _ = W2 m ρ c (Proc.devRef .tc main_arg4) := part1_ops0_keeps _ main_arg4 (by decide)
    _ = W1 m ρ c (Proc.devRef .tc main_arg4) := part0_ops0_keeps _ main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := part1_ops1_keeps _ main_arg5 (by decide)
    _ = W3 m ρ c (Proc.devRef .tc main_arg5) := W4_of_ne m ρ c main_arg5 (by decide)
    _ = W2 m ρ c (Proc.devRef .tc main_arg5) := part1_ops0_keeps _ main_arg5 (by decide)
    _ = W1 m ρ c (Proc.devRef .tc main_arg5) := part0_ops0_keeps _ main_arg5 (by decide)
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := part1_ops1_keeps _ main_arg6 (by decide)
    _ = W3 m ρ c (Proc.devRef .tc main_arg6) := W4_of_ne m ρ c main_arg6 (by decide)
    _ = W2 m ρ c (Proc.devRef .tc main_arg6) := part1_ops0_keeps _ main_arg6 (by decide)
    _ = W1 m ρ c (Proc.devRef .tc main_arg6) := part0_ops0_keeps _ main_arg6 (by decide)
    _ = W0 m ρ c (Proc.devRef .tc main_arg6) := W1_of_ne m ρ c main_arg6 (by decide)
    _ = m ((c : Thread nD τ).loc main_arg6) := rfl

/-! ## The two reshapes -/

/-- The node rows the mixing region is entered with are the product read by node and slot. -/
theorem W3_v66_apply (c : Dev nD) (b : Fin 2048) (d p : Fin 64) :
    (W3 m ρ c (Proc.devRef .tc main_v66) : S2048x64x64.Idx → Elt F .f32) (ix3 b d p)
      = (W1 m ρ c (Proc.devRef .tc main_v0) : S2048x4096.Idx → Elt F .f32) (ix2 b (Cert.Spec.col d p)) := by
  have e : (W3 m ρ c (Proc.devRef .tc main_v66) : S2048x64x64.Idx → Elt F .f32)
      = shapeCast S2048x64x64 (W2 m ρ c (Proc.devRef .tc main_v0) : S2048x4096.Idx → Elt F .f32)
          shapeCasts_S2048x4096_S2048x64x64 := by
    dsimp only [W3, main_part1_ops0]; after_results_simp; rfl
  have e0 : W2 m ρ c (Proc.devRef .tc main_v0) = W1 m ρ c (Proc.devRef .tc main_v0) :=
    part0_ops0_keeps _ main_v0 (by decide)
  rw [e, e0]
  exact shapeCast_apply _ _ _ _ (by
    show ((⟨2, ![2048, 4096]⟩ : Shape).rowMajor (ix2 b (Cert.Spec.col d p))).val
        = ((⟨3, ![2048, 64, 64]⟩ : Shape).rowMajor (ix3 b d p)).val
    rw [Shape.rowMajor_val_three, Shape.rowMajor_val_two]
    show b.val * 4096 + (64 * d.val + p.val) = (b.val * 64 + d.val) * 64 + p.val
    omega)

/-- The program's result is the mixed rows read back by column. -/
theorem W5_v68_apply (c : Dev nD) (b : Fin 2048) (d p : Fin 64) :
    (W5 m ρ c (Proc.devRef .tc main_v68) : S2048x4096.Idx → Elt F .f32) (ix2 b (Cert.Spec.col d p))
      = (W4 m ρ c (Proc.devRef .tc main_v67) : S2048x64x64.Idx → Elt F .f32) (ix3 b d p) := by
  have e : (W5 m ρ c (Proc.devRef .tc main_v68) : S2048x4096.Idx → Elt F .f32)
      = shapeCast S2048x4096 (W4 m ρ c (Proc.devRef .tc main_v67) : S2048x64x64.Idx → Elt F .f32)
          shapeCasts_S2048x64x64_S2048x4096 := by
    dsimp only [W5, main_part1_ops1]; after_results; rfl
  rw [e]
  exact shapeCast_apply _ _ _ _ (by
    show ((⟨3, ![2048, 64, 64]⟩ : Shape).rowMajor (ix3 b d p)).val
        = ((⟨2, ![2048, 4096]⟩ : Shape).rowMajor (ix2 b (Cert.Spec.col d p))).val
    rw [Shape.rowMajor_val_three, Shape.rowMajor_val_two]
    show (b.val * 64 + d.val) * 64 + p.val = b.val * 4096 + (64 * d.val + p.val)
    omega)

/-- The matmul region is entered from the launch memory. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl

end Cert.Kernel.Hand

end
-- ==== Proof.KI.Step.lean ====
/- The matmul kernel's one arithmetic step and its two conditions.

At grid point (i, k) the kernel adds, to an accumulator block of 256 x 4096 entries, the product of
the 256 x 256 block (i, k) of the left matrix with the transpose of the 4096 x 256 block (·, k) of the
right one; the accumulator starts from zeros when k = 0, and is copied to the output block when
k = 15. This module names that step and puts the two conditions in closed form over the point. -/
import proofs.«414142_j15384572854802_2_alg».proof.Proof.Gen.KernelIdeal.Launch
import proofs.«414142_j15384572854802_2_alg».proof.Proof.Gen.KernelIdeal.Skeleton
import proofs.«414142_j15384572854802_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the accumulation: the block product added to the accumulator, which is zeros at
    the first point of a row of the grid and what the point before left otherwise. -/
def accStep (first : Bool) (prev : Vec F S256x4096 .f32) (x : Vec F S256x256 .f32) (w : Vec F S4096x256 .f32) :
    Vec F S256x4096 .f32 :=
  k0_pay2 x w (if first then (k0_pay1 (F := F)) else prev)

/-- At a first point the step does not read what the accumulator held. -/
theorem accStep_first (prev prev' : Vec F S256x4096 .f32) (x : Vec F S256x256 .f32) (w : Vec F S4096x256 .f32) :
    accStep true prev x w = accStep true prev' x w := rfl

/-- The reset condition holds exactly where the second grid coordinate is 0. -/
theorem reset_iff (i : grid0.Coords) :
    (Scalar.cmpi .ne (Scalar.extui (Scalar.cmpi .eq (BitVec.ofNat 32 (i 1).val) 0#32)) 0#32 = 1#1) ↔ (i 1).val = 0 :=
  (by decide : ∀ k : Fin 16,
    (Scalar.cmpi .ne (Scalar.extui (Scalar.cmpi .eq (BitVec.ofNat 32 k.val) 0#32)) 0#32 = 1#1) ↔ k.val = 0) (i 1)

/-- The copy-out condition holds exactly where the second grid coordinate is 15. -/
theorem copyOut_iff (i : grid0.Coords) : k0_cond2 i = 1#1 ↔ (i 1).val = 15 := by
  unfold k0_cond2
  exact (by decide : ∀ k : Fin 16,
    (Scalar.cmpi .ne (Scalar.extui (Scalar.cmpi .eq (BitVec.ofNat 32 k.val) 15#32)) 0#32 = 1#1) ↔ k.val = 15) (i 1)

/-- The second coordinate of point `t` is `t mod 16`, the first `t / 16`. -/
theorem coords_snd (t : Fin cfg0.N) : (grid0.coords t 1).val = t.val % 16 :=
  (by decide +kernel : ∀ t : Fin grid0.N, (grid0.coords t 1).val = t.val % 16) t
theorem coords_fst (t : Fin cfg0.N) : (grid0.coords t 0).val = t.val / 16 :=
  (by decide +kernel : ∀ t : Fin grid0.N, (grid0.coords t 0).val = t.val / 16) t

end Cert.KernelIdeal.Hand

end
-- ==== Proof.KI.Body0.lean ====
/- The matmul kernel's body as a triple: from the two input blocks, the output buffer and the
accumulator at any contents, it ends with the accumulator one step further and, at the last point
of a grid row, the output buffer holding the accumulator. -/
import proofs.«414142_j15384572854802_2_alg».proof.Proof.KI.Step
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-buffer access are zero. -/
private theorem zeros2 : (![0, 0] : Fin 2 → ℕ) = fun _ => 0 := by
  funext a; fin_cases a <;> rfl

/-- A whole-buffer store at the head of a list of stores covers every index. -/
private theorem cover_head (w : Vec F S256x4096 .f32) (L : List (View.Piece (Elt F) S256x4096 .f32))
    (y : S256x4096.Idx) :
    ∃ p ∈ ((⟨Rect.unit ![0, 0] S256x4096.size inb_S256x4096_S256x4096_0_0, w⟩ :: L :
      List (View.Piece (Elt F) S256x4096 .f32))), y ∈ p.1.set :=
  ⟨_, List.mem_cons_self .., View.mem_set_unit_zero (S := S256x4096) zeros2 inb_S256x4096_S256x4096_0_0 y⟩

/-- After a whole-buffer store, made last, the buffer reads as that store's payload. -/
private theorem read_store {κ : Kind} {sp : Space} (v : View sig κ sp S256x4096 .f32)
    (f : v.ty.Contents (Elt F)) (w : Vec F S256x4096 .f32) (L : List (View.Piece (Elt F) S256x4096 .f32)) :
    v.read (Elt F) (v.writes (Elt F) f
      (⟨Rect.unit ![0, 0] S256x4096.size inb_S256x4096_S256x4096_0_0, w⟩ :: L)) = w := by
  rw [View.read_writes_eq_canon _ _ _ (cover_head w L), View.canon_cons_unit_zero (S := S256x4096) zeros2]

set_option maxHeartbeats 1000000 in
/-- At the first point of a grid row, not the last: the accumulator is reset, then stepped; the
    output buffer is not touched. -/
private theorem body_first (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : (i 1).val = 0) (h15 : ¬ (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                d2
            ∗ owns (c : Thread nD τ) arg5 fullShare (accStep true dS x0 x1)) -∗ K ⟨⟩))
      ⊢ wp frame (wpE (defs₀ (F := F)) Variants.none c none) E
          (cc0__matmul_kernel i arg2 harg2 arg3 harg3 arg4 harg4 arg5 harg5) K := by
  have hc0 := (reset_iff i).mpr h0
  have hc15 : ¬ k0_cond2 i = 1#1 := fun h => h15 ((copyOut_iff i).mp h)
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  rw [read_store, View.readCov_unit_zero (S := S256x4096) _ hz, l2, l3]
  rfl

set_option maxHeartbeats 1000000 in
/-- At a point neither first nor last of its grid row: the accumulator is stepped from what it
    held; the output buffer is not touched. -/
private theorem body_mid (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : ¬ (i 1).val = 0) (h15 : ¬ (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                d2
            ∗ owns (c : Thread nD τ) arg5 fullShare (accStep false dS x0 x1)) -∗ K ⟨⟩))
      ⊢ wp frame (wpE (defs₀ (F := F)) Variants.none c none) E
          (cc0__matmul_kernel i arg2 harg2 arg3 harg3 arg4 harg4 arg5 harg5) K := by
  have hc0 : ¬ (Scalar.cmpi .ne (Scalar.extui (Scalar.cmpi .eq (BitVec.ofNat 32 (i 1).val) 0#32)) 0#32 = 1#1) :=
    fun h => h0 ((reset_iff i).mp h)
  have hc15 : ¬ k0_cond2 i = 1#1 := fun h => h15 ((copyOut_iff i).mp h)
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  have l5 : View.readAt (Elt F) arg5.view (Rect.unit ![0, 0] S256x4096.size inb_S256x4096_S256x4096_0_0).toLoadRect f5
      = View.read (Elt F) arg5.view f5 := View.ld_unit_zero (S := S256x4096) hz _ _
  rw [read_store, l2, l3, l5]
  rfl

set_option maxHeartbeats 1000000 in
/-- At the last point of a grid row (which is not the first): the accumulator is stepped from what
    it held, and the output buffer takes the accumulator's new contents. -/
private theorem body_last (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄)
    (h0 : ¬ (i 1).val = 0) (h15 : (i 1).val = 15) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                (accStep false dS x0 x1)
            ∗ owns (c : Thread nD τ) arg5 fullShare (accStep false dS x0 x1)) -∗ K ⟨⟩))
      ⊢ wp frame (wpE (defs₀ (F := F)) Variants.none c none) E
          (cc0__matmul_kernel i arg2 harg2 arg3 harg3 arg4 harg4 arg5 harg5) K := by
  have hc0 : ¬ (Scalar.cmpi .ne (Scalar.extui (Scalar.cmpi .eq (BitVec.ofNat 32 (i 1).val) 0#32)) 0#32 = 1#1) :=
    fun h => h0 ((reset_iff i).mp h)
  have hc15 : k0_cond2 i = 1#1 := (copyOut_iff i).mpr h15
  have hz : (![0, 0] : Fin 2 → ℕ) = fun _ => 0 := zeros2
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc0 | exact hc15)
  sl_step
  iapply Hk
  isplitl [H2]
  · iexists f2; isplitr; · ipureintro; rfl
    iexact H2
  isplitl [H3]
  · iexists f3; isplitr; · ipureintro; rfl
    iexact H3
  have l2 : View.readAt (Elt F) arg2.view (Rect.unit ![0, 0] S256x256.size inb_S256x256_S256x256_0_0).toLoadRect f2
      = View.read (Elt F) arg2.view f2 := View.ld_unit_zero (S := S256x256) hz _ _
  have l3 : View.readAt (Elt F) arg3.view (Rect.unit ![0, 0] S4096x256.size inb_S4096x256_S4096x256_0_0).toLoadRect f3
      = View.read (Elt F) arg3.view f3 := View.ld_unit_zero (S := S4096x256) hz _ _
  have l5 : View.readAt (Elt F) arg5.view (Rect.unit ![0, 0] S256x4096.size inb_S256x4096_S256x4096_0_0).toLoadRect f5
      = View.read (Elt F) arg5.view f5 := View.ld_unit_zero (S := S256x4096) hz _ _
  isplitl [H4]
  · iexists _; isplitr
    swap; · iexact H4
    ipureintro
    sl_unfold_run_names
    rw [read_store, View.readCov_unit_zero (S := S256x4096) _ hz, l2, l3, l5]
    rfl
  iexists _; isplitr
  swap; · iexact H5
  ipureintro
  sl_unfold_run_names
  rw [read_store, l2, l3, l5]
  rfl

/-- The body at grid coordinates `i`: inputs kept; the accumulator `arg5` one step on from `dS`
    (from zeros where `i 1 = 0`); the output buffer `arg4` at the new accumulator where `i 1 = 15`
    and untouched elsewhere. -/
theorem sound_kernel0 (c : Dev nD) (E : Set ℕ) (i : grid0.Coords)
    (arg2 : Memref sig .tc .vmem S256x256 .f32) (harg2 : arg2.IsWhole)
    (arg3 : Memref sig .tc .vmem S4096x256 .f32) (harg3 : arg3.IsWhole)
    (arg4 : Memref sig .tc .vmem S256x4096 .f32) (harg4 : arg4.IsWhole)
    (arg5 : Memref sig .tc .vmem S256x4096 .f32) (harg5 : arg5.IsWhole)
    (x0 : Vec F S256x256 .f32) (x1 : Vec F S4096x256 .f32) (d2 dS : Vec F S256x4096 .f32)
    (K : PUnit → sProp 𝕄) :
    iprop(owns (c : Thread nD τ) arg2 fullShare x0 ∗ owns (c : Thread nD τ) arg3 fullShare x1
        ∗ owns (c : Thread nD τ) arg4 fullShare d2 ∗ owns (c : Thread nD τ) arg5 fullShare dS
        ∗ (iprop(owns (c : Thread nD τ) arg2 fullShare x0 ∗ owns (c : Thread nD τ) arg3 fullShare x1
            ∗ owns (c : Thread nD τ) arg4 fullShare
                (if (i 1).val = 15 then accStep (decide ((i 1).val = 0)) dS x0 x1 else d2)
            ∗ owns (c : Thread nD τ) arg5 fullShare (accStep (decide ((i 1).val = 0)) dS x0 x1)) -∗ K ⟨⟩))
      ⊢ wp frame (wpE (defs₀ (F := F)) Variants.none c none) E
          (cc0__matmul_kernel i arg2 harg2 arg3 harg3 arg4 harg4 arg5 harg5) K := by
  by_cases h0 : (i 1).val = 0
  · have h15 : ¬ (i 1).val = 15 := by omega
    rw [if_neg h15, decide_eq_true h0]
    exact body_first c E i arg2 harg2 arg3 harg3 arg4 harg4 arg5 harg5 x0 x1 d2 dS K h0 h15
  · rw [decide_eq_false h0]
    by_cases h15 : (i 1).val = 15
    · rw [if_pos h15]
      exact body_last c E i arg2 harg2 arg3 harg3 arg4 harg4 arg5 harg5 x0 x1 d2 dS K h0 h15
    · rw [if_neg h15]
      exact body_mid c E i arg2 harg2 arg3 harg3 arg4 harg4 arg5 harg5 x0 x1 d2 dS K h0 h15

end Cert.KernelIdeal.Hand

end
-- ==== Proof.KI.Data0.lean ====
/- The matmul region's proof data. The accumulator lives in a scratch buffer that the kernel carries from
point to point, so the region's invariant names its contents: after point n it holds the running sum of
the block products of the current grid row up to n. The output block is stored only at the last point of a
row; at the other points the output window is idle and its buffer is handed back as found. -/
import proofs.«414142_j15384572854802_2_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The left matrix's 256 x 256 block and the right matrix's 4096 x 256 block at point `t`. -/
abbrev xblk (c : Dev nD) (t : Fin cfg0.N) : Vec F S256x256 .f32 := iblk0 V c 0 t
abbrev wblk (c : Dev nD) (t : Fin cfg0.N) : Vec F S4096x256 .f32 := iblk0 V c 1 t

/-- The accumulator after point `n`: one step on from what point `n - 1` left (from zeros at the first
    point of a grid row). -/
def accAt (c : Dev nD) : (n : ℕ) → n < cfg0.N → Vec F S256x4096 .f32
  | 0, hn => accStep (decide ((grid0.coords ⟨0, hn⟩ 1).val = 0)) (k0_pay1 (F := F)) (xblk V c ⟨0, hn⟩) (wblk V c ⟨0, hn⟩)
  | n + 1, hn => accStep (decide ((grid0.coords ⟨n + 1, hn⟩ 1).val = 0)) (accAt c n (Nat.lt_of_succ_lt hn))
      (xblk V c ⟨n + 1, hn⟩) (wblk V c ⟨n + 1, hn⟩)

theorem accAt_zero (c : Dev nD) (hn : 0 < cfg0.N) :
    accAt V c 0 hn = accStep (decide ((grid0.coords ⟨0, hn⟩ 1).val = 0)) (k0_pay1 (F := F)) (xblk V c ⟨0, hn⟩) (wblk V c ⟨0, hn⟩) := rfl
theorem accAt_succ (c : Dev nD) (n : ℕ) (hn : n + 1 < cfg0.N) :
    accAt V c (n + 1) hn = accStep (decide ((grid0.coords ⟨n + 1, hn⟩ 1).val = 0)) (accAt V c n (Nat.lt_of_succ_lt hn))
      (xblk V c ⟨n + 1, hn⟩) (wblk V c ⟨n + 1, hn⟩) := rfl

/-- The accumulator's scratch buffer. -/
abbrev scM : Memref sig .tc .vmem S256x4096 .f32 := Memref.whole cc0_scratch0

/-- The core's other scoped buffers that are no staging buffer of this region (the mixing region's
    staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position `n`: before the first point the class's (every scratch at anything);
    afterwards the accumulator at what the point before left, the other scoped buffers at anything, and the
    generator register at some state. -/
def PhiS (c : Dev nD) : (n : ℕ) → n ≤ cfg0.N → sProp 𝕄
  | 0, _ => Pipeline.ΦA spec0 c
  | n + 1, hn => iprop(owns (c : Thread nD τ) scM fullShare (accAt V c n hn) ∗ otherScoped (F := F) c ∗ (∃ r, prngReg c r))

/-- The proof data of the matmul pipeline on core `c`: the arrays as the region finds them; after the body at
    point `t` each input's buffer at its block and the output's at the accumulator; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt V c t.val t.isLt := by dsimp only [dat0]

/-! ## The invariant, position by position -/

private theorem PhiS_zero (c : Dev nD) (n : ℕ) (h : n ≤ cfg0.N) (hz : n = 0) : PhiS V c n h = Pipeline.ΦA spec0 c := by
  subst hz; rfl

/-- After point `n`: the accumulator at that point's contents. -/
private theorem PhiS_succ (c : Dev nD) (n : ℕ) (hn : n < cfg0.N) :
    PhiS V c (n + 1) hn = iprop(owns (c : Thread nD τ) scM fullShare (accAt V c n hn) ∗ otherScoped (F := F) c ∗ (∃ r, prngReg c r)) := rfl

/-- Before a point that is not the first: the accumulator at what the point before left. -/
private theorem PhiS_pos (c : Dev nD) (n : ℕ) (h : n ≤ cfg0.N) (hz : n ≠ 0) :
    PhiS V c n h = iprop(owns (c : Thread nD τ) scM fullShare (accAt V c (n - 1) (by omega)) ∗ otherScoped (F := F) c ∗ (∃ r, prngReg c r)) := by
  cases n with
  | zero => exact absurd rfl hz
  | succ n => rfl

/-- The invariant at a point's start, restated at the point's number. -/
private theorem PhiS_castSucc (c : Dev nD) (t : Fin cfg0.N) :
    (dat0 V c).Φ t.castSucc = PhiS V c t.val (Nat.le_of_lt t.isLt) := by
  dsimp only [dat0]; simp only [Fin.coe_castSucc]

/-- The class's invariant with the scoped rest enumerated: the accumulator's scratch at some contents, the
    other scoped buffers, the generator register. -/
private theorem PhiA0_eq (c : Dev nD) :
    (Pipeline.ΦA spec0 c : sProp 𝕄)
      = iprop(((∃ d, owns (c : Thread nD τ) scM fullShare d) ∗ otherScoped (F := F) c) ∗ (∃ r, prngReg c r)) := by
  unfold Pipeline.ΦA otherScoped; rw [scopedRest0_eq]; simp only [scM, owns_whole]; try rfl

/-! ## The accumulator, one step unfolded at a point -/

/-- At a point that is not the first the accumulator is one step on from the point before. -/
private theorem accAt_pos (c : Dev nD) (t : Fin cfg0.N) (hz : t.val ≠ 0) :
    accAt V c t.val t.isLt = accStep (decide ((grid0.coords t 1).val = 0))
      (accAt V c (t.val - 1) (Nat.lt_of_le_of_lt (Nat.sub_le _ _) t.isLt)) (xblk V c t) (wblk V c t) := by
  obtain ⟨n, hn⟩ := t
  cases n with
  | zero => exact absurd rfl hz
  | succ n => exact accAt_succ V c n hn

/-- At the first point the step starts from zeros, whatever the scratch held. -/
private theorem accAt_first (c : Dev nD) (t : Fin cfg0.N) (hz : t.val = 0) (dS : Vec F S256x4096 .f32) :
    accAt V c t.val t.isLt = accStep (decide ((grid0.coords t 1).val = 0)) dS (xblk V c t) (wblk V c t) := by
  have hf : decide ((grid0.coords t 1).val = 0) = true := by
    rw [coords_snd t, hz]; rfl
  obtain ⟨n, hn⟩ := t
  cases n with
  | zero =>
    rw [accAt_zero V c hn, hf]
    exact accStep_first _ _ _ _
  | succ n => exact absurd hz (Nat.succ_ne_zero n)

/-! ## Where the windows are idle and written back -/

private theorem liveAt0_0 (t : Fin cfg0.N) : cfg0.idle 0 (grid0.coords t) = false := rfl
private theorem liveAt0_1 (t : Fin cfg0.N) : cfg0.idle 1 (grid0.coords t) = false := rfl
private theorem idle0_2_eq (i : grid0.Coords) : cfg0.idle 2 i = !(k0_cond2 i == 1#1) := rfl

/-- The output window is live at the last point of a grid row, -/
private theorem liveAt0_2 (t : Fin cfg0.N) (h : t.val % 16 = 15) : cfg0.idle 2 (grid0.coords t) = false := by
  have hc : k0_cond2 (grid0.coords t) = 1#1 := (copyOut_iff _).mpr (by rw [coords_snd t]; exact h)
  rw [idle0_2_eq, hc]; rfl

/-- idle at every other point, -/
private theorem idleAt0_2 (t : Fin cfg0.N) (h : ¬ t.val % 16 = 15) : cfg0.idle 2 (grid0.coords t) = true := by
  have hc : ¬ k0_cond2 (grid0.coords t) = 1#1 := fun hc => h (by rw [← coords_snd t]; exact (copyOut_iff _).mp hc)
  rw [idle0_2_eq, show (k0_cond2 (grid0.coords t) == 1#1) = false from beq_eq_false_iff_ne.mpr hc]; rfl

/-- and not written back there. -/
private theorem noFlush0_2 (t : Fin cfg0.N) (h : ¬ t.val % 16 = 15) : (cfg0.win 2).flush t = false := by
  cases hf : (cfg0.win 2).flush t
  · rfl
  · exact absurd ((flush0_2 t).mp hf) h

/-! ## What the body finds in the inputs' buffers -/

/-- Each input's current staging buffer holds its block at every point. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, and its wholeness. -/
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks. The invariant hands the body the accumulator
    at what the point before left (at anything at the first point, where the step does not read it) and takes
    it back one step on. At the last point of a grid row the output buffer takes the new accumulator; at every
    other point the output window is idle and its buffer comes back as found. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h15 : t.val % 16 = 15
  · have hi15 : (grid0.coords t 1).val = 15 := by rw [coords_snd t]; exact h15
    have hz : t.val ≠ 0 := by omega
    rw [show (dat0 V c).leavesExact 2 t = owns (c : Thread nD τ) (ms0_2 t) fullShare ((dat0 V c).after 2 t) from by
      unfold Dat.leavesExact; rw [liveAt0_2 t h15], after0_2]
    rw [accAt_pos V c t hz]
    rw [PhiS_castSucc V c t, PhiS_pos V c _ _ hz]
    iintro ⟨⟨HS, Hoth, Hg⟩, Ho, ⟨%d0, H0⟩, ⟨%d1, H1⟩, ⟨%d2, H2⟩⟩
    have hk := sound_kernel0 (F := F) c Set.univ (grid0.coords t) (ms0_0 t) (hs0_0 t) (ms0_1 t) (hs0_1 t)
      (ms0_2 t) (hs0_2 t) scM (Memref.isWhole_whole _) (xblk V c t) (wblk V c t)
      ((dat0 V c).before 2 t d2) (accAt V c (t.val - 1) (Nat.lt_of_le_of_lt (Nat.sub_le _ _) t.isLt))
    rw [if_pos hi15] at hk
    iapply (hk _)
    isplitl [H0]; · iexact H0
    isplitl [H1]; · iexact H1
    isplitl [H2]; · iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · have hi15 : ¬ (grid0.coords t 1).val = 15 := by rw [coords_snd t]; exact h15
    rw [Dat.leavesExact_idle (dat0 V c) 2 t (idleAt0_2 t h15) (noFlush0_2 t h15)]
    by_cases hz : t.val = 0
    · rw [PhiS_castSucc V c t, PhiS_zero V c _ _ hz, PhiA0_eq]
      iintro ⟨⟨⟨⟨%dS, HS⟩, Hoth⟩, Hg⟩, Ho, ⟨%d0, H0⟩, ⟨%d1, H1⟩, ⟨%d2, H2⟩⟩
      rw [accAt_first V c t hz dS]
      have hk := sound_kernel0 (F := F) c Set.univ (grid0.coords t) (ms0_0 t) (hs0_0 t) (ms0_1 t) (hs0_1 t)
        (ms0_2 t) (hs0_2 t) scM (Memref.isWhole_whole _) (xblk V c t) (wblk V c t)
        ((dat0 V c).before 2 t d2) dS
      rw [if_neg hi15] at hk
      iapply (hk _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists d2; iexact H2
    · rw [accAt_pos V c t hz]
      rw [PhiS_castSucc V c t, PhiS_pos V c _ _ hz]
      iintro ⟨⟨HS, Hoth, Hg⟩, Ho, ⟨%d0, H0⟩, ⟨%d1, H1⟩, ⟨%d2, H2⟩⟩
      have hk := sound_kernel0 (F := F) c Set.univ (grid0.coords t) (ms0_0 t) (hs0_0 t) (ms0_1 t) (hs0_1 t)
        (ms0_2 t) (hs0_2 t) scM (Memref.isWhole_whole _) (xblk V c t) (wblk V c t)
        ((dat0 V c).before 2 t d2) (accAt V c (t.val - 1) (Nat.lt_of_le_of_lt (Nat.sub_le _ _) t.isLt))
      rw [if_neg hi15] at hk
      iapply (hk _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class's back: the accumulator's contents are forgotten. -/
private theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, Hoth, Hg⟩
  isplitl [HS Hoth]
  · isplitl [HS]
    · iexists _; iexact HS
    iexact Hoth
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.KI.Value0.lean ====
/- The matmul region's array over the extended reals. Along a grid row the accumulator runs through the 16 column
blocks of 256, starting from zeros; the output block is written back at the row's last point, so the array the
region leaves holds, at (b, o), the sum over all 4096 columns k of x[b, k] · W[o, k]: a sum of 16 block sums is
the whole sum, and a change of float format is the identity on the extended reals. -/
import proofs.«414142_j15384572854802_2_alg».proof.Proof.KI.Data0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The two argument arrays as the region finds them and the array it leaves, at their literal types. -/
abbrev xArr (c : Dev nD) : S2048x4096.Idx → EReal := V c main_arg0
abbrev wArr (c : Dev nD) : S4096x4096.Idx → EReal := V c main_arg1
abbrev prodArr (c : Dev nD) : S2048x4096.Idx → EReal := (dat0 (F := Ideal) V c).arrAt 2 cfg0.N

/-! ## The accumulate step at an entry -/

/-- The block product's dimension numbers: a left index is (row of the output, contraction index), -/
private theorem lhs_acc_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
private theorem lhs_acc_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
/-- a right index (contraction index, column of the output). -/
private theorem rhs_acc_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
private theorem rhs_acc_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The product of a 256 x 256 block with the transpose of a 4096 x 256 block, into zeros, entry by entry. -/
private theorem blockProd_apply (x : Vec Ideal S256x256 .f32) (w : Vec Ideal S4096x256 .f32) (p : Fin 256) (q : Fin 4096) :
    (matmul dot_S256x256_S256x4096_S256x4096_1_0_0_1_n_n none (truncf .bf16 x bitsLt_bf16_f32)
      (transpose S256x4096 [1, 0] (truncf .bf16 w bitsLt_bf16_f32) transposes_S4096x256_p1_0_S256x4096)
      (constant (F := Ideal) S256x4096 .f32 0x00000000#32) : FVec Ideal S256x4096 .f32) (ix2 p q)
      = ∑ j : Fin 256, x (ix2 p j) * w (ix2 q j) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p q) ((contrEquiv1 dot_S256x256_S256x4096_S256x4096_1_0_0_1_n_n 256 rfl rfl).symm k) = ix2 p k := funext fun a => Fin.ext (by
    match a with
    | ⟨0, _⟩ => exact lhs_acc_0 _ _
    | ⟨1, _⟩ => exact (lhs_acc_1 _ _).trans hk)
  have er : dot_S256x256_S256x4096_S256x4096_1_0_0_1_n_n.rhsIdx (ix2 p q) ((contrEquiv1 dot_S256x256_S256x4096_S256x4096_1_0_0_1_n_n 256 rfl rfl).symm k) = ix2 k q := funext fun a => Fin.ext (by
    match a with
    | ⟨0, _⟩ => exact (rhs_acc_0 _ _).trans hk
    | ⟨1, _⟩ => exact rhs_acc_1 _ _)
  rw [el, er]
  have et : transpose S256x4096 [1, 0] (truncf .bf16 w bitsLt_bf16_f32) transposes_S4096x256_p1_0_S256x4096 (ix2 k q)
      = (truncf .bf16 w bitsLt_bf16_f32 : FVec Ideal S4096x256 .bf16) (ix2 q k) :=
    transpose_apply [1, 0] _ transposes_S4096x256_p1_0_S256x4096 (ix2 k q) (ix2 q k) (fun b => match b with
      | ⟨0, _⟩ => rfl
      | ⟨1, _⟩ => rfl)
  rw [et]
  rfl

/-- One step of the accumulation, entry by entry: the block product added to zero at a first point and to what
    the accumulator held otherwise. -/
private theorem accStep_apply (first : Bool) (prev : Vec Ideal S256x4096 .f32) (x : Vec Ideal S256x256 .f32)
    (w : Vec Ideal S4096x256 .f32) (p : Fin 256) (q : Fin 4096) :
    accStep (F := Ideal) first prev x w (ix2 p q)
      = (if first then 0 else prev (ix2 p q)) + ∑ j : Fin 256, x (ix2 p j) * w (ix2 q j) := by
  unfold accStep k0_pay2
  rw [shapeCast_self]
  refine (addf_apply _ _ (ix2 p q)).trans ?_
  rw [blockProd_apply]
  cases first
  · rfl
  · show k0_pay1 (F := Ideal) (ix2 p q) + _ = 0 + _
    unfold k0_pay1
    rw [shapeCast_self]
    show Ideal.ofBits .f32 0x00000000#32 + _ = 0 + _
    rw [Ideal.ofBits_zero_f32]

/-! ## The staged blocks as entries of the two matrices -/

/-- The windows' block indices over the grid: point `t` is row block `t / 16`, column block `t % 16`. -/
private theorem blockIdx0 : ∀ t : Fin cfg0.N, win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- The left block at point `t` holds rows `256 (t / 16) + p`, columns `256 (t % 16) + j` of `x`. -/
private theorem xblk_apply (c : Dev nD) (t : Fin cfg0.N) (p j : Fin 256) (r : Fin 2048) (k : Fin 4096)
    (hr : r.val = 256 * (t.val / 16) + p.val) (hk : k.val = 256 * (t.val % 16) + j.val) :
    xblk (F := Ideal) V c t (ix2 p j) = xArr V c (ix2 r k) := by
  obtain ⟨e0, e1, -, -, -, -⟩ := blockIdx0 t
  show iblk0 (F := Ideal) V c 0 t (ix2 p j) = _
  unfold iblk0
  rw [View.read_apply]
  show V c main_arg0 _ = V c main_arg0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 256 + 1 * j.val = k.val; rw [e1, hk]; omega

/-- The right block at point `t` holds every row `q`, columns `256 (t % 16) + j` of `W`. -/
private theorem wblk_apply (c : Dev nD) (t : Fin cfg0.N) (q : Fin 4096) (j : Fin 256) (k : Fin 4096)
    (hk : k.val = 256 * (t.val % 16) + j.val) :
    wblk (F := Ideal) V c t (ix2 q j) = wArr V c (ix2 q k) := by
  obtain ⟨-, -, e0, e1, -, -⟩ := blockIdx0 t
  show iblk0 (F := Ideal) V c 1 t (ix2 q j) = _
  unfold iblk0
  rw [View.read_apply]
  show V c main_arg1 _ = V c main_arg1 _
  congr 1
  funext a
  apply Fin.ext
  match a with
  | ⟨0, _⟩ => show win0_1.index t (0 : Fin 2) * 4096 + 1 * q.val = q.val; rw [e0]; omega
  | ⟨1, _⟩ => show win0_1.index t (1 : Fin 2) * 256 + 1 * j.val = k.val; rw [e1, hk]; omega

/-! ## The accumulator along a grid row -/

/-- Entry (r, n) of `x` times entry (o, n) of `W`, over natural-number positions (zero outside the matrices):
    the terms of the sums the accumulator runs through. -/
private def term (c : Dev nD) (r : ℕ) (o : Fin 4096) (n : ℕ) : EReal :=
  if h : r < 2048 ∧ n < 4096 then xArr V c (ix2 ⟨r, h.1⟩ ⟨n, h.2⟩) * wArr V c (ix2 o ⟨n, h.2⟩) else 0

/-- A product of two staged entries at point `t` is such a term. -/
private theorem blk_term (c : Dev nD) (t : Fin cfg0.N) (p j : Fin 256) (q : Fin 4096) :
    xblk (F := Ideal) V c t (ix2 p j) * wblk (F := Ideal) V c t (ix2 q j)
      = term V c (256 * (t.val / 16) + p.val) q (256 * (t.val % 16) + j.val) := by
  have hN : cfg0.N = 128 := N_0
  have ht := t.isLt
  have hp := p.isLt
  have hj := j.isLt
  have h : 256 * (t.val / 16) + p.val < 2048 ∧ 256 * (t.val % 16) + j.val < 4096 := by omega
  unfold term
  rw [dif_pos h, xblk_apply V c t p j ⟨_, h.1⟩ ⟨_, h.2⟩ rfl rfl, wblk_apply V c t q j ⟨_, h.2⟩ rfl]

/-- The block product at point `t` is the sum of the 256 terms of column block `t % 16`. -/
private theorem blk_sum (c : Dev nD) (t : Fin cfg0.N) (p : Fin 256) (q : Fin 4096) :
    ∑ j : Fin 256, xblk (F := Ideal) V c t (ix2 p j) * wblk (F := Ideal) V c t (ix2 q j)
      = ∑ j ∈ Finset.range 256, term V c (256 * (t.val / 16) + p.val) q (256 * (t.val % 16) + j) := by
  rw [← Fin.sum_univ_eq_sum_range (fun j => term V c (256 * (t.val / 16) + p.val) q (256 * (t.val % 16) + j)) 256]
  exact Finset.sum_congr rfl fun j _ => blk_term V c t p j q

/-- After point `n` of grid row `n / 16` the accumulator holds, at (p, q), the sum of the terms of the column
    blocks `0 … n % 16`: by induction on the point, the sum starting afresh at the first point of a row. -/
private theorem accAt_apply (c : Dev nD) : ∀ (n : ℕ) (hn : n < cfg0.N) (p : Fin 256) (q : Fin 4096),
    accAt (F := Ideal) V c n hn (ix2 p q)
      = ∑ m ∈ Finset.range (256 * (n % 16 + 1)), term V c (256 * (n / 16) + p.val) q m
  | 0, hn, p, q => by
    have hf : decide ((grid0.coords ⟨0, hn⟩ 1).val = 0) = true := by rw [coords_snd]; rfl
    rw [accAt_zero, accStep_apply, blk_sum V c ⟨0, hn⟩ p q, hf, if_pos rfl, zero_add]
    refine Finset.sum_congr rfl fun j _ => ?_
    show term V c (256 * (0 / 16) + p.val) q (256 * (0 % 16) + j) = term V c (256 * (0 / 16) + p.val) q j
    rw [Nat.zero_mod, Nat.mul_zero, Nat.zero_add, Nat.zero_add]
  | n + 1, hn, p, q => by
    rw [accAt_succ, accStep_apply, blk_sum V c ⟨n + 1, hn⟩ p q, accAt_apply c n (Nat.lt_of_succ_lt hn) p q]
    show (if decide ((grid0.coords ⟨n + 1, hn⟩ 1).val = 0) = true then 0 else _)
      + ∑ j ∈ Finset.range 256, term V c (256 * ((n + 1) / 16) + p.val) q (256 * ((n + 1) % 16) + j) = _
    rw [coords_snd]
    show (if decide ((n + 1) % 16 = 0) = true then 0 else _) + _ = _
    by_cases h0 : (n + 1) % 16 = 0
    · rw [decide_eq_true h0, if_pos rfl, zero_add, h0]
      refine Finset.sum_congr rfl fun j _ => ?_
      rw [Nat.mul_zero, Nat.zero_add]
    · have h1 : (n + 1) / 16 = n / 16 := by omega
      have h2 : (n + 1) % 16 = n % 16 + 1 := by omega
      rw [decide_eq_false h0, if_neg (by decide), h1, h2,
        show 256 * (n % 16 + 1 + 1) = 256 * (n % 16 + 1) + 256 from by omega, Finset.sum_range_add]

/-! ## From the blocks to the array -/

/-- What the region leaves: at (b, o) the sum over all 4096 columns of `x[b, ·] · W[o, ·]`. -/
private def prodFn (c : Dev nD) : S2048x4096.Idx → EReal :=
  fun i => ∑ k : Fin 4096, xArr V c (ix2 ⟨(i 0).val, (i 0).isLt⟩ k) * wArr V c (ix2 ⟨(i 1).val, (i 1).isLt⟩ k)

private theorem prodFn_apply (c : Dev nD) (i : S2048x4096.Idx) (b : Fin 2048) (o : Fin 4096)
    (hb : (i 0).val = b.val) (ho : (i 1).val = o.val) :
    prodFn V c i = ∑ k : Fin 4096, xArr V c (ix2 b k) * wArr V c (ix2 o k) := by
  obtain rfl : b = ⟨(i 0).val, (i 0).isLt⟩ := Fin.ext hb.symm
  obtain rfl : o = ⟨(i 1).val, (i 1).isLt⟩ := Fin.ext ho.symm
  rfl

/-- The 4096 terms of a row, summed over positions, are the sum over the columns. -/
private theorem rowSum_eq (c : Dev nD) (b : Fin 2048) (o : Fin 4096) :
    ∑ m ∈ Finset.range 4096, term V c b.val o m = ∑ k : Fin 4096, xArr V c (ix2 b k) * wArr V c (ix2 o k) := by
  rw [← Fin.sum_univ_eq_sum_range (fun m => term V c b.val o m) 4096]
  refine Finset.sum_congr rfl fun k _ => ?_
  unfold term
  rw [dif_pos ⟨b.isLt, k.isLt⟩]

/-- The last point of a grid row writes back its block of `prodFn`: the accumulator has run through all 16
    column blocks. -/
private theorem flushed0_eq (c : Dev nD) (t : Fin cfg0.N) (hf : (cfg0.win 2).flush t = true) :
    (dat0 (F := Ideal) V c).flushed 2 t = ((cfg0.win 2).blk t).view.read (Elt Ideal) (prodFn V c) := by
  have hN : cfg0.N = 128 := N_0
  have ht := t.isLt
  have h15 : t.val % 16 = 15 := (flush0_2 t).mp hf
  obtain ⟨-, -, -, -, e0, e1⟩ := blockIdx0 t
  show (cfg0.win 2).cut (grid0.coords t) ((dat0 (F := Ideal) V c).after 2 t) = _
  rw [after0_2]
  funext j
  rw [View.read_apply]
  have hp : (j 0).val < 256 := (j 0).isLt
  have hq : (j 1).val < 4096 := (j 1).isLt
  have hb : 256 * (t.val / 16) + (j 0).val < 2048 := by omega
  have hx : (cfg0.win 2).xinj (grid0.coords t) j = ix2 (⟨(j 0).val, hp⟩ : Fin 256) (⟨(j 1).val, hq⟩ : Fin 4096) :=
    funext fun a => by
      match a with
      | ⟨0, _⟩ => rfl
      | ⟨1, _⟩ => rfl
  show accAt (F := Ideal) V c t.val t.isLt ((cfg0.win 2).xinj (grid0.coords t) j) = _
  refine (congrArg (accAt (F := Ideal) V c t.val t.isLt) hx).trans ?_
  refine Eq.trans ?_ (prodFn_apply V c _ ⟨256 * (t.val / 16) + (j 0).val, hb⟩ ⟨(j 1).val, hq⟩ ?_ ?_).symm
  · rw [accAt_apply, h15]
    exact rowSum_eq V c ⟨256 * (t.val / 16) + (j 0).val, hb⟩ ⟨(j 1).val, hq⟩
  · show win0_2.index t (0 : Fin 2) * 256 + 1 * (j 0).val = 256 * (t.val / 16) + (j 0).val
    rw [e0]; omega
  · show win0_2.index t (1 : Fin 2) * 4096 + 1 * (j 1).val = (j 1).val
    rw [e1]; omega

/-- An entry of the array lies in point `t`'s block iff each coordinate is in the block's range. -/
private theorem mem_blk0 (t : Fin cfg0.N) (i : S2048x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Row `r` of the array is in the block written back at the last point of grid row `r / 256`. -/
private theorem cover0 (i : S2048x4096.Idx) :
    ∃ t : Fin cfg0.N, (cfg0.win 2).flush t = true ∧ i ∈ ((cfg0.win 2).blk t).view.set := by
  have hN : cfg0.N = 128 := N_0
  have hi0 : (i 0).val < 2048 := (i 0).isLt
  have hi1 : (i 1).val < 4096 := (i 1).isLt
  have htN : 16 * ((i 0).val / 256) + 15 < cfg0.N := by omega
  have htv : (⟨16 * ((i 0).val / 256) + 15, htN⟩ : Fin cfg0.N).val = 16 * ((i 0).val / 256) + 15 := rfl
  obtain ⟨-, -, -, -, e0, e1⟩ := blockIdx0 ⟨16 * ((i 0).val / 256) + 15, htN⟩
  refine ⟨⟨16 * ((i 0).val / 256) + 15, htN⟩, (flush0_2 _).mpr (by rw [htv]; omega), ?_⟩
  rw [mem_blk0]
  intro a
  match a with
  | ⟨0, _⟩ =>
    show win0_2.index ⟨16 * ((i 0).val / 256) + 15, htN⟩ (0 : Fin 2) * 256 ≤ (i 0).val ∧ (i 0).val < win0_2.index ⟨16 * ((i 0).val / 256) + 15, htN⟩ (0 : Fin 2) * 256 + 256
    rw [e0, htv]; omega
  | ⟨1, _⟩ =>
    show win0_2.index ⟨16 * ((i 0).val / 256) + 15, htN⟩ (1 : Fin 2) * 4096 ≤ (i 1).val ∧ (i 1).val < win0_2.index ⟨16 * ((i 0).val / 256) + 15, htN⟩ (1 : Fin 2) * 4096 + 4096
    rw [e1]; omega

/-- So the array the region leaves is `prodFn`. -/
private theorem prodArr_eq (c : Dev nD) : prodArr V c = prodFn V c :=
  (dat0 (F := Ideal) V c).arrAt_eq_of_cover 2 (prodFn V c) (flushed0_eq V c) cover0

/-- What the matmul region leaves in its result array, entry by entry. -/
theorem arr0 (c : Dev nD) (b : Fin 2048) (o : Fin 4096) :
    prodArr V c (ix2 b o) = ∑ k : Fin 4096, xArr V c (ix2 b k) * wArr V c (ix2 o k) :=
  (congrFun (prodArr_eq V c) (ix2 b o)).trans (prodFn_apply V c (ix2 b o) b o rfl rfl)

end Cert.KernelIdeal.Hand

end
-- ==== Proof.KI.Body1.lean ====
/- The mixing kernel's body as a triple: from a block of 128 batch rows of the node array and the
64 x 64 mixing table it stores, into the output block, each node row plus one half of the table
applied to the node rows. -/
import proofs.«414142_j15384572854802_2_alg».proof.Proof.Gen.KernelIdeal.Launch
import proofs.«414142_j15384572854802_2_alg».proof.Proof.Gen.KernelIdeal.Skeleton
import proofs.«414142_j15384572854802_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body: inputs kept, the output buffer at the one store's value. -/
theorem sound_kernel1 (c : Dev nD) (E : Set ℕ) (i : grid1.Coords)
    (arg1 : Memref sig .tc .vmem S128x64x64 .f32) (harg1 : arg1.IsWhole)
    (arg2 : Memref sig .tc .vmem S64x64 .f32) (harg2 : arg2.IsWhole)
    (arg3 : Memref sig .tc .vmem S128x64x64 .f32) (harg3 : arg3.IsWhole)
    (x0 : Vec F S128x64x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E
          (cc1__entangle_kernel i arg1 harg1 arg2 harg2 arg3 harg3) K := by
  simp only [cc1__entangle_kernel_eq_skeleton]; unfold cc1__entangle_kernel_skel
  unfold owns
  iintro ⟨⟨%f0, %hf0, H0⟩, ⟨%f1, %hf1, H1⟩, ⟨%d, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the zero offsets, as the constant function
  have hz3 : (![0, 0, 0] : Fin 3 → ℕ) = fun _ => 0 := funext fun a => by fin_cases a <;> rfl
  have hz2 : (![0, 0] : Fin 2 → ℕ) = fun _ => 0 := funext fun a => by fin_cases a <;> rfl
  -- each load through the whole buffer reads the contents
  have e0 : View.readAt (Elt F) arg1.view
      (Rect.unit ![0, 0, 0] S128x64x64.size inb_S128x64x64_S128x64x64_0_0_0).toLoadRect f0
        = View.read (Elt F) arg1.view f0 :=
    View.ld_unit_zero (S := S128x64x64) hz3 inb_S128x64x64_S128x64x64_0_0_0 (View.read (Elt F) arg1.view f0)
  have e1 : View.readAt (Elt F) arg2.view
      (Rect.unit ![0, 0] S64x64.size inb_S64x64_S64x64_0_0).toLoadRect f1
        = View.read (Elt F) arg2.view f1 :=
    View.ld_unit_zero (S := S64x64) hz2 inb_S64x64_S64x64_0_0 (View.read (Elt F) arg2.view f1)
  rw [e0, e1]
  -- the one store is through the whole buffer, so it covers it and its canon is its payload
  exact (View.read_writes_eq_canon _ _ _ (fun y => ⟨_, List.mem_singleton_self _,
      View.mem_set_unit_zero (S := S128x64x64) hz3 inb_S128x64x64_S128x64x64_0_0_0 y⟩)).trans
    (View.canon_unit_zero (S := S128x64x64) hz3 inb_S128x64x64_S128x64x64_0_0_0 _)

end Cert.KernelIdeal.Hand

end
-- ==== Proof.KI.Data1.lean ====
/- The mixing region's proof data: every point loads its block of node rows and the whole mixing table and
stores its whole output block, so each output block after the body is the one store's value of the two
input blocks and the region keeps the class's invariant. -/
import proofs.«414142_j15384572854802_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The proof data of the mixing pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

/-- Each input's current staging buffer holds its block at every point, fetched there or not: where it is not
fetched its block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies at those blocks;
the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- The region's invariant is the class's at every point: what the launch hands it, and what it gives back. -/
theorem hin1 (c : Dev nD) : Pipeline.ΦA spec1 c ⊢ (dat1 V c).Φ 0 := by
  rw [show (dat1 V c).Φ 0 = Pipeline.ΦA spec1 c from rfl]
theorem hout1 (c : Dev nD) : (dat1 V c).Φ (Fin.last cfg1.N) ⊢ Pipeline.ΦA spec1 c := by
  rw [show (dat1 V c).Φ (Fin.last cfg1.N) = Pipeline.ΦA spec1 c from rfl]

end Cert.KernelIdeal.Hand

end
-- ==== Proof.KI.Value1.lean ====
/- The mixing region's array over the extended reals. Every point handles 128 batch rows: for batch row b, node d and
slot p it stores the node row's entry plus one half of the sum over the nodes s of table[d, s] · nodes[b, s, p]
(a batched matrix product into a zero accumulator is that sum). The blocks tile the array along the batch axis. -/
import proofs.«414142_j15384572854802_2_alg».proof.Proof.KI.Data1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The node rows and the mixing table as the region finds them and the array it leaves, at their literal types. -/
abbrev nodeArr (c : Dev nD) : S2048x64x64.Idx → EReal := V c main_v66
abbrev tableArr (c : Dev nD) : S64x64.Idx → EReal := V c main_v65
abbrev mixArr (c : Dev nD) : S2048x64x64.Idx → EReal := (dat1 (F := Ideal) V c).arrAt 2 cfg1.N

/-! ## The batched product at an index

The product's record has the batch axis 0 on both sides, contracts the left operand's axis 2 with the right operand's
axis 1, and keeps the left operand's axis 1 and the right operand's axis 2: the left operand is read at
(batch, row, contraction) and the right one at (batch, contraction, column). -/

theorem lhs_mix_0 (i : S128x64x64.Idx) (q : dot_S128x64x64_S128x64x64_S128x64x64_2_1_1_2_0_0.contr.Idx) :
    (dot_S128x64x64_S128x64x64_S128x64x64_2_1_1_2_0_0.lhsIdx i q 0).val = (i 0).val := by
  unfold DotDims.lhsIdx
  rw [dif_pos (show (0 : Fin S128x64x64.rank) ∈ dot_S128x64x64_S128x64x64_S128x64x64_2_1_1_2_0_0.lhsBatch by decide)]
  rfl
theorem lhs_mix_1 (i : S128x64x64.Idx) (q : dot_S128x64x64_S128x64x64_S128x64x64_2_1_1_2_0_0.contr.Idx) :
    (dot_S128x64x64_S128x64x64_S128x64x64_2_1_1_2_0_0.lhsIdx i q 1).val = (i 1).val := by
  unfold DotDims.lhsIdx
  rw [dif_neg (show ¬(1 : Fin S128x64x64.rank) ∈ dot_S128x64x64_S128x64x64_S128x64x64_2_1_1_2_0_0.lhsBatch by decide), dif_pos (show (1 : Fin S128x64x64.rank) ∈ dot_S128x64x64_S128x64x64_S128x64x64_2_1_1_2_0_0.lhsNonContracting by decide)]
  rfl
theorem lhs_mix_2 (i : S128x64x64.Idx) (q : dot_S128x64x64_S128x64x64_S128x64x64_2_1_1_2_0_0.contr.Idx) :
    (dot_S128x64x64_S128x64x64_S128x64x64_2_1_1_2_0_0.lhsIdx i q 2).val = (q ⟨0, by decide⟩).val :=
  dot_S128x64x64_S128x64x64_S128x64x64_2_1_1_2_0_0.lhsIdx_val_of_single rfl i q
theorem rhs_mix_0 (i : S128x64x64.Idx) (q : dot_S128x64x64_S128x64x64_S128x64x64_2_1_1_2_0_0.contr.Idx) :
    (dot_S128x64x64_S128x64x64_S128x64x64_2_1_1_2_0_0.rhsIdx i q 0).val = (i 0).val := by
  unfold DotDims.rhsIdx
  rw [dif_pos (show (0 : Fin S128x64x64.rank) ∈ dot_S128x64x64_S128x64x64_S128x64x64_2_1_1_2_0_0.rhsBatch by decide)]
  rfl
theorem rhs_mix_1 (i : S128x64x64.Idx) (q : dot_S128x64x64_S128x64x64_S128x64x64_2_1_1_2_0_0.contr.Idx) :
    (dot_S128x64x64_S128x64x64_S128x64x64_2_1_1_2_0_0.rhsIdx i q 1).val = (q ⟨0, by decide⟩).val :=
  dot_S128x64x64_S128x64x64_S128x64x64_2_1_1_2_0_0.rhsIdx_val_of_single rfl i q
theorem rhs_mix_2 (i : S128x64x64.Idx) (q : dot_S128x64x64_S128x64x64_S128x64x64_2_1_1_2_0_0.contr.Idx) :
    (dot_S128x64x64_S128x64x64_S128x64x64_2_1_1_2_0_0.rhsIdx i q 2).val = (i 2).val := by
  unfold DotDims.rhsIdx
  rw [dif_neg (show ¬(2 : Fin S128x64x64.rank) ∈ dot_S128x64x64_S128x64x64_S128x64x64_2_1_1_2_0_0.rhsBatch by decide), dif_pos (show (2 : Fin S128x64x64.rank) ∈ dot_S128x64x64_S128x64x64_S128x64x64_2_1_1_2_0_0.rhsNonContracting by decide)]
  rfl

/-- The batched product into a zero accumulator, entry by entry: the sum over the contracted axis. -/
theorem mix_matmul_apply (l r : FVec Ideal S128x64x64 .f32) (b : Fin 128) (d p : Fin 64) :
    matmul dot_S128x64x64_S128x64x64_S128x64x64_2_1_1_2_0_0 (some .fp32) l r (constant (F := Ideal) S128x64x64 .f32 0x00000000#32) (ix3 b d p)
      = ∑ s : Fin 64, l (ix3 b d s) * r (ix3 b s p) := by
  simp only [matmul]
  rw [Ideal.matmul_constant_zero_apply, ← Equiv.sum_comp (contrEquiv1 dot_S128x64x64_S128x64x64_S128x64x64_2_1_1_2_0_0 64 rfl rfl).symm]
  refine Finset.sum_congr rfl fun k _ => ?_
  have hk := contrEquiv1_symm_val dot_S128x64x64_S128x64x64_S128x64x64_2_1_1_2_0_0 64 rfl rfl k
  have el : dot_S128x64x64_S128x64x64_S128x64x64_2_1_1_2_0_0.lhsIdx (ix3 b d p) ((contrEquiv1 dot_S128x64x64_S128x64x64_S128x64x64_2_1_1_2_0_0 64 rfl rfl).symm k) = ix3 b d k := funext fun a => Fin.ext (by
    match a with
    | ⟨0, _⟩ => exact lhs_mix_0 _ _
    | ⟨1, _⟩ => exact lhs_mix_1 _ _
    | ⟨2, _⟩ => exact (lhs_mix_2 _ _).trans hk)
  have er : dot_S128x64x64_S128x64x64_S128x64x64_2_1_1_2_0_0.rhsIdx (ix3 b d p) ((contrEquiv1 dot_S128x64x64_S128x64x64_S128x64x64_2_1_1_2_0_0 64 rfl rfl).symm k) = ix3 b k p := funext fun a => Fin.ext (by
    match a with
    | ⟨0, _⟩ => exact rhs_mix_0 _ _
    | ⟨1, _⟩ => exact (rhs_mix_1 _ _).trans hk
    | ⟨2, _⟩ => exact rhs_mix_2 _ _)
  rw [el, er]

/-! ## The body's store at an index -/

/-- The table's block with a leading unit axis added and then copied along the batch axis reads the table. -/
theorem table_bcast_apply (x1 : Vec Ideal S64x64 .f32) (r : Fin 128) (d s : Fin 64) :
    broadcastTo S128x64x64 (shapeCast S1x64x64 (shapeCast S1x64x64 (shapeCast S64x64 x1 shapeCasts_S64x64_S64x64) shapeCasts_S64x64_S1x64x64) shapeCasts_S1x64x64_S1x64x64) broadcasts_S1x64x64_S128x64x64 (ix3 r d s)
      = x1 (ix2 d s) := by
  rw [shapeCast_self, shapeCast_self]
  refine (broadcastTo_apply _ broadcasts_S1x64x64_S128x64x64 (ix3 r d s) (ix3 (0 : Fin 1) d s) fun ax => ?_).trans ?_
  · match ax with
    | ⟨0, _⟩ => rfl
    | ⟨1, _⟩ => rfl
    | ⟨2, _⟩ => rfl
  · exact shapeCast_ab_1ab_apply x1 shapeCasts_S64x64_S1x64x64 (0 : Fin 1) d s

/-- What the body stores, entry by entry: the node block's entry plus one half of the table row's product with the
node block's column. -/
theorem pay_apply (x0 : Vec Ideal S128x64x64 .f32) (x1 : Vec Ideal S64x64 .f32) (r : Fin 128) (d p : Fin 64) :
    k1_pay1 x0 x1 (ix3 r d p)
      = x0 (ix3 r d p) + Ideal.ofBits .f32 0x3F000000#32 * ∑ s : Fin 64, x1 (ix2 d s) * x0 (ix3 r s p) := by
  unfold k1_pay1
  rw [shapeCast_self x0]
  rw [addf_apply, mulf_apply, broadcast_apply, mix_matmul_apply]
  refine congrArg (fun z => x0 (ix3 r d p) + Ideal.ofBits .f32 0x3F000000#32 * z) (Finset.sum_congr rfl fun s _ => ?_)
  rw [table_bcast_apply]

/-! ## The blocks a point stages -/

/-- The block indices over the grid: point `t` stages batch block `t` of the node array and of the result, and the one
block of the table. -/
theorem idx_facts1 : ∀ t : Fin cfg1.N, win1_0.index t (0 : Fin 3) = t.val ∧ win1_0.index t (1 : Fin 3) = 0
    ∧ win1_0.index t (2 : Fin 3) = 0 ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The node block at point `t` is batch rows `128 t … 128 t + 127` of the node array. -/
theorem node_blk_apply (c : Dev nD) (t : Fin cfg1.N) (r : Fin 128) (d p : Fin 64) (hb : 128 * t.val + r.val < 2048) :
    (iblk1 V c 0 t : Vec Ideal S128x64x64 .f32) (ix3 r d p) = nodeArr V c (ix3 (⟨128 * t.val + r.val, hb⟩ : Fin 2048) d p) := by
  obtain ⟨e0, e1, e2, -⟩ := idx_facts1 t
  unfold iblk1
  rw [View.read_apply]
  show V c main_v66 _ = V c main_v66 _
  congr 1
  funext a
  apply Fin.ext
  match a with
  | ⟨0, _⟩ => show win1_0.index t (0 : Fin 3) * 128 + 1 * r.val = 128 * t.val + r.val; rw [e0]; omega
  | ⟨1, _⟩ => show win1_0.index t (1 : Fin 3) * 64 + 1 * d.val = d.val; rw [e1]; omega
  | ⟨2, _⟩ => show win1_0.index t (2 : Fin 3) * 64 + 1 * p.val = p.val; rw [e2]; omega

/-- The table block at every point is the whole table. -/
theorem table_blk_apply (c : Dev nD) (t : Fin cfg1.N) (d s : Fin 64) :
    (iblk1 V c 1 t : Vec Ideal S64x64 .f32) (ix2 d s) = tableArr V c (ix2 d s) := by
  obtain ⟨-, -, -, e3, e4, -⟩ := idx_facts1 t
  unfold iblk1
  rw [View.read_apply]
  show V c main_v65 _ = V c main_v65 _
  congr 1
  funext a
  apply Fin.ext
  match a with
  | ⟨0, _⟩ => show win1_1.index t (0 : Fin 2) * 64 + 1 * d.val = d.val; rw [e3]; omega
  | ⟨1, _⟩ => show win1_1.index t (1 : Fin 2) * 64 + 1 * s.val = s.val; rw [e4]; omega

/-! ## From the blocks to the array -/

/-- The array the region leaves, as one function of the node array and the table. -/
def mixFn (c : Dev nD) : S2048x64x64.Idx → EReal := fun i =>
  nodeArr V c i + Ideal.ofBits .f32 0x3F000000#32
    * ∑ s : Fin 64, tableArr V c (ix2 (⟨(i 1).val, (i 1).isLt⟩ : Fin 64) s)
        * nodeArr V c (ix3 (⟨(i 0).val, (i 0).isLt⟩ : Fin 2048) s (⟨(i 2).val, (i 2).isLt⟩ : Fin 64))

theorem mixFn_ix3 (c : Dev nD) (b : Fin 2048) (d p : Fin 64) :
    mixFn V c (ix3 b d p) = nodeArr V c (ix3 b d p)
      + Ideal.ofBits .f32 0x3F000000#32 * ∑ s : Fin 64, tableArr V c (ix2 d s) * nodeArr V c (ix3 b s p) := rfl

/-- What point `t` stores at row `r` of its block is the function at batch row `128 t + r`. -/
theorem stored_at (c : Dev nD) (t : Fin cfg1.N) (r : Fin 128) (d p : Fin 64) (hb : 128 * t.val + r.val < 2048) :
    k1_pay1 (iblk1 V c 0 t) (iblk1 V c 1 t) (ix3 r d p) = mixFn V c (ix3 (⟨128 * t.val + r.val, hb⟩ : Fin 2048) d p) := by
  refine (pay_apply (iblk1 V c 0 t) (iblk1 V c 1 t) r d p).trans ?_
  rw [mixFn_ix3]
  refine congrArg₂ (· + ·) (node_blk_apply V c t r d p hb) (congrArg (Ideal.ofBits .f32 0x3F000000#32 * ·)
    (Finset.sum_congr rfl fun s _ => congrArg₂ (· * ·) (table_blk_apply V c t d s) (node_blk_apply V c t r s p hb)))

/-- What point `t` writes back is its block of that function. -/
theorem flushed1_eq (c : Dev nD) (t : Fin cfg1.N) :
    (dat1 (F := Ideal) V c).flushed 2 t = ((cfg1.win 2).blk t).view.read (Elt Ideal) (mixFn V c) := by
  show (cfg1.win 2).cut (grid1.coords t) ((dat1 (F := Ideal) V c).after 2 t) = _
  rw [after1_2]
  obtain ⟨-, -, -, -, -, e5, e6, e7⟩ := idx_facts1 t
  have ht : t.val < 16 := t.isLt
  funext j
  rw [View.read_apply]
  have h0 : (j 0).val < 128 := (j 0).isLt
  have h1 : (j 1).val < 64 := (j 1).isLt
  have h2 : (j 2).val < 64 := (j 2).isLt
  have hb : 128 * t.val + (j 0).val < 2048 := by omega
  have ej : (cfg1.win 2).xinj (grid1.coords t) j = ix3 (⟨(j 0).val, h0⟩ : Fin 128) (⟨(j 1).val, h1⟩ : Fin 64) (⟨(j 2).val, h2⟩ : Fin 64) := by
    funext a
    apply Fin.ext
    match a with
    | ⟨0, _⟩ => rfl
    | ⟨1, _⟩ => rfl
    | ⟨2, _⟩ => rfl
  have ei : ix3 (⟨128 * t.val + (j 0).val, hb⟩ : Fin 2048) (⟨(j 1).val, h1⟩ : Fin 64) (⟨(j 2).val, h2⟩ : Fin 64) = ((cfg1.win 2).blk t).view.emb j := by
    funext a
    apply Fin.ext
    match a with
    | ⟨0, _⟩ => show 128 * t.val + (j 0).val = win1_2.index t (0 : Fin 3) * 128 + 1 * (j 0).val; rw [e5]; omega
    | ⟨1, _⟩ => show (j 1).val = win1_2.index t (1 : Fin 3) * 64 + 1 * (j 1).val; rw [e6]; omega
    | ⟨2, _⟩ => show (j 2).val = win1_2.index t (2 : Fin 3) * 64 + 1 * (j 2).val; rw [e7]; omega
  exact (congrArg (k1_pay1 (iblk1 V c 0 t) (iblk1 V c 1 t)) ej).trans
    ((stored_at V c t ⟨(j 0).val, h0⟩ ⟨(j 1).val, h1⟩ ⟨(j 2).val, h2⟩ hb).trans (congrArg (mixFn V c) ei))

/-- An entry of the array is in point `t`'s block iff each coordinate is in the block's range on its axis. -/
theorem mem_blk1 (t : Fin cfg1.N) (i : S2048x64x64.Idx) :
    i ∈ ((cfg1.win 2).blk t).view.set ↔ ∀ a : Fin 3, win1_2.index t a * S128x64x64.size a ≤ (i a).val ∧ (i a).val < win1_2.index t a * S128x64x64.size a + S128x64x64.size a := by
  show i ∈ ((View.whole main_v67).slice (win1_2.rect t)).set ↔ _
  rw [View.set_slice_whole, Rect.mem_set_unit]
  exact Iff.rfl

/-- Batch row `b` is in the block of point `b / 128`, which writes its block back. -/
theorem covered1 (i : S2048x64x64.Idx) :
    ∃ t : Fin cfg1.N, (cfg1.win 2).flush t = true ∧ i ∈ ((cfg1.win 2).blk t).view.set := by
  have hi0 : (i 0).val < 2048 := (i 0).isLt
  have hi1 : (i 1).val < 64 := (i 1).isLt
  have hi2 : (i 2).val < 64 := (i 2).isLt
  have ht : (i 0).val / 128 < cfg1.N := by show (i 0).val / 128 < 16; omega
  obtain ⟨-, -, -, -, -, e5, e6, e7⟩ := idx_facts1 ⟨(i 0).val / 128, ht⟩
  refine ⟨⟨(i 0).val / 128, ht⟩, flush1_2 _, ?_⟩
  rw [mem_blk1]
  intro a
  match a with
  | ⟨0, _⟩ => show win1_2.index ⟨(i 0).val / 128, ht⟩ (0 : Fin 3) * 128 ≤ (i 0).val ∧ (i 0).val < win1_2.index ⟨(i 0).val / 128, ht⟩ (0 : Fin 3) * 128 + 128; rw [e5]; show (i 0).val / 128 * 128 ≤ (i 0).val ∧ (i 0).val < (i 0).val / 128 * 128 + 128; omega
  | ⟨1, _⟩ => show win1_2.index ⟨(i 0).val / 128, ht⟩ (1 : Fin 3) * 64 ≤ (i 1).val ∧ (i 1).val < win1_2.index ⟨(i 0).val / 128, ht⟩ (1 : Fin 3) * 64 + 64; rw [e6]; omega
  | ⟨2, _⟩ => show win1_2.index ⟨(i 0).val / 128, ht⟩ (2 : Fin 3) * 64 ≤ (i 2).val ∧ (i 2).val < win1_2.index ⟨(i 0).val / 128, ht⟩ (2 : Fin 3) * 64 + 64; rw [e7]; omega

/-- So the array the region leaves is that function of the node array and the table. -/
theorem mixArr_eq (c : Dev nD) : mixArr V c = mixFn V c :=
  (dat1 (F := Ideal) V c).arrAt_eq_of_cover 2 (mixFn V c) (fun t _ => flushed1_eq V c t) covered1

/-- What the mixing region leaves in its result array, entry by entry. -/
theorem arr1 (c : Dev nD) (b : Fin 2048) (d p : Fin 64) :
    mixArr V c (ix3 b d p)
      = nodeArr V c (ix3 b d p)
        + Ideal.ofBits .f32 0x3F000000#32 * ∑ s : Fin 64, tableArr V c (ix2 d s) * nodeArr V c (ix3 b s p) := by
  rw [mixArr_eq, mixFn_ix3]

end Cert.KernelIdeal.Hand

end
-- ==== Proof.KI.Run.lean ====
/- The whole program run. @main is: the matmul region, two stretches of host operations (together the 85
operations that build the mixing table and reshape the product into node rows), the mixing region, and one
last reshape. The buffers' contents at each boundary are a fold from the launch memory: a host stretch
applies its operations, a region replaces its arrays by what its write-backs leave. Every weakly fair
execution terminates with every unscoped buffer at the last valuation of that fold. -/
import proofs.«414142_j15384572854802_2_alg».proof.Proof.KI.Data0
import proofs.«414142_j15384572854802_2_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the matmul region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the matmul region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations, then after the second: the mixing region's entry. -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev V3 : (c : Dev nD) → (b : Ref sig .tc) → Buf (Elt F) ((c : Thread nD τ).loc b) := fun c b => W3 m ρ c b
/-- At the mixing region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation: what the program returns from. -/
abbrev W5 : Dev nD → Valuation τ sig (Elt F) := fun c => StableHlo.after main_part1_ops1 (W4 m ρ c)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hin0 (V0 m ρ) c)
  hout c := (hout0 (V0 m ρ) c).trans (show Pipeline.ΦA spec0 c ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hin1 (V3 m ρ) c)
  hout c := (hout1 (V3 m ρ) c).trans (show Pipeline.ΦA spec1 c ⊢ _ from by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .host (hseg main_part1_ops0 main_part1_ops0_sub main_part1_ops0_fresh (W2 m ρ)),
    .region (reg1 m ρ),
    .host (hseg main_part1_ops1 main_part1_ops1_sub main_part1_ops1_fresh (W4 m ρ)) ]
theorem main_run (c : Dev nD) : main (F := F) c = Pipeline.Seg.run (segs m ρ) := (main_chain_windows c).trans (by chain_rfl)

set_option backward.isDefEq.respectTransparency.types false in
/-- THE RUN: from any memory with zero counters, every weakly fair execution of @main terminates, nothing
    faulting, and every final memory has every unscoped buffer at the last valuation of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.HostLayout.lean ====
/- What the host operations' layout steps do to the buffers of the run: no host operation and no region writes
an argument array, so each reaches the end as launched; the reshape between the regions reads the product at
column 64 d + p as slot p of node d, and the last reshape reads the mixed rows back the same way. -/
import proofs.«414142_j15384572854802_2_alg».proof.Proof.KI.Run
import proofs.«414142_j15384572854802_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ) (ρ : Dev nD → PrngReg)

/-! ## What the host stretches leave alone -/

/-- No operation of the first host stretch writes an argument or the product. -/
theorem part0_ops0_keeps (V : Valuation τ sig (Elt F)) (r : Ref sig .tc)
    (hr : r = main_arg0 ∨ r = main_arg1 ∨ r = main_arg2 ∨ r = main_arg3 ∨ r = main_arg4 ∨ r = main_arg5 ∨ r = main_arg6 ∨ r = main_v0) :
    StableHlo.after (main_part0_ops0 : List (HloOp τ sig (Elt F))) V (Proc.devRef .tc r) = V (Proc.devRef .tc r) := by
  refine StableHlo.after_of_forall_not_mem (b := Proc.devRef .tc r) _ _ (List.forall_iff_forall_mem.mp ?_)
  simp only [main_part0_ops0, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl | rfl
  all_goals (repeat' apply And.intro)
  all_goals exact StableHlo.devRef_ne_of_ne (by decide)

/-- No operation of the second host stretch writes an argument. -/
theorem part1_ops0_keeps (V : Valuation τ sig (Elt F)) (r : Ref sig .tc)
    (hr : r = main_arg0 ∨ r = main_arg1 ∨ r = main_arg2 ∨ r = main_arg3 ∨ r = main_arg4 ∨ r = main_arg5 ∨ r = main_arg6) :
    StableHlo.after (main_part1_ops0 : List (HloOp τ sig (Elt F))) V (Proc.devRef .tc r) = V (Proc.devRef .tc r) := by
  refine StableHlo.after_of_forall_not_mem (b := Proc.devRef .tc r) _ _ (List.forall_iff_forall_mem.mp ?_)
  simp only [main_part1_ops0, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl
  all_goals (repeat' apply And.intro)
  all_goals exact StableHlo.devRef_ne_of_ne (by decide)

/-- The last reshape writes no argument. -/
theorem part1_ops1_keeps (V : Valuation τ sig (Elt F)) (r : Ref sig .tc)
    (hr : r = main_arg0 ∨ r = main_arg1 ∨ r = main_arg2 ∨ r = main_arg3 ∨ r = main_arg4 ∨ r = main_arg5 ∨ r = main_arg6) :
    StableHlo.after (main_part1_ops1 : List (HloOp τ sig (Elt F))) V (Proc.devRef .tc r) = V (Proc.devRef .tc r) := by
  refine StableHlo.after_of_forall_not_mem (b := Proc.devRef .tc r) _ _ (List.forall_iff_forall_mem.mp ?_)
  simp only [main_part1_ops1, List.Forall, StableHlo.nullary_writes, StableHlo.unary_writes, StableHlo.binary_writes,
    StableHlo.ternary_writes, StableHlo.quaternary_writes, StableHlo.reshape_writes, StableHlo.binaryIndexed_writes, Finset.mem_singleton]
  rcases hr with rfl | rfl | rfl | rfl | rfl | rfl | rfl
  all_goals (repeat' apply And.intro)
  all_goals exact StableHlo.devRef_ne_of_ne (by decide)

/-! ## The arguments end as launched -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := part1_ops1_keeps _ main_arg0 (by decide)
    _ = W3 m ρ c (Proc.devRef .tc main_arg0) := W4_of_ne m ρ c main_arg0 (by decide)
    _ = W2 m ρ c (Proc.devRef .tc main_arg0) := part1_ops0_keeps _ main_arg0 (by decide)
    _ = W1 m ρ c (Proc.devRef .tc main_arg0) := part0_ops0_keeps _ main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := part1_ops1_keeps _ main_arg1 (by decide)
    _ = W3 m ρ c (Proc.devRef .tc main_arg1) := W4_of_ne m ρ c main_arg1 (by decide)
    _ = W2 m ρ c (Proc.devRef .tc main_arg1) := part1_ops0_keeps _ main_arg1 (by decide)
    _ = W1 m ρ c (Proc.devRef .tc main_arg1) := part0_ops0_keeps _ main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := part1_ops1_keeps _ main_arg2 (by decide)
    _ = W3 m ρ c (Proc.devRef .tc main_arg2) := W4_of_ne m ρ c main_arg2 (by decide)
    _ = W2 m ρ c (Proc.devRef .tc main_arg2) := part1_ops0_keeps _ main_arg2 (by decide)
    _ = W1 m ρ c (Proc.devRef .tc main_arg2) := part0_ops0_keeps _ main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := part1_ops1_keeps _ main_arg3 (by decide)
    _ = W3 m ρ c (Proc.devRef .tc main_arg3) := W4_of_ne m ρ c main_arg3 (by decide)
    _ = W2 m ρ c (Proc.devRef .tc main_arg3) := part1_ops0_keeps _ main_arg3 (by decide)
    _ = W1 m ρ c (Proc.devRef .tc main_arg3) := part0_ops0_keeps _ main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := part1_ops1_keeps _ main_arg4 (by decide)
    _ = W3 m ρ c (Proc.devRef .tc main_arg4) := W4_of_ne m ρ c main_arg4 (by decide)
    _ = W2 m ρ c (Proc.devRef .tc main_arg4) := part1_ops0_keeps _ main_arg4 (by decide)
    _ = W1 m ρ c (Proc.devRef .tc main_arg4) := part0_ops0_keeps _ main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := part1_ops1_keeps _ main_arg5 (by decide)
    _ = W3 m ρ c (Proc.devRef .tc main_arg5) := W4_of_ne m ρ c main_arg5 (by decide)
    _ = W2 m ρ c (Proc.devRef .tc main_arg5) := part1_ops0_keeps _ main_arg5 (by decide)
    _ = W1 m ρ c (Proc.devRef .tc main_arg5) := part0_ops0_keeps _ main_arg5 (by decide)
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := part1_ops1_keeps _ main_arg6 (by decide)
    _ = W3 m ρ c (Proc.devRef .tc main_arg6) := W4_of_ne m ρ c main_arg6 (by decide)
    _ = W2 m ρ c (Proc.devRef .tc main_arg6) := part1_ops0_keeps _ main_arg6 (by decide)
    _ = W1 m ρ c (Proc.devRef .tc main_arg6) := part0_ops0_keeps _ main_arg6 (by decide)
    _ = W0 m ρ c (Proc.devRef .tc main_arg6) := W1_of_ne m ρ c main_arg6 (by decide)
    _ = m ((c : Thread nD τ).loc main_arg6) := rfl

/-! ## The two reshapes -/

/-- The node rows the mixing region is entered with are the product read by node and slot. -/
theorem W3_v66_apply (c : Dev nD) (b : Fin 2048) (d p : Fin 64) :
    (W3 m ρ c (Proc.devRef .tc main_v66) : S2048x64x64.Idx → Elt F .f32) (ix3 b d p)
      = (W1 m ρ c (Proc.devRef .tc main_v0) : S2048x4096.Idx → Elt F .f32) (ix2 b (Cert.Spec.col d p)) := by
  have e : (W3 m ρ c (Proc.devRef .tc main_v66) : S2048x64x64.Idx → Elt F .f32)
      = shapeCast S2048x64x64 (W2 m ρ c (Proc.devRef .tc main_v0) : S2048x4096.Idx → Elt F .f32)
          shapeCasts_S2048x4096_S2048x64x64 := by
    dsimp only [W3, main_part1_ops0]; after_results_simp; rfl
  have e0 : W2 m ρ c (Proc.devRef .tc main_v0) = W1 m ρ c (Proc.devRef .tc main_v0) :=
    part0_ops0_keeps _ main_v0 (by decide)
  rw [e, e0]
  exact shapeCast_apply _ _ _ _ (by
    show ((⟨2, ![2048, 4096]⟩ : Shape).rowMajor (ix2 b (Cert.Spec.col d p))).val
        = ((⟨3, ![2048, 64, 64]⟩ : Shape).rowMajor (ix3 b d p)).val
    rw [Shape.rowMajor_val_three, Shape.rowMajor_val_two]
    show b.val * 4096 + (64 * d.val + p.val) = (b.val * 64 + d.val) * 64 + p.val
    omega)

/-- The program's result is the mixed rows read back by column. -/
theorem W5_v68_apply (c : Dev nD) (b : Fin 2048) (d p : Fin 64) :
    (W5 m ρ c (Proc.devRef .tc main_v68) : S2048x4096.Idx → Elt F .f32) (ix2 b (Cert.Spec.col d p))
      = (W4 m ρ c (Proc.devRef .tc main_v67) : S2048x64x64.Idx → Elt F .f32) (ix3 b d p) := by
  have e : (W5 m ρ c (Proc.devRef .tc main_v68) : S2048x4096.Idx → Elt F .f32)
      = shapeCast S2048x4096 (W4 m ρ c (Proc.devRef .tc main_v67) : S2048x64x64.Idx → Elt F .f32)
          shapeCasts_S2048x64x64_S2048x4096 := by
    dsimp only [W5, main_part1_ops1]; after_results; rfl
  rw [e]
  exact shapeCast_apply _ _ _ _ (by
    show ((⟨3, ![2048, 64, 64]⟩ : Shape).rowMajor (ix3 b d p)).val
        = ((⟨2, ![2048, 4096]⟩ : Shape).rowMajor (ix2 b (Cert.Spec.col d p))).val
    rw [Shape.rowMajor_val_three, Shape.rowMajor_val_two]
    show (b.val * 64 + d.val) * 64 + p.val = b.val * 4096 + (64 * d.val + p.val)
    omega)

/-- The matmul region is entered from the launch memory. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl

end Cert.KernelIdeal.Hand

end
-- ==== Proof.LibGather.lean ====
/- A StableHLO gather read at an index, for the three shapes in which jnp indexing by an integer vector of
in-range indices prints: `table[i, j]` over a rank-2 table (two start-index columns, both axes collapsed),
`table[i]` over a rank-1 table (one start-index column), and `rows[:, i, :]` over a rank-3 array (one
start-index column naming the middle axis, the outer axes kept whole as offset axes). A gather clamps each
start index so that its slice fits; for an index word already inside the axis the clamp is the identity, so
the gather reads the operand at the position the word names. -/
import Idealize.ShloMosaic.PureOps.ShapeOps
import Idealize.ShloMosaic.PureOps.Dims
import Idealize.ShloMosaic.Lib.ValueIdx

noncomputable section

namespace Cert.LibIndex

open Idealize.ShloMosaic Idealize.ShloMosaic.ValueIdx

abbrev T64x64 : Shape := ⟨2, ![64, 64]⟩
abbrev T64 : Shape := ⟨1, ![64]⟩
abbrev T256 : Shape := ⟨1, ![256]⟩
abbrev T256x1 : Shape := ⟨2, ![256, 1]⟩
abbrev T256x2 : Shape := ⟨2, ![256, 2]⟩
abbrev T2048x64x64 : Shape := ⟨3, ![2048, 64, 64]⟩
abbrev T2048x256x64 : Shape := ⟨3, ![2048, 256, 64]⟩

/-- A 32-bit word as a position on an axis of extent 64 (reduced mod 64 so that it is total). -/
def at64 (w : BitVec 32) : Fin 64 := ⟨w.toNat % 64, Nat.mod_lt _ (by decide)⟩

/-- A word that, read signed, lies on an axis of extent 64. -/
def On64 (w : BitVec 32) : Prop := 0 ≤ w.toInt ∧ w.toInt < 64

/-- `table[i, j]`: 256 pairs of start indices into a 64 x 64 table, one element each. -/
def pairGather : GatherDims T64x64 T256x2 T256 where
  offsetDims := []
  collapsedSliceDims := [0, 1]
  operandBatchingDims := []
  startIndicesBatchingDims := []
  startIndexMap := [0, 1]
  indexVectorDim := 1
  sliceSizes := ![1, 1]
  wf := by decide

/-- `table[i]`: 256 start indices into a vector of 64, one element each. -/
def takeGather : GatherDims T64 T256x1 T256 where
  offsetDims := []
  collapsedSliceDims := [0]
  operandBatchingDims := []
  startIndicesBatchingDims := []
  startIndexMap := [0]
  indexVectorDim := 1
  sliceSizes := ![1]
  wf := by decide

/-- `rows[:, i, :]`: 256 start indices on the middle axis of a 2048 x 64 x 64 array, a whole 2048 x 1 x 64 slice each. -/
def rowGather : GatherDims T2048x64x64 T256x1 T2048x256x64 where
  offsetDims := [0, 2]
  collapsedSliceDims := [1]
  operandBatchingDims := []
  startIndicesBatchingDims := []
  startIndexMap := [1]
  indexVectorDim := 1
  sliceSizes := ![2048, 1, 64]
  wf := by decide

/-- A word on an axis of extent 64 reads the same signed and unsigned, and its value is its position. -/
private theorem toNat_of_on64 {w : BitVec 32} (h : On64 w) : w.toInt.toNat = (at64 w).val := by
  obtain ⟨h0, h1⟩ := h
  have hlt : w.toNat < 2 ^ 32 := w.isLt
  show w.toInt.toNat = w.toNat % 64
  rw [BitVec.toInt_eq_toNat_cond] at h0 h1 ⊢
  split at h0 <;> omega

/-- The clamp of a start index at slice size 1 on an axis of extent 64 is the identity on a word already on
the axis. -/
private theorem clamp_of_on64 {w : BitVec 32} (h : On64 w) : min w.toInt.toNat (64 - 1) = (at64 w).val := by
  have h2 : (at64 w).val < 64 := (at64 w).isLt
  rw [toNat_of_on64 h]
  omega

/-- `table[i, j]`, the row axis: the operand coordinate is the first start-index word. -/
private theorem pair_coord0 (idx : IVec T256x2 32) (e : Fin 256) (h0 : On64 (idx (ix2 e 0))) :
    (pairGather.operandIdx (ix1 e) idx 0).val = (at64 (idx (ix2 e 0))).val := by
  show pairGather.start (ix1 e) idx 0 + pairGather.batchCoord (ix1 e) 0 + pairGather.offCoord (ix1 e) 0 = _
  rw [GatherDims.batchCoord_eq_zero _ _ _ List.not_mem_nil,
    GatherDims.offCoord_eq_zero _ _ _ (fun h => ((GatherDims.mem_sKept _ _).mp h).1
      (show (0 : Fin 2) ∈ pairGather.collapsedSliceDims by decide))]
  simp only [Nat.add_zero]
  unfold GatherDims.start
  rw [dif_pos (show (0 : Fin 2) ∈ pairGather.startIndexMap by decide)]
  have hsi : pairGather.siIdx (ix1 e) ⟨List.idxOf (0 : Fin 2) pairGather.startIndexMap,
      List.idxOf_lt_length_iff.2 (by decide)⟩ = ix2 e 0 := by
    funext b; refine Fin.ext ?_
    match b with
    | ⟨0, _⟩ => rfl
    | ⟨1, _⟩ => rfl
  rw [hsi]
  exact clamp_of_on64 h0

/-- `table[i, j]`, the column axis: the operand coordinate is the second start-index word. -/
private theorem pair_coord1 (idx : IVec T256x2 32) (e : Fin 256) (h1 : On64 (idx (ix2 e 1))) :
    (pairGather.operandIdx (ix1 e) idx 1).val = (at64 (idx (ix2 e 1))).val := by
  show pairGather.start (ix1 e) idx 1 + pairGather.batchCoord (ix1 e) 1 + pairGather.offCoord (ix1 e) 1 = _
  rw [GatherDims.batchCoord_eq_zero _ _ _ List.not_mem_nil,
    GatherDims.offCoord_eq_zero _ _ _ (fun h => ((GatherDims.mem_sKept _ _).mp h).1
      (show (1 : Fin 2) ∈ pairGather.collapsedSliceDims by decide))]
  simp only [Nat.add_zero]
  unfold GatherDims.start
  rw [dif_pos (show (1 : Fin 2) ∈ pairGather.startIndexMap by decide)]
  have hsi : pairGather.siIdx (ix1 e) ⟨List.idxOf (1 : Fin 2) pairGather.startIndexMap,
      List.idxOf_lt_length_iff.2 (by decide)⟩ = ix2 e 1 := by
    funext b; refine Fin.ext ?_
    match b with
    | ⟨0, _⟩ => rfl
    | ⟨1, _⟩ => rfl
  rw [hsi]
  exact clamp_of_on64 h1

theorem pairGather_apply {α : Type} (x : T64x64.Idx → α) (idx : IVec T256x2 32) (e : Fin 256)
    (h0 : On64 (idx (ix2 e 0))) (h1 : On64 (idx (ix2 e 1))) :
    Host.gather pairGather x idx (ix1 e) = x (ix2 (at64 (idx (ix2 e 0))) (at64 (idx (ix2 e 1)))) := by
  unfold Host.gather
  congr 1
  funext a
  refine Fin.ext ?_
  match a with
  | ⟨0, _⟩ => exact pair_coord0 idx e h0
  | ⟨1, _⟩ => exact pair_coord1 idx e h1

theorem takeGather_apply {α : Type} (x : T64.Idx → α) (idx : IVec T256x1 32) (e : Fin 256)
    (h : On64 (idx (ix2 e 0))) :
    Host.gather takeGather x idx (ix1 e) = x (ix1 (at64 (idx (ix2 e 0)))) := by
  unfold Host.gather
  congr 1
  funext a
  obtain rfl : a = 0 := Subsingleton.elim _ _
  refine Fin.ext ?_
  show takeGather.start (ix1 e) idx 0 + takeGather.batchCoord (ix1 e) 0 + takeGather.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ takeGather.startIndexMap from List.mem_singleton.mpr rfl)]
  have hsi : takeGather.siIdx (ix1 e) ⟨List.idxOf (0 : Fin 1) takeGather.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  exact clamp_of_on64 h

/-- `rows[:, i, :]`, the leading axis: an offset axis, the operand coordinate is the result's leading one. -/
private theorem row_coord0 (idx : IVec T256x1 32) (b : Fin 2048) (e : Fin 256) (p : Fin 64) :
    (rowGather.operandIdx (ix3 b e p) idx 0).val = b.val := by
  show rowGather.start (ix3 b e p) idx 0 + rowGather.batchCoord (ix3 b e p) 0 + rowGather.offCoord (ix3 b e p) 0 = _
  rw [GatherDims.batchCoord_eq_zero _ _ _ List.not_mem_nil]
  unfold GatherDims.start GatherDims.offCoord
  rw [dif_neg (show (0 : Fin 3) ∉ rowGather.startIndexMap by decide),
    dif_pos (show (0 : Fin 3) ∈ rowGather.sKept by decide)]
  simp only [Nat.add_zero, Nat.zero_add]
  rfl

/-- `rows[:, i, :]`, the middle axis: the operand coordinate is the start-index word. -/
private theorem row_coord1 (idx : IVec T256x1 32) (b : Fin 2048) (e : Fin 256) (p : Fin 64)
    (h : On64 (idx (ix2 e 0))) :
    (rowGather.operandIdx (ix3 b e p) idx 1).val = (at64 (idx (ix2 e 0))).val := by
  show rowGather.start (ix3 b e p) idx 1 + rowGather.batchCoord (ix3 b e p) 1 + rowGather.offCoord (ix3 b e p) 1 = _
  rw [GatherDims.batchCoord_eq_zero _ _ _ List.not_mem_nil,
    GatherDims.offCoord_eq_zero _ _ _ (fun h => ((GatherDims.mem_sKept _ _).mp h).1
      (show (1 : Fin 3) ∈ rowGather.collapsedSliceDims by decide))]
  simp only [Nat.add_zero]
  unfold GatherDims.start
  rw [dif_pos (show (1 : Fin 3) ∈ rowGather.startIndexMap by decide)]
  have hsi : rowGather.siIdx (ix3 b e p) ⟨List.idxOf (1 : Fin 3) rowGather.startIndexMap,
      List.idxOf_lt_length_iff.2 (by decide)⟩ = ix2 e 0 := by
    funext c; refine Fin.ext ?_
    match c with
    | ⟨0, _⟩ => rfl
    | ⟨1, _⟩ => rfl
  rw [hsi]
  exact clamp_of_on64 h

/-- `rows[:, i, :]`, the trailing axis: an offset axis, the operand coordinate is the result's trailing one. -/
private theorem row_coord2 (idx : IVec T256x1 32) (b : Fin 2048) (e : Fin 256) (p : Fin 64) :
    (rowGather.operandIdx (ix3 b e p) idx 2).val = p.val := by
  show rowGather.start (ix3 b e p) idx 2 + rowGather.batchCoord (ix3 b e p) 2 + rowGather.offCoord (ix3 b e p) 2 = _
  rw [GatherDims.batchCoord_eq_zero _ _ _ List.not_mem_nil]
  unfold GatherDims.start GatherDims.offCoord
  rw [dif_neg (show (2 : Fin 3) ∉ rowGather.startIndexMap by decide),
    dif_pos (show (2 : Fin 3) ∈ rowGather.sKept by decide)]
  simp only [Nat.add_zero, Nat.zero_add]
  rfl

theorem rowGather_apply {α : Type} (x : T2048x64x64.Idx → α) (idx : IVec T256x1 32)
    (b : Fin 2048) (e : Fin 256) (p : Fin 64) (h : On64 (idx (ix2 e 0))) :
    Host.gather rowGather x idx (ix3 b e p) = x (ix3 b (at64 (idx (ix2 e 0))) p) := by
  unfold Host.gather
  congr 1
  funext a
  refine Fin.ext ?_
  match a with
  | ⟨0, _⟩ => exact row_coord0 idx b e p
  | ⟨1, _⟩ => exact row_coord1 idx b e p h
  | ⟨2, _⟩ => exact row_coord2 idx b e p

end Cert.LibIndex

end
-- ==== Proof.LibScatter.lean ====
/- A StableHLO scatter with an `add` body read at an index over the extended reals, for the two shapes in which
jnp's `.at[...].add` with in-range integer indices prints: `rows.at[:, i, :].add(u)` over a rank-3 array (one
scatter-index column naming the middle axis, the update's outer axes its window) and `table.at[i, j].add(u)`
over a rank-2 table (two scatter-index columns, one update element each). A scatter does not clamp: an update
whose index leaves the operand is dropped; with every index word inside its axis none is, and each operand
element receives the sum of the updates whose index names it. -/
import proofs.«414142_j15384572854802_2_alg».proof.Proof.LibGather
import Idealize.ShloMosaic.PureOps.Ideal

noncomputable section

namespace Cert.LibIndex

open Idealize.ShloMosaic Idealize.ShloMosaic.ValueIdx

/-- `rows.at[:, i, :].add(u)`. -/
def rowScatter : ScatterDims T2048x64x64 T256x1 T2048x256x64 where
  updateWindowDims := [0, 2]
  insertedWindowDims := [1]
  scatterDimsToOperandDims := [1]
  indexVectorDim := 1
  wf := by decide

/-- `table.at[i, j].add(u)`. -/
def pairScatter : ScatterDims T64x64 T256x2 T256 where
  updateWindowDims := []
  insertedWindowDims := [0, 1]
  scatterDimsToOperandDims := [0, 1]
  indexVectorDim := 1
  wf := by decide

/-- A word that read signed lies in `[0, 64)` is, read signed, its own position on the axis. -/
private theorem scatter_toInt_of_On64 {w : BitVec 32} (h : On64 w) : w.toInt = ((at64 w).val : Int) := by
  unfold On64 at h
  have hlt := w.isLt
  rw [BitVec.toInt_eq_toNat_cond] at h ⊢
  simp only [at64]
  split_ifs at h ⊢ <;> omega

/-- Two rank-3 indices given by coordinates are equal exactly when their coordinates are. -/
private theorem scatter_ix3_inj {n0 n1 n2 : Nat} {a a' : Fin n0} {b b' : Fin n1} {c c' : Fin n2} :
    (ix3 a b c = ix3 a' b' c') ↔ a = a' ∧ b = b' ∧ c = c' := by
  constructor
  · intro hh
    exact ⟨congrFun hh 0, congrFun hh 1, congrFun hh 2⟩
  · rintro ⟨rfl, rfl, rfl⟩; rfl

/-- Two rank-2 indices given by coordinates are equal exactly when their coordinates are. -/
private theorem scatter_ix2_inj {n0 n1 : Nat} {a a' : Fin n0} {b b' : Fin n1} :
    (ix2 a b = ix2 a' b') ↔ a = a' ∧ b = b' := by
  constructor
  · intro hh
    exact ⟨congrFun hh 0, congrFun hh 1⟩
  · rintro ⟨rfl, rfl⟩; rfl

/-- Two rank-1 indices given by their coordinate are equal exactly when the coordinates are. -/
private theorem scatter_ix1_inj {n : Nat} {a a' : Fin n} : (ix1 a = ix1 a') ↔ a = a' := by
  constructor
  · intro hh
    exact congrFun hh 0
  · rintro rfl; rfl

/-! ### `rows.at[:, i, :].add(u)`: where update `(b, e, p)` lands

The outer operand axes are window axes (no start, the update's own coordinate); the middle axis is the one
the index column names (the signed index word, no window coordinate). -/

private theorem row_start0 (j : T2048x256x64.Idx) (idx : IVec T256x1 32) : rowScatter.start j idx 0 = 0 := by
  unfold ScatterDims.start
  rw [dif_neg (by decide)]

private theorem row_start2 (j : T2048x256x64.Idx) (idx : IVec T256x1 32) : rowScatter.start j idx 2 = 0 := by
  unfold ScatterDims.start
  rw [dif_neg (by decide)]

private theorem row_start1 (b : Fin 2048) (e : Fin 256) (p : Fin 64) (idx : IVec T256x1 32) :
    rowScatter.start (ix3 b e p) idx 1 = (idx (ix2 e 0)).toInt := by
  unfold ScatterDims.start
  rw [dif_pos (by decide)]
  congr 2
  funext c
  refine Fin.ext ?_
  match c with
  | ⟨0, _⟩ => rfl
  | ⟨1, _⟩ => rfl

private theorem row_window0 (b : Fin 2048) (e : Fin 256) (p : Fin 64) : rowScatter.window (ix3 b e p) 0 = b.val := rfl
private theorem row_window1 (b : Fin 2048) (e : Fin 256) (p : Fin 64) : rowScatter.window (ix3 b e p) 1 = 0 := rfl
private theorem row_window2 (b : Fin 2048) (e : Fin 256) (p : Fin 64) : rowScatter.window (ix3 b e p) 2 = p.val := rfl

/-- With every index word on the axis no update is dropped: update `(b, e, p)` lands on `(b, idx[e], p)`. -/
private theorem row_resultIdx (idx : IVec T256x1 32) (h : ∀ e : Fin 256, On64 (idx (ix2 e 0)))
    (b : Fin 2048) (e : Fin 256) (p : Fin 64) :
    rowScatter.resultIdx? (ix3 b e p) idx = some (ix3 b (at64 (idx (ix2 e 0))) p) := by
  have h1 := scatter_toInt_of_On64 (h e)
  have hlt := (at64 (idx (ix2 e 0))).isLt
  unfold ScatterDims.resultIdx?
  rw [dif_pos ?_]
  · congr 1
    funext a
    refine Fin.ext ?_
    match a with
    | ⟨0, _⟩ =>
      show (rowScatter.start (ix3 b e p) idx 0 + (rowScatter.window (ix3 b e p) 0 : Nat)).toNat = b.val
      rw [row_start0, row_window0]; omega
    | ⟨1, _⟩ =>
      show (rowScatter.start (ix3 b e p) idx 1 + (rowScatter.window (ix3 b e p) 1 : Nat)).toNat
        = (at64 (idx (ix2 e 0))).val
      rw [row_start1, row_window1, h1]; omega
    | ⟨2, _⟩ =>
      show (rowScatter.start (ix3 b e p) idx 2 + (rowScatter.window (ix3 b e p) 2 : Nat)).toNat = p.val
      rw [row_start2, row_window2]; omega
  · intro a
    match a with
    | ⟨0, _⟩ =>
      show 0 ≤ rowScatter.start (ix3 b e p) idx 0 + (rowScatter.window (ix3 b e p) 0 : Nat) ∧
        rowScatter.start (ix3 b e p) idx 0 + (rowScatter.window (ix3 b e p) 0 : Nat) < (2048 : Nat)
      rw [row_start0, row_window0]; have := b.isLt; omega
    | ⟨1, _⟩ =>
      show 0 ≤ rowScatter.start (ix3 b e p) idx 1 + (rowScatter.window (ix3 b e p) 1 : Nat) ∧
        rowScatter.start (ix3 b e p) idx 1 + (rowScatter.window (ix3 b e p) 1 : Nat) < (64 : Nat)
      rw [row_start1, row_window1, h1]; omega
    | ⟨2, _⟩ =>
      show 0 ≤ rowScatter.start (ix3 b e p) idx 2 + (rowScatter.window (ix3 b e p) 2 : Nat) ∧
        rowScatter.start (ix3 b e p) idx 2 + (rowScatter.window (ix3 b e p) 2 : Nat) < (64 : Nat)
      rw [row_start2, row_window2]; have := p.isLt; omega

/-- The updates landing on `(b, d, p)` are exactly the `(b, e, p)` whose index word names `d`. -/
private theorem row_resultIdx_iff (idx : IVec T256x1 32) (h : ∀ e : Fin 256, On64 (idx (ix2 e 0)))
    (b : Fin 2048) (d p : Fin 64) (j : T2048x256x64.Idx) :
    rowScatter.resultIdx? j idx = some (ix3 b d p) ↔
      ∃ e : Fin 256, at64 (idx (ix2 e 0)) = d ∧ ix3 b e p = j := by
  obtain ⟨b', e', p', rfl⟩ : ∃ (b' : Fin 2048) (e' : Fin 256) (p' : Fin 64), j = ix3 b' e' p' :=
    ⟨j 0, j 1, j 2, eq_ix3 j⟩
  rw [row_resultIdx idx h, Option.some.injEq, scatter_ix3_inj]
  constructor
  · rintro ⟨rfl, hd, rfl⟩; exact ⟨e', hd, rfl⟩
  · rintro ⟨e, hd, he⟩
    rw [scatter_ix3_inj] at he
    obtain ⟨rfl, rfl, rfl⟩ := he
    exact ⟨rfl, hd, rfl⟩

/-! ### `table.at[i, j].add(u)`: where update `e` lands

Both operand axes are named by an index column (the signed index word); there is no window coordinate. -/

private theorem pair_start0 (e : Fin 256) (idx : IVec T256x2 32) :
    pairScatter.start (ix1 e) idx 0 = (idx (ix2 e 0)).toInt := by
  unfold ScatterDims.start
  rw [dif_pos (by decide)]
  congr 2
  funext c
  refine Fin.ext ?_
  match c with
  | ⟨0, _⟩ => rfl
  | ⟨1, _⟩ => rfl

private theorem pair_start1 (e : Fin 256) (idx : IVec T256x2 32) :
    pairScatter.start (ix1 e) idx 1 = (idx (ix2 e 1)).toInt := by
  unfold ScatterDims.start
  rw [dif_pos (by decide)]
  congr 2
  funext c
  refine Fin.ext ?_
  match c with
  | ⟨0, _⟩ => rfl
  | ⟨1, _⟩ => rfl

private theorem pair_window (e : Fin 256) (a : Fin 2) : pairScatter.window (ix1 e) a = 0 := by
  match a with
  | ⟨0, _⟩ => rfl
  | ⟨1, _⟩ => rfl

/-- With every index word on its axis no update is dropped: update `e` lands on `(idx[e, 0], idx[e, 1])`. -/
private theorem pair_resultIdx (idx : IVec T256x2 32) (h0 : ∀ e : Fin 256, On64 (idx (ix2 e 0)))
    (h1 : ∀ e : Fin 256, On64 (idx (ix2 e 1))) (e : Fin 256) :
    pairScatter.resultIdx? (ix1 e) idx = some (ix2 (at64 (idx (ix2 e 0))) (at64 (idx (ix2 e 1)))) := by
  have k0 := scatter_toInt_of_On64 (h0 e)
  have k1 := scatter_toInt_of_On64 (h1 e)
  have l0 := (at64 (idx (ix2 e 0))).isLt
  have l1 := (at64 (idx (ix2 e 1))).isLt
  unfold ScatterDims.resultIdx?
  rw [dif_pos ?_]
  · congr 1
    funext a
    refine Fin.ext ?_
    match a with
    | ⟨0, _⟩ =>
      show (pairScatter.start (ix1 e) idx 0 + (pairScatter.window (ix1 e) 0 : Nat)).toNat
        = (at64 (idx (ix2 e 0))).val
      rw [pair_start0, pair_window, k0]; omega
    | ⟨1, _⟩ =>
      show (pairScatter.start (ix1 e) idx 1 + (pairScatter.window (ix1 e) 1 : Nat)).toNat
        = (at64 (idx (ix2 e 1))).val
      rw [pair_start1, pair_window, k1]; omega
  · intro a
    match a with
    | ⟨0, _⟩ =>
      show 0 ≤ pairScatter.start (ix1 e) idx 0 + (pairScatter.window (ix1 e) 0 : Nat) ∧
        pairScatter.start (ix1 e) idx 0 + (pairScatter.window (ix1 e) 0 : Nat) < (64 : Nat)
      rw [pair_start0, pair_window, k0]; omega
    | ⟨1, _⟩ =>
      show 0 ≤ pairScatter.start (ix1 e) idx 1 + (pairScatter.window (ix1 e) 1 : Nat) ∧
        pairScatter.start (ix1 e) idx 1 + (pairScatter.window (ix1 e) 1 : Nat) < (64 : Nat)
      rw [pair_start1, pair_window, k1]; omega

/-- The updates landing on `(d, s)` are exactly the `e` whose two index words name `d` and `s`. -/
private theorem pair_resultIdx_iff (idx : IVec T256x2 32) (h0 : ∀ e : Fin 256, On64 (idx (ix2 e 0)))
    (h1 : ∀ e : Fin 256, On64 (idx (ix2 e 1))) (d s : Fin 64) (j : T256.Idx) :
    pairScatter.resultIdx? j idx = some (ix2 d s) ↔
      ∃ e : Fin 256, (at64 (idx (ix2 e 0)) = d ∧ at64 (idx (ix2 e 1)) = s) ∧ ix1 e = j := by
  obtain ⟨e', rfl⟩ : ∃ e' : Fin 256, j = ix1 e' := ⟨j 0, eq_ix1 j⟩
  rw [pair_resultIdx idx h0 h1, Option.some.injEq, scatter_ix2_inj]
  constructor
  · intro hd; exact ⟨e', hd, rfl⟩
  · rintro ⟨e, hd, he⟩
    rw [scatter_ix1_inj] at he
    subst he
    exact hd

theorem rowScatter_apply (x : T2048x64x64.Idx → EReal) (idx : IVec T256x1 32) (upd : T2048x256x64.Idx → EReal)
    (h : ∀ e : Fin 256, On64 (idx (ix2 e 0))) (b : Fin 2048) (d p : Fin 64) :
    Ideal.hostScatterAdd rowScatter x idx upd (ix3 b d p)
      = x (ix3 b d p) + ∑ e : Fin 256, if at64 (idx (ix2 e 0)) = d then upd (ix3 b e p) else 0 := by
  -- the set of updates landing on `(b, d, p)` is the image of `{e | idx[e] = d}` under `e ↦ (b, e, p)`
  unfold Ideal.hostScatterAdd
  congr 1
  rw [← Finset.sum_filter]
  refine (Finset.sum_congr ?_ fun _ _ => rfl).trans
    (Finset.sum_image (g := fun e : Fin 256 => (ix3 b e p : T2048x256x64.Idx)) ?_)
  · ext j
    simp only [Finset.mem_filter, Finset.mem_univ, true_and, Finset.mem_image]
    exact row_resultIdx_iff idx h b d p j
  · intro e _ e' _ he
    exact (scatter_ix3_inj.1 he).2.1

theorem pairScatter_apply (x : T64x64.Idx → EReal) (idx : IVec T256x2 32) (upd : T256.Idx → EReal)
    (h0 : ∀ e : Fin 256, On64 (idx (ix2 e 0))) (h1 : ∀ e : Fin 256, On64 (idx (ix2 e 1))) (d s : Fin 64) :
    Ideal.hostScatterAdd pairScatter x idx upd (ix2 d s)
      = x (ix2 d s) + ∑ e : Fin 256, if at64 (idx (ix2 e 0)) = d ∧ at64 (idx (ix2 e 1)) = s then upd (ix1 e) else 0 := by
  -- the set of updates landing on `(d, s)` is the image of `{e | idx[e, 0] = d ∧ idx[e, 1] = s}` under `e ↦ (e)`
  unfold Ideal.hostScatterAdd
  congr 1
  rw [← Finset.sum_filter]
  refine (Finset.sum_congr ?_ fun _ _ => rfl).trans
    (Finset.sum_image (g := fun e : Fin 256 => (ix1 e : T256.Idx)) ?_)
  · ext j
    simp only [Finset.mem_filter, Finset.mem_univ, true_and, Finset.mem_image]
    exact pair_resultIdx_iff idx h0 h1 d s j
  · intro e _ e' _ he
    exact scatter_ix1_inj.1 he

end Cert.LibIndex

end
-- ==== Proof.KI.HostTable.lean ====
/- The mixing table the host operations build between the regions, over the extended reals: the 256 edge weights
— gathers of ecoeff, phase and tension at the normalised end nodes, a cosine, two sums with 1 and a quotient —
scattered with addition into a 64 x 64 table of zeros at (dst, src). With every index word in range no gather
clamps and no update is dropped, so entry (d, s) is the sum of the weights of the edges from s to d. -/
import proofs.«414142_j15384572854802_2_alg».proof.Proof.KI.Run
import proofs.«414142_j15384572854802_2_alg».proof.Proof.Spec
import proofs.«414142_j15384572854802_2_alg».proof.Proof.LibGather
import proofs.«414142_j15384572854802_2_alg».proof.Proof.LibScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The host operations' composed term, in stages -/

section Stages

/-- An index vector with every negative word moved up by 64. -/
def normV (a : IVec S256 32) : IVec S256 32 :=
  select (cmpi .slt a (broadcastInDim S256 ![] bcast_S_S256 (constantI S_ 32 0#32)))
    (addi a (broadcastInDim S256 ![] bcast_S_S256 (constantI S_ 32 64#32))) a

/-- The normalised vector as a column. -/
def colV (a : IVec S256 32) : IVec S256x1 32 :=
  broadcastInDim S256x1 ![0] bcast_S256_S256x1_0 (normV a)

/-- Two columns side by side. -/
def pairCat (x y : IVec S256x1 32) : IVec S256x2 32 :=
  concatenate S256x2 1 [⟨S256x1, x⟩, ⟨S256x1, y⟩] concatenates_S256x1_S256x1_S256x2_d1

theorem pairCat_fold (x y : IVec S256x1 32) :
    concatenate S256x2 1 [⟨S256x1, x⟩, ⟨S256x1, y⟩] concatenates_S256x1_S256x1_S256x2_d1 = pairCat x y := rfl

/-- The pair index: row e is (a e, b e), both normalised. -/
def pairV (a b : IVec S256 32) : IVec S256x2 32 := pairCat (colV a) (colV b)

/-- The 256 edge weights. -/
def weightsV (ecoeff phase : FVec Ideal S64x64 .f32) (tension : FVec Ideal S64 .f32) (src dst : IVec S256 32) :
    FVec Ideal S256 .f32 :=
  Host.divf (F := Ideal)
    (addf (broadcastInDim S256 ![] bcast_S_S256 (constant (F := Ideal) S_ .f32 0x3F800000#32))
      (mulf (Host.gather gather_S64x64_S256x2_S256_n_01_n_n_01_1_11 ecoeff (pairV src dst))
        (Host.cos (F := Ideal) (Host.gather gather_S64x64_S256x2_S256_n_01_n_n_01_1_11 phase (pairV src dst)))))
    (addf (broadcastInDim S256 ![] bcast_S_S256 (constant (F := Ideal) S_ .f32 0x3F800000#32))
      (mulf (Host.gather gather_S64_S256x1_S256_n_0_n_n_0_1_1 tension (colV src))
        (Host.gather gather_S64_S256x1_S256_n_0_n_n_0_1_1 tension (colV dst))))

/-- The table: the weights scattered with addition into zeros at (dst, src). -/
def tableV (ecoeff phase : FVec Ideal S64x64 .f32) (tension : FVec Ideal S64 .f32) (src dst : IVec S256 32) :
    FVec Ideal S64x64 .f32 :=
  Host.scatterAdd (F := Ideal) scatter_S64x64_S256x2_S256_n_01_01_1
    (broadcastInDim S64x64 ![] bcast_S_S64x64 (constant (F := Ideal) S_ .f32 0x00000000#32))
    (pairV dst src) (weightsV ecoeff phase tension src dst)

end Stages

/-! ## The two stretches of host operations, from any contents -/

set_option maxHeartbeats 4000000 in
/-- From any contents, the two stretches leave in the table buffer the composed term of the five arrays. -/
theorem hostOps_v65 (V : Valuation τ sig (Elt Ideal)) :
    (StableHlo.after main_part1_ops0 (StableHlo.after main_part0_ops0 V) (Proc.devRef .tc main_v65) : S64x64.Idx → EReal)
      = tableV (V (Proc.devRef .tc main_arg2)) (V (Proc.devRef .tc main_arg3)) (V (Proc.devRef .tc main_arg4))
          (V (Proc.devRef .tc main_arg5)) (V (Proc.devRef .tc main_arg6)) := by
  simp only [main_part0_ops0, main_part1_ops0]
  simp (disch := decide) only [StableHlo.after_cons, StableHlo.after_nil,
    StableHlo.nullary_result', StableHlo.unary_result', StableHlo.binary_result', StableHlo.ternary_result',
    StableHlo.reshape_result',
    StableHlo.nullary_result_ne', StableHlo.unary_result_ne', StableHlo.binary_result_ne', StableHlo.ternary_result_ne',
    StableHlo.reshape_result_ne', pairCat_fold]
  rfl

/-- The table buffer at the mixing region's entry is the composed term of the five launch arrays. -/
theorem W3_v65_eq (c : Dev nD) :
    (W3 m ρ c (Proc.devRef .tc main_v65) : S64x64.Idx → EReal)
      = tableV (m ((c : Thread nD τ).loc main_arg2)) (m ((c : Thread nD τ).loc main_arg3))
          (m ((c : Thread nD τ).loc main_arg4)) (m ((c : Thread nD τ).loc main_arg5)) (m ((c : Thread nD τ).loc main_arg6)) := by
  show (StableHlo.after main_part1_ops0 (StableHlo.after main_part0_ops0 (W1 m ρ c)) (Proc.devRef .tc main_v65) : S64x64.Idx → EReal) = _
  rw [hostOps_v65 (W1 m ρ c), W1_of_ne m ρ c main_arg2 (by decide), W1_of_ne m ρ c main_arg3 (by decide),
    W1_of_ne m ρ c main_arg4 (by decide), W1_of_ne m ρ c main_arg5 (by decide), W1_of_ne m ρ c main_arg6 (by decide)]

/-! ## The stages read at an index -/

section Reads

/-- A normalised vector at an entry is the normalised word. -/
theorem normV_apply (a : IVec S256 32) (i : S256.Idx) : normV a i = Cert.Spec.norm (a i) := by
  show Scalar.select (IntOp.cmpi .slt (a i) 0#32) (IntOp.addi (a i) 64#32) (a i) = _
  have h0 : (0#32 : BitVec 32).toInt = 0 := by decide
  unfold Scalar.select IntOp.cmpi IntOp.addi Cert.Spec.norm
  simp only [BitVec.slt, h0]
  by_cases h : (a i).toInt < 0
  · simp [h]
  · simp [h]

/-- The column at row e is the normalised word. -/
theorem colV_apply (a : IVec S256 32) (e : Fin 256) : colV a (ix2 e (0 : Fin 1)) = Cert.Spec.norm (a (ix1 e)) := by
  rw [← normV_apply]
  simp only [colV, broadcastInDim]
  congr 1
  funext b
  obtain rfl : b = 0 := Subsingleton.elim _ _
  rfl

/-- The pair index at (e, 0) is the first vector's normalised word, -/
theorem pairV_apply0 (a b : IVec S256 32) (e : Fin 256) :
    pairV a b (ix2 e (0 : Fin 2)) = Cert.Spec.norm (a (ix1 e)) := by
  unfold pairV pairCat
  rw [concatenate_pair_apply_left (1 : Fin S256x2.rank) (colV a) (colV b) concatenates_S256x1_S256x1_S256x2_d1
    (ix2 e (0 : Fin 2)) rfl (ix2 e (0 : Fin 1)) (fun b' => by match b' with | ⟨0, _⟩ => rfl | ⟨1, _⟩ => rfl)]
  exact colV_apply a e

/-- and at (e, 1) the second's. -/
theorem pairV_apply1 (a b : IVec S256 32) (e : Fin 256) :
    pairV a b (ix2 e (1 : Fin 2)) = Cert.Spec.norm (b (ix1 e)) := by
  unfold pairV pairCat
  rw [concatenate_pair_apply_right (1 : Fin S256x2.rank) (colV a) (colV b) concatenates_S256x1_S256x1_S256x2_d1
    (ix2 e (1 : Fin 2)) rfl rfl (ix2 e (0 : Fin 1))
    (fun b' hb' => by match b', hb' with | ⟨0, _⟩, _ => rfl | ⟨1, _⟩, hb' => exact absurd rfl hb')
    rfl]
  exact colV_apply b e

/-- An in-range word, normalised, lies on the axis. -/
theorem on64_norm {w : BitVec 32} (h : Cert.Spec.InRange w) : Cert.LibIndex.On64 (Cert.Spec.norm w) :=
  Cert.Spec.norm_range h

variable (ecoeff phase : FVec Ideal S64x64 .f32) (tension : FVec Ideal S64 .f32) (src dst : IVec S256 32)
  (hsrc : ∀ e : Fin 256, Cert.Spec.InRange (src (ix1 e))) (hdst : ∀ e : Fin 256, Cert.Spec.InRange (dst (ix1 e)))

include hsrc hdst in
/-- The weight at edge e is the specification's. -/
theorem weightsV_apply (e : Fin 256) :
    weightsV ecoeff phase tension src dst (ix1 e) = Cert.Spec.scale ecoeff phase tension src dst e := by
  have hs := on64_norm (hsrc e)
  have hd := on64_norm (hdst e)
  show Ideal.div
      (Ideal.ofBits .f32 0x3F800000#32 + Host.gather Cert.LibIndex.pairGather ecoeff (pairV src dst) (ix1 e)
        * Ideal.cos (Host.gather Cert.LibIndex.pairGather phase (pairV src dst) (ix1 e)))
      (Ideal.ofBits .f32 0x3F800000#32 + Host.gather Cert.LibIndex.takeGather tension (colV src) (ix1 e)
        * Host.gather Cert.LibIndex.takeGather tension (colV dst) (ix1 e)) = _
  rw [Cert.LibIndex.pairGather_apply ecoeff (pairV src dst) e (by rw [pairV_apply0]; exact hs) (by rw [pairV_apply1]; exact hd),
    Cert.LibIndex.pairGather_apply phase (pairV src dst) e (by rw [pairV_apply0]; exact hs) (by rw [pairV_apply1]; exact hd),
    Cert.LibIndex.takeGather_apply tension (colV src) e (by rw [colV_apply]; exact hs),
    Cert.LibIndex.takeGather_apply tension (colV dst) e (by rw [colV_apply]; exact hd),
    pairV_apply0, pairV_apply1, colV_apply, colV_apply]
  rfl

include hsrc hdst in
/-- The table at (d, s) is the sum of the weights of the edges from s to d. -/
theorem tableV_apply (d s : Fin 64) :
    tableV ecoeff phase tension src dst (ix2 d s) = Cert.Spec.table ecoeff phase tension src dst d s := by
  show Ideal.hostScatterAdd Cert.LibIndex.pairScatter
      (broadcastInDim S64x64 ![] bcast_S_S64x64 (constant (F := Ideal) S_ .f32 0x00000000#32))
      (pairV dst src) (weightsV ecoeff phase tension src dst) (ix2 d s) = _
  rw [Cert.LibIndex.pairScatter_apply _ _ _ (fun e => by rw [pairV_apply0]; exact on64_norm (hdst e))
    (fun e => by rw [pairV_apply1]; exact on64_norm (hsrc e))]
  rw [show broadcastInDim S64x64 ![] bcast_S_S64x64 (constant (F := Ideal) S_ .f32 0x00000000#32) (ix2 d s)
      = Ideal.ofBits .f32 0x00000000#32 from rfl, Ideal.ofBits_zero_f32, zero_add]
  unfold Cert.Spec.table
  refine Finset.sum_congr rfl fun e _ => ?_
  rw [pairV_apply0, pairV_apply1, weightsV_apply ecoeff phase tension src dst hsrc hdst]
  rfl

end Reads

/-- The table the mixing region is entered with, entry by entry. -/
theorem W3_v65_apply (c : Dev nD)
    (hsrc : ∀ e : Fin 256, Cert.Spec.InRange ((m ((c : Thread nD τ).loc main_arg5) : S256.Idx → BitVec 32) (ix1 e)))
    (hdst : ∀ e : Fin 256, Cert.Spec.InRange ((m ((c : Thread nD τ).loc main_arg6) : S256.Idx → BitVec 32) (ix1 e)))
    (d s : Fin 64) :
    (W3 m ρ c (Proc.devRef .tc main_v65) : S64x64.Idx → EReal) (ix2 d s)
      = Cert.Spec.table (m ((c : Thread nD τ).loc main_arg2)) (m ((c : Thread nD τ).loc main_arg3))
          (m ((c : Thread nD τ).loc main_arg4)) (m ((c : Thread nD τ).loc main_arg5)) (m ((c : Thread nD τ).loc main_arg6)) d s := by
  rw [W3_v65_eq]
  exact tableV_apply _ _ _ _ _ hsrc hdst d s

end Cert.KernelIdeal.Hand

end
-- ==== Proof.Algebra.lean ====
/- The law that joins the two arrangements. The kernel first sums, for each pair of nodes (d, s), the weights of
the edges from s to d, and then applies that table to the node rows; the reference multiplies each edge's
weight into its source row and sums over the edges into d. Grouping the edges into d by their source node turns
one into the other, provided a sum of weights may be multiplied into a row entry term by term. On the extended
reals that fails only for a sum holding both infinities; here every edge of a group has the same weight (the
weight depends only on the two end nodes), and a repeated sum of ONE extended real is a product by the count,
which is associative with the row entry. No finiteness of any input is used. -/
import proofs.«414142_j15384572854802_2_alg».proof.Proof.Spec
import Mathlib.Data.EReal.Operations
import Mathlib.Algebra.BigOperators.Group.Finset.Basic

noncomputable section

namespace Cert.Spec

open Idealize.ShloMosaic Idealize.ShloMosaic.ValueIdx

/-- A repeated sum of one extended real, times another, is the repeated sum of the product. -/
theorem nsmul_mul_assoc (k : ℕ) (a n : EReal) : (k • a) * n = k • (a * n) := by
  rw [EReal.nsmul_eq_mul, EReal.nsmul_eq_mul, mul_assoc]

variable (x : T2048x4096.Idx → EReal) (W : T4096x4096.Idx → EReal) (ecoeff phase : T64x64.Idx → EReal)
  (tension : T64.Idx → EReal) (src dst : T256.Idx → BitVec 32)

/-- The table's row applied to the node rows is the sum over the edges into the node. -/
theorem table_apply (b : Fin 2048) (d p : Fin 64) :
    (∑ s : Fin 64, table ecoeff phase tension src dst d s * out x W b (col s p))
      = entangled x W ecoeff phase tension src dst b d p := by
  unfold entangled
  -- For one source node s: every edge from s to d has the weight sigma s d, so the table entry is that
  -- weight repeated, and the repetition passes through the product with the row entry.
  have key : ∀ s : Fin 64,
      table ecoeff phase tension src dst d s * out x W b (col s p)
        = ∑ e : Fin 256, if dstOf dst e = d ∧ srcOf src e = s then
            out x W b (col (srcOf src e) p) * scale ecoeff phase tension src dst e else 0 := by
    intro s
    unfold table
    have h1 : (∑ e : Fin 256, if dstOf dst e = d ∧ srcOf src e = s then
            scale ecoeff phase tension src dst e else 0)
        = ∑ e : Fin 256, if dstOf dst e = d ∧ srcOf src e = s then
            sigma ecoeff phase tension s d else 0 := by
      apply Finset.sum_congr rfl
      intro e _
      split_ifs with h
      · unfold scale; rw [h.1, h.2]
      · rfl
    have h2 : (∑ e : Fin 256, if dstOf dst e = d ∧ srcOf src e = s then
            out x W b (col (srcOf src e) p) * scale ecoeff phase tension src dst e else 0)
        = ∑ e : Fin 256, if dstOf dst e = d ∧ srcOf src e = s then
            sigma ecoeff phase tension s d * out x W b (col s p) else 0 := by
      apply Finset.sum_congr rfl
      intro e _
      split_ifs with h
      · unfold scale; rw [h.1, h.2]; exact mul_comm _ _
      · rfl
    rw [h1, h2, ← Finset.sum_filter, ← Finset.sum_filter, Finset.sum_const, Finset.sum_const,
      nsmul_mul_assoc]
  -- Sum over the source nodes, exchange the two sums, and each edge is counted at its own source node.
  rw [Finset.sum_congr rfl (fun s _ => key s), Finset.sum_comm]
  apply Finset.sum_congr rfl
  intro e _
  by_cases h : dstOf dst e = d
  · simp [h]
  · simp [h]

/-- The kernel's arrangement is the result. -/
theorem mixed_eq (b : Fin 2048) (d p : Fin 64) :
    mixed x W ecoeff phase tension src dst b d p = result x W ecoeff phase tension src dst b (col d p) := by
  unfold mixed result
  rw [table_apply, nodeOf_col, slotOf_col]

end Cert.Spec

end
-- ==== Proof.KI.Result.lean ====
/- The kernel program's result over the extended reals, entry by entry: the last reshape reads the mixing region's
array, which is the node rows plus one half of the table applied to them; the node rows are the matmul region's
array read by node and slot, the table is the sum of the edge weights per pair of nodes; and that arrangement is
the specification's by the law of Algebra. -/
import proofs.«414142_j15384572854802_2_alg».proof.Proof.KI.Value0
import proofs.«414142_j15384572854802_2_alg».proof.Proof.KI.Value1
import proofs.«414142_j15384572854802_2_alg».proof.Proof.KI.HostLayout
import proofs.«414142_j15384572854802_2_alg».proof.Proof.KI.HostTable
import proofs.«414142_j15384572854802_2_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The argument arrays at their literal types. -/
abbrev inX (c : Dev nD) : S2048x4096.Idx → EReal := m ((c : Thread nD τ).loc main_arg0)
abbrev inW (c : Dev nD) : S4096x4096.Idx → EReal := m ((c : Thread nD τ).loc main_arg1)
abbrev inE (c : Dev nD) : S64x64.Idx → EReal := m ((c : Thread nD τ).loc main_arg2)
abbrev inP (c : Dev nD) : S64x64.Idx → EReal := m ((c : Thread nD τ).loc main_arg3)
abbrev inT (c : Dev nD) : S64.Idx → EReal := m ((c : Thread nD τ).loc main_arg4)
abbrev inS (c : Dev nD) : S256.Idx → BitVec 32 := m ((c : Thread nD τ).loc main_arg5)
abbrev inD (c : Dev nD) : S256.Idx → BitVec 32 := m ((c : Thread nD τ).loc main_arg6)

/-- The matmul region's array is the linear layer. -/
theorem product_apply (c : Dev nD) (b : Fin 2048) (o : Fin 4096) :
    (W1 m ρ c (Proc.devRef .tc main_v0) : S2048x4096.Idx → EReal) (ix2 b o) = Cert.Spec.out (inX m c) (inW m c) b o := by
  have e : W1 m ρ c (Proc.devRef .tc main_v0) = (dat0 (V0 m ρ) c).arrAt 2 cfg0.N := W1_arr m ρ c 2
  exact (congrFun e (ix2 b o)).trans (arr0 (V0 m ρ) c b o)

/-- The program's result at batch row `b`, slot `p` of node `d`. -/
theorem result_apply (c : Dev nD)
    (hsrc : ∀ e : Fin 256, Cert.Spec.InRange (inS m c (ix1 e))) (hdst : ∀ e : Fin 256, Cert.Spec.InRange (inD m c (ix1 e)))
    (b : Fin 2048) (d p : Fin 64) :
    (W5 m ρ c (Proc.devRef .tc main_v68) : S2048x4096.Idx → EReal) (ix2 b (Cert.Spec.col d p))
      = Cert.Spec.result (inX m c) (inW m c) (inE m c) (inP m c) (inT m c) (inS m c) (inD m c) b (Cert.Spec.col d p) := by
  rw [← Cert.Spec.mixed_eq]
  refine (W5_v68_apply m ρ c b d p).trans ?_
  have e1 : W4 m ρ c (Proc.devRef .tc main_v67) = (dat1 (V3 m ρ) c).arrAt 2 cfg1.N := W4_arr m ρ c 2
  refine (congrFun e1 (ix3 b d p)).trans ?_
  refine (arr1 (V3 m ρ) c b d p).trans ?_
  have hn : ∀ s : Fin 64, nodeArr (V3 m ρ) c (ix3 b s p) = Cert.Spec.out (inX m c) (inW m c) b (Cert.Spec.col s p) :=
    fun s => (W3_v66_apply m ρ c b s p).trans (product_apply m ρ c b _)
  have ht : ∀ s : Fin 64, tableArr (V3 m ρ) c (ix2 d s)
      = Cert.Spec.table (inE m c) (inP m c) (inT m c) (inS m c) (inD m c) d s :=
    fun s => W3_v65_apply m ρ c hsrc hdst d s
  unfold Cert.Spec.mixed
  rw [hn d]
  simp only [hn, ht]

/-- The program's result array is the specification's. -/
theorem result_eq (c : Dev nD)
    (hsrc : ∀ e : Fin 256, Cert.Spec.InRange (inS m c (ix1 e))) (hdst : ∀ e : Fin 256, Cert.Spec.InRange (inD m c (ix1 e))) :
    (W5 m ρ c (Proc.devRef .tc main_v68) : S2048x4096.Idx → EReal)
      = Cert.Spec.G (inX m c) (inW m c) (inE m c) (inP m c) (inT m c) (inS m c) (inD m c) := by
  funext i
  obtain ⟨b, o, rfl⟩ : ∃ (b : Fin 2048) (o : Fin 4096), i = ix2 b o := ⟨i 0, i 1, eq_ix2 i⟩
  have ho := Cert.Spec.col_nodeOf_slotOf o
  rw [← ho]
  exact result_apply m ρ c hsrc hdst b _ _

end Cert.KernelIdeal.Hand

end
-- ==== Proof.RefRun.lean ====
import proofs.«414142_j15384572854802_2_alg».proof.Proof.Gen.ReferenceIdeal.Run
import proofs.«414142_j15384572854802_2_alg».proof.Proof.Gen.ReferenceIdeal.Read

/-! The reference program's run and its stages read one operation at a time: both are the
    generated modules imported above; the hand part over them is in the modules that import this one. -/
-- ==== Proof.Ref.RefValue.lean ====
/- The reference's result over the extended reals, entry by entry. Its last stage is the linear layer plus one half
of the scattered sum; with every index word in range its gather of node rows reads the row of the source node,
its scatter drops nothing, and the entry at batch row b, column o is the specification's. -/
import proofs.«414142_j15384572854802_2_alg».proof.Proof.RefRun
import proofs.«414142_j15384572854802_2_alg».proof.Proof.Spec
import proofs.«414142_j15384572854802_2_alg».proof.Proof.LibGather
import proofs.«414142_j15384572854802_2_alg».proof.Proof.LibScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The word the reference normalises an index word to: the select on "negative" of the word plus 64 and the word. -/
private theorem norm_word (w : BitVec 32) :
    Scalar.select (IntOp.cmpi .slt w 0#32) (IntOp.addi w 64#32) w = Cert.Spec.norm w := by
  have hs : w.slt 0#32 = decide (w.toInt < 0) := by simp [BitVec.slt]
  show (if BitVec.ofBool (w.slt 0#32) = 1#1 then w + 64#32 else w) = if w.toInt < 0 then w + 64#32 else w
  rw [hs]
  by_cases h : w.toInt < 0
  · rw [if_pos h, decide_eq_true h]; rfl
  · rw [if_neg h, decide_eq_false h]; rfl

/-- An in-range word, normalised, lies on the axis. -/
private theorem on64_norm {w : BitVec 32} (h : Cert.Spec.InRange w) : Cert.LibIndex.On64 (Cert.Spec.norm w) :=
  Cert.Spec.norm_range h

section
variable (x5 x6 : (⟨S256, .i32⟩ : BufTy).Contents (Elt Ideal)) (e : Fin 256)

/-! The eight normalised index vectors, each at an edge. -/

private theorem v7_at : val_main_v7 (F := Ideal) x5 (ix1 e) = Cert.Spec.norm ((x5 : S256.Idx → BitVec 32) (ix1 e)) := by
  rw [val_main_v7_apply, val_main_v4_apply, val_main_v6_apply, val_main_v3_apply, val_main_v5_apply,
    val_main_c_apply, val_main_c_0_apply]
  exact norm_word _
private theorem v12_at : val_main_v12 (F := Ideal) x6 (ix1 e) = Cert.Spec.norm ((x6 : S256.Idx → BitVec 32) (ix1 e)) := by
  rw [val_main_v12_apply, val_main_v9_apply, val_main_v11_apply, val_main_v8_apply, val_main_v10_apply,
    val_main_c_1_apply, val_main_c_2_apply]
  exact norm_word _
private theorem v21_at : val_main_v21 (F := Ideal) x5 (ix1 e) = Cert.Spec.norm ((x5 : S256.Idx → BitVec 32) (ix1 e)) := by
  rw [val_main_v21_apply, val_main_v18_apply, val_main_v20_apply, val_main_v17_apply, val_main_v19_apply,
    val_main_c_3_apply, val_main_c_4_apply]
  exact norm_word _
private theorem v26_at : val_main_v26 (F := Ideal) x6 (ix1 e) = Cert.Spec.norm ((x6 : S256.Idx → BitVec 32) (ix1 e)) := by
  rw [val_main_v26_apply, val_main_v23_apply, val_main_v25_apply, val_main_v22_apply, val_main_v24_apply,
    val_main_c_5_apply, val_main_c_6_apply]
  exact norm_word _
private theorem v35_at : val_main_v35 (F := Ideal) x5 (ix1 e) = Cert.Spec.norm ((x5 : S256.Idx → BitVec 32) (ix1 e)) := by
  rw [val_main_v35_apply, val_main_v32_apply, val_main_v34_apply, val_main_v31_apply, val_main_v33_apply,
    val_main_c_7_apply, val_main_c_8_apply]
  exact norm_word _
private theorem v42_at : val_main_v42 (F := Ideal) x6 (ix1 e) = Cert.Spec.norm ((x6 : S256.Idx → BitVec 32) (ix1 e)) := by
  rw [val_main_v42_apply, val_main_v39_apply, val_main_v41_apply, val_main_v38_apply, val_main_v40_apply,
    val_main_c_9_apply, val_main_c_10_apply]
  exact norm_word _
private theorem v57_at : val_main_v57 (F := Ideal) x5 (ix1 e) = Cert.Spec.norm ((x5 : S256.Idx → BitVec 32) (ix1 e)) := by
  rw [val_main_v57_apply, val_main_v54_apply, val_main_v56_apply, val_main_v53_apply, val_main_v55_apply,
    val_main_c_12_apply, val_main_c_13_apply]
  exact norm_word _
private theorem v68_at : val_main_v68 (F := Ideal) x6 (ix1 e) = Cert.Spec.norm ((x6 : S256.Idx → BitVec 32) (ix1 e)) := by
  rw [val_main_v68_apply, val_main_v65_apply, val_main_v67_apply, val_main_v64_apply, val_main_v66_apply,
    val_main_c_15_apply, val_main_c_16_apply]
  exact norm_word _

/-! The same vectors as columns. -/

private theorem v13_at : val_main_v13 (F := Ideal) x5 (ix2 e 0) = Cert.Spec.norm ((x5 : S256.Idx → BitVec 32) (ix1 e)) := by
  rw [val_main_v13_apply]
  have e1 : idx_main_v13 (ix2 e (0 : Fin 1)) = ix1 e := funext fun a => match a with | ⟨0, _⟩ => rfl
  rw [e1, v7_at]
private theorem v14_at : val_main_v14 (F := Ideal) x6 (ix2 e 0) = Cert.Spec.norm ((x6 : S256.Idx → BitVec 32) (ix1 e)) := by
  rw [val_main_v14_apply]
  have e1 : idx_main_v14 (ix2 e (0 : Fin 1)) = ix1 e := funext fun a => match a with | ⟨0, _⟩ => rfl
  rw [e1, v12_at]
private theorem v27_at : val_main_v27 (F := Ideal) x5 (ix2 e 0) = Cert.Spec.norm ((x5 : S256.Idx → BitVec 32) (ix1 e)) := by
  rw [val_main_v27_apply]
  have e1 : idx_main_v27 (ix2 e (0 : Fin 1)) = ix1 e := funext fun a => match a with | ⟨0, _⟩ => rfl
  rw [e1, v21_at]
private theorem v28_at : val_main_v28 (F := Ideal) x6 (ix2 e 0) = Cert.Spec.norm ((x6 : S256.Idx → BitVec 32) (ix1 e)) := by
  rw [val_main_v28_apply]
  have e1 : idx_main_v28 (ix2 e (0 : Fin 1)) = ix1 e := funext fun a => match a with | ⟨0, _⟩ => rfl
  rw [e1, v26_at]
private theorem v36_at : val_main_v36 (F := Ideal) x5 (ix2 e 0) = Cert.Spec.norm ((x5 : S256.Idx → BitVec 32) (ix1 e)) := by
  rw [val_main_v36_apply]
  have e1 : idx_main_v36 (ix2 e (0 : Fin 1)) = ix1 e := funext fun a => match a with | ⟨0, _⟩ => rfl
  rw [e1, v35_at]
private theorem v43_at : val_main_v43 (F := Ideal) x6 (ix2 e 0) = Cert.Spec.norm ((x6 : S256.Idx → BitVec 32) (ix1 e)) := by
  rw [val_main_v43_apply]
  have e1 : idx_main_v43 (ix2 e (0 : Fin 1)) = ix1 e := funext fun a => match a with | ⟨0, _⟩ => rfl
  rw [e1, v42_at]
private theorem v58_at : val_main_v58 (F := Ideal) x5 (ix2 e 0) = Cert.Spec.norm ((x5 : S256.Idx → BitVec 32) (ix1 e)) := by
  rw [val_main_v58_apply]
  have e1 : idx_main_v58 (ix2 e (0 : Fin 1)) = ix1 e := funext fun a => match a with | ⟨0, _⟩ => rfl
  rw [e1, v57_at]
private theorem v69_at : val_main_v69 (F := Ideal) x6 (ix2 e 0) = Cert.Spec.norm ((x6 : S256.Idx → BitVec 32) (ix1 e)) := by
  rw [val_main_v69_apply]
  have e1 : idx_main_v69 (ix2 e (0 : Fin 1)) = ix1 e := funext fun a => match a with | ⟨0, _⟩ => rfl
  rw [e1, v68_at]

/-! The two pair indices: column 0 is the source column, column 1 the destination column. -/

private theorem v15_at0 : val_main_v15 (F := Ideal) x5 x6 (ix2 e 0) = Cert.Spec.norm ((x5 : S256.Idx → BitVec 32) (ix1 e)) := by
  unfold val_main_v15
  rw [concatenate_pair_apply_left (t := S256x2) (s₁ := S256x1) (s₂ := S256x1) (1 : Fin S256x2.rank) _ _ _ (ix2 e (0 : Fin 2)) rfl (ix2 e (0 : Fin 1))
    (fun b => match b with | ⟨0, _⟩ => rfl | ⟨1, _⟩ => rfl)]
  exact v13_at x5 e
private theorem v15_at1 : val_main_v15 (F := Ideal) x5 x6 (ix2 e 1) = Cert.Spec.norm ((x6 : S256.Idx → BitVec 32) (ix1 e)) := by
  unfold val_main_v15
  rw [concatenate_pair_apply_right (t := S256x2) (s₁ := S256x1) (s₂ := S256x1) (1 : Fin S256x2.rank) _ _ _ (ix2 e (1 : Fin 2)) rfl rfl (ix2 e (0 : Fin 1))
    (fun b => match b with | ⟨0, _⟩ => fun _ => rfl | ⟨1, _⟩ => fun hb => absurd rfl hb) rfl]
  exact v14_at x6 e
private theorem v29_at0 : val_main_v29 (F := Ideal) x5 x6 (ix2 e 0) = Cert.Spec.norm ((x5 : S256.Idx → BitVec 32) (ix1 e)) := by
  unfold val_main_v29
  rw [concatenate_pair_apply_left (t := S256x2) (s₁ := S256x1) (s₂ := S256x1) (1 : Fin S256x2.rank) _ _ _ (ix2 e (0 : Fin 2)) rfl (ix2 e (0 : Fin 1))
    (fun b => match b with | ⟨0, _⟩ => rfl | ⟨1, _⟩ => rfl)]
  exact v27_at x5 e
private theorem v29_at1 : val_main_v29 (F := Ideal) x5 x6 (ix2 e 1) = Cert.Spec.norm ((x6 : S256.Idx → BitVec 32) (ix1 e)) := by
  unfold val_main_v29
  rw [concatenate_pair_apply_right (t := S256x2) (s₁ := S256x1) (s₂ := S256x1) (1 : Fin S256x2.rank) _ _ _ (ix2 e (1 : Fin 2)) rfl rfl (ix2 e (0 : Fin 1))
    (fun b => match b with | ⟨0, _⟩ => fun _ => rfl | ⟨1, _⟩ => fun hb => absurd rfl hb) rfl]
  exact v28_at x6 e

end

section
variable (x2 x3 : (⟨S64x64, .f32⟩ : BufTy).Contents (Elt Ideal)) (x4 : (⟨S64, .f32⟩ : BufTy).Contents (Elt Ideal))
  (x5 x6 : (⟨S256, .i32⟩ : BufTy).Contents (Elt Ideal))
  (hsrc : ∀ e : Fin 256, Cert.Spec.InRange ((x5 : S256.Idx → BitVec 32) (ix1 e)))
  (hdst : ∀ e : Fin 256, Cert.Spec.InRange ((x6 : S256.Idx → BitVec 32) (ix1 e)))
  (e : Fin 256)
include hsrc hdst

/-! The four gathers of the edge weights: the coefficient and the phase at the pair of end nodes, the tension at
each end node. -/

private theorem v16_at : val_main_v16 (F := Ideal) x2 x5 x6 (ix1 e)
    = (x2 : S64x64.Idx → EReal) (ix2 (Cert.Spec.srcOf x5 e) (Cert.Spec.dstOf x6 e)) := by
  unfold val_main_v16
  have h0 : Cert.LibIndex.On64 (val_main_v15 (F := Ideal) x5 x6 (ix2 e 0)) := by
    rw [v15_at0]; exact on64_norm (hsrc e)
  have h1 : Cert.LibIndex.On64 (val_main_v15 (F := Ideal) x5 x6 (ix2 e 1)) := by
    rw [v15_at1]; exact on64_norm (hdst e)
  refine (Cert.LibIndex.pairGather_apply (x2 : S64x64.Idx → EReal) (val_main_v15 (F := Ideal) x5 x6) e h0 h1).trans ?_
  rw [v15_at0, v15_at1]; rfl

private theorem v30_at : val_main_v30 (F := Ideal) x3 x5 x6 (ix1 e)
    = (x3 : S64x64.Idx → EReal) (ix2 (Cert.Spec.srcOf x5 e) (Cert.Spec.dstOf x6 e)) := by
  unfold val_main_v30
  have h0 : Cert.LibIndex.On64 (val_main_v29 (F := Ideal) x5 x6 (ix2 e 0)) := by
    rw [v29_at0]; exact on64_norm (hsrc e)
  have h1 : Cert.LibIndex.On64 (val_main_v29 (F := Ideal) x5 x6 (ix2 e 1)) := by
    rw [v29_at1]; exact on64_norm (hdst e)
  refine (Cert.LibIndex.pairGather_apply (x3 : S64x64.Idx → EReal) (val_main_v29 (F := Ideal) x5 x6) e h0 h1).trans ?_
  rw [v29_at0, v29_at1]; rfl

omit hdst in
private theorem v37_at : val_main_v37 (F := Ideal) x4 x5 (ix1 e)
    = (x4 : S64.Idx → EReal) (ix1 (Cert.Spec.srcOf x5 e)) := by
  unfold val_main_v37
  have h0 : Cert.LibIndex.On64 (val_main_v36 (F := Ideal) x5 (ix2 e 0)) := by
    rw [v36_at]; exact on64_norm (hsrc e)
  refine (Cert.LibIndex.takeGather_apply (x4 : S64.Idx → EReal) (val_main_v36 (F := Ideal) x5) e h0).trans ?_
  rw [v36_at]; rfl

omit hsrc in
private theorem v44_at : val_main_v44 (F := Ideal) x4 x6 (ix1 e)
    = (x4 : S64.Idx → EReal) (ix1 (Cert.Spec.dstOf x6 e)) := by
  unfold val_main_v44
  have h0 : Cert.LibIndex.On64 (val_main_v43 (F := Ideal) x6 (ix2 e 0)) := by
    rw [v43_at]; exact on64_norm (hdst e)
  refine (Cert.LibIndex.takeGather_apply (x4 : S64.Idx → EReal) (val_main_v43 (F := Ideal) x6) e h0).trans ?_
  rw [v43_at]; rfl

/-- The weight the reference gives edge e is the specification's. -/
private theorem v52_at : val_main_v52 (F := Ideal) x2 x3 x4 x5 x6 (ix1 e) = Cert.Spec.scale x2 x3 x4 x5 x6 e := by
  rw [val_main_v52_apply, val_main_v49_apply, val_main_v51_apply, val_main_v48_apply, val_main_v50_apply,
    val_main_cst_apply, val_main_cst_11_apply, val_main_v47_apply, val_main_v46_apply, val_main_v45_apply,
    v16_at x2 x5 x6 hsrc hdst e, v30_at x3 x5 x6 hsrc hdst e, v37_at x4 x5 hsrc e, v44_at x4 x6 hdst e]
  rfl

end

section
variable (x0 : (⟨S2048x4096, .f32⟩ : BufTy).Contents (Elt Ideal)) (x1 : (⟨S4096x4096, .f32⟩ : BufTy).Contents (Elt Ideal))

/-- The reference's linear layer at (b, o): row b of the input against row o of the weights. -/
private theorem v1_at (b : Fin 2048) (o : Fin 4096) :
    val_main_v1 (F := Ideal) x0 x1 (ix2 b o) = Cert.Spec.out x0 x1 b o := by
  rw [val_main_v1_apply]
  unfold Cert.Spec.out
  refine Finset.sum_congr rfl fun k _ => ?_
  rw [val_main_v0_apply]
  have el : lidx_main_v1 (ix2 b o) k = ix2 b k := funext fun a => match a with | ⟨0, _⟩ => rfl | ⟨1, _⟩ => rfl
  have er : idx_main_v0 (ridx_main_v1 (ix2 b o) k) = ix2 o k :=
    funext fun a => match a with | ⟨0, _⟩ => rfl | ⟨1, _⟩ => rfl
  rw [el, er]

/-- The layer's rows read as 64 nodes of 64 slots: slot p of node s is column 64 s + p. -/
private theorem v2_at (b : Fin 2048) (s p : Fin 64) :
    val_main_v2 (F := Ideal) x0 x1 (ix3 b s p) = Cert.Spec.out x0 x1 b (Cert.Spec.col s p) := by
  rw [val_main_v2_apply]
  have e1 : idx_main_v2 (ix3 b s p) = ix2 b (Cert.Spec.col s p) := funext fun a => Fin.ext (by
    have hb := b.isLt; have hs := s.isLt; have hp := p.isLt
    match a with
    | ⟨0, _⟩ => show ((b.val * 64 + s.val) * 64 + p.val) / 4096 = b.val; omega
    | ⟨1, _⟩ => show ((b.val * 64 + s.val) * 64 + p.val) % 4096 = 64 * s.val + p.val; omega)
  rw [e1, v1_at]

variable (x2 x3 : (⟨S64x64, .f32⟩ : BufTy).Contents (Elt Ideal)) (x4 : (⟨S64, .f32⟩ : BufTy).Contents (Elt Ideal))
  (x5 x6 : (⟨S256, .i32⟩ : BufTy).Contents (Elt Ideal))
  (hsrc : ∀ e : Fin 256, Cert.Spec.InRange ((x5 : S256.Idx → BitVec 32) (ix1 e)))
  (hdst : ∀ e : Fin 256, Cert.Spec.InRange ((x6 : S256.Idx → BitVec 32) (ix1 e)))

include hsrc in
/-- The gathered node rows: edge e reads the row of its source node. -/
private theorem v59_at (b : Fin 2048) (e : Fin 256) (p : Fin 64) :
    val_main_v59 (F := Ideal) x0 x1 x5 (ix3 b e p)
      = Cert.Spec.out x0 x1 b (Cert.Spec.col (Cert.Spec.srcOf x5 e) p) := by
  unfold val_main_v59
  have h0 : Cert.LibIndex.On64 (val_main_v58 (F := Ideal) x5 (ix2 e 0)) := by
    rw [v58_at]; exact on64_norm (hsrc e)
  refine (Cert.LibIndex.rowGather_apply (val_main_v2 (F := Ideal) x0 x1 : S2048x64x64.Idx → EReal)
    (val_main_v58 (F := Ideal) x5) b e p h0).trans ?_
  rw [v58_at]
  exact v2_at x0 x1 b _ p

include hsrc hdst in
/-- The weights spread over the batch rows and the slots. -/
private theorem v61_at (b : Fin 2048) (e : Fin 256) (p : Fin 64) :
    val_main_v61 (F := Ideal) x2 x3 x4 x5 x6 (ix3 b e p) = Cert.Spec.scale x2 x3 x4 x5 x6 e := by
  rw [val_main_v61_apply, val_main_v60_apply]
  have e1 : idx_main_v60 (idx_main_v61 (ix3 b e p)) = ix1 e := funext fun a => match a with | ⟨0, _⟩ => rfl
  rw [e1, v52_at x2 x3 x4 x5 x6 hsrc hdst e]

include hsrc hdst in
/-- The scatter: node d receives, over the edges into it, the source node's slot times the edge's weight. -/
private theorem v70_at (b : Fin 2048) (d p : Fin 64) :
    val_main_v70 (F := Ideal) x0 x1 x2 x3 x4 x5 x6 (ix3 b d p)
      = Cert.Spec.entangled x0 x1 x2 x3 x4 x5 x6 b d p := by
  unfold val_main_v70
  have h : ∀ e : Fin 256, Cert.LibIndex.On64 (val_main_v69 (F := Ideal) x6 (ix2 e 0)) := fun e => by
    rw [v69_at]; exact on64_norm (hdst e)
  refine (Cert.LibIndex.rowScatter_apply (val_main_v63 (F := Ideal) : S2048x64x64.Idx → EReal)
    (val_main_v69 (F := Ideal) x6) (val_main_v62 (F := Ideal) x0 x1 x2 x3 x4 x5 x6 : S2048x256x64.Idx → EReal)
    h b d p).trans ?_
  rw [val_main_v63_apply, val_main_cst_14_apply]
  show Ideal.ofBits .f32 0x00000000#32 + _ = _
  rw [Ideal.ofBits_zero_f32, zero_add]
  unfold Cert.Spec.entangled
  refine Finset.sum_congr rfl fun e _ => ?_
  rw [v69_at, val_main_v62_apply, v59_at x0 x1 x5 hsrc b e p, v61_at x2 x3 x4 x5 x6 hsrc hdst b e p]
  rfl

end

/-- The reference's last stage at (b, o) is the specification's result there. -/
theorem ref_result
    (x0 : (⟨S2048x4096, .f32⟩ : BufTy).Contents (Elt Ideal)) (x1 : (⟨S4096x4096, .f32⟩ : BufTy).Contents (Elt Ideal))
    (x2 x3 : (⟨S64x64, .f32⟩ : BufTy).Contents (Elt Ideal)) (x4 : (⟨S64, .f32⟩ : BufTy).Contents (Elt Ideal))
    (x5 x6 : (⟨S256, .i32⟩ : BufTy).Contents (Elt Ideal))
    (hsrc : ∀ e : Fin 256, Cert.Spec.InRange ((x5 : S256.Idx → BitVec 32) (ix1 e)))
    (hdst : ∀ e : Fin 256, Cert.Spec.InRange ((x6 : S256.Idx → BitVec 32) (ix1 e)))
    (b : Fin 2048) (o : Fin 4096) :
    val_main_v74 (F := Ideal) x0 x1 x2 x3 x4 x5 x6 (ix2 b o) = Cert.Spec.result x0 x1 x2 x3 x4 x5 x6 b o := by
  rw [val_main_v74_apply, val_main_v73_apply, val_main_v72_apply, val_main_cst_17_apply, val_main_v71_apply]
  have e1 : idx_main_v71 (ix2 b o) = ix3 b (Cert.Spec.nodeOf o) (Cert.Spec.slotOf o) := funext fun a => Fin.ext (by
    have hb := b.isLt; have ho := o.isLt
    match a with
    | ⟨0, _⟩ => show (b.val * 4096 + o.val) / 4096 = b.val; omega
    | ⟨1, _⟩ => show (b.val * 4096 + o.val) / 64 % 64 = o.val / 64; omega
    | ⟨2, _⟩ => show (b.val * 4096 + o.val) % 64 = o.val % 64; omega)
  rw [e1, v1_at, v70_at x0 x1 x2 x3 x4 x5 x6 hsrc hdst]
  rfl

end Cert.ReferenceIdeal.RefValue

end
-- ==== Proof.PreDecode.lean ====
/- The precondition read back: its last four conjuncts say that every entry of the two index vectors lies in
[-64, 64), the words that index an axis of extent 64. -/
import proofs.«414142_j15384572854802_2_alg».proof.Pre_finite_inputs
import proofs.«414142_j15384572854802_2_alg».proof.Proof.Gen.Pre_finite_inputs
import proofs.«414142_j15384572854802_2_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A word at or above the word of -64 in the signed order is at least -64. -/
theorem le_of_sge (w : BitVec 32) (h : IntOp.cmpi .sge w 4294967232#32 = 1#1) : -64 ≤ w.toInt := by
  have hc : (4294967232#32 : BitVec 32).toInt = -64 := by decide
  unfold IntOp.cmpi at h
  rw [StableHlo.Predicate.ofBool_eq_one_iff] at h
  simp only [BitVec.sle, decide_eq_true_eq, hc] at h
  exact h

/-- A word below the word of 64 in the signed order is less than 64. -/
theorem lt_of_slt (w : BitVec 32) (h : IntOp.cmpi .slt w 64#32 = 1#1) : w.toInt < 64 := by
  have hc : (64#32 : BitVec 32).toInt = 64 := by decide
  unfold IntOp.cmpi at h
  rw [StableHlo.Predicate.ofBool_eq_one_iff] at h
  simp only [BitVec.slt, decide_eq_true_eq, hc] at h
  exact h

/-- A constant word broadcast along the 256 edges reads that word at every edge. -/
theorem bcast_const (hb : S_.BroadcastsInDim S256 (![] : Fin 0 → Fin S256.rank)) (h0 : 0 < S_.numel) (c : BitVec 32)
    (i : S256.Idx) : broadcastInDim S256 ![] hb (constantI S_ 32 c) i = c := by
  rw [StableHlo.Predicate.bcast_scalar hb h0]
  rfl

/-- An all-ones reduce of a signed compare of a vector against a broadcast constant gives the compare at each edge. -/
theorem cmp_at (p : CmpIPredicate) (a : IVec S256 32) (c : BitVec 32)
    (hb : S_.BroadcastsInDim S256 (![] : Fin 0 → Fin S256.rank)) (hr : S256.ReducesTo [0] S_) (h0 : 0 < S_.numel)
    (h : Host.reduce IntOp.andi (cmpi p a (broadcastInDim S256 ![] hb (constantI S_ 32 c))) (constantI S_ 1 1#1) hr h0 ix0 = 1#1)
    (e : Fin 256) : IntOp.cmpi p (a (ix1 e)) c = 1#1 := by
  have h1 := Host.reduce_andi_all _ _ hr h0 ix0 h (ix1 e)
  have h2 : cmpi p a (broadcastInDim S256 ![] hb (constantI S_ 32 c)) (ix1 e)
      = IntOp.cmpi p (a (ix1 e)) (broadcastInDim S256 ![] hb (constantI S_ 32 c) (ix1 e)) := rfl
  rw [h2, bcast_const hb h0] at h1
  exact h1

/-- The pointwise and of two scalar bits, read at the one index. -/
theorem andi_at (x y : IVec S_ 1) : andi x y ix0 = 1#1 ↔ x ix0 = 1#1 ∧ y ix0 = 1#1 :=
  IntOp.andi_eq_one

/-- Where the precondition holds, both index vectors are in range at every edge. -/
theorem inRange_of_pre {F : FTy → Type} [FloatOps F] [Cert.Pre_finite_inputs.Facts]
    (a0 : FVec F S2048x4096 .f32) (a1 : FVec F S4096x4096 .f32) (a2 a3 : FVec F S64x64 .f32) (a4 : FVec F S64 .f32)
    (a5 a6 : IVec S256 32)
    (h : Cert.Pre_finite_inputs.fn (F := F) a0 a1 a2 a3 a4 a5 a6 = fun _ => 1#1) :
    ∀ e : Fin 256, Cert.Spec.InRange (a5 (ix1 e)) ∧ Cert.Spec.InRange (a6 (ix1 e)) := by
  have e0 := congrFun h ValueIdx.ix0
  dsimp only [Cert.Pre_finite_inputs.fn, fn_part1, fn_part2] at e0
  -- the conjunction nests to the left: the last four bits come off from the right
  obtain ⟨e1, h6lt⟩ := (andi_at _ _).1 e0
  obtain ⟨e2, h6ge⟩ := (andi_at _ _).1 e1
  obtain ⟨e3, h5lt⟩ := (andi_at _ _).1 e2
  obtain ⟨-, h5ge⟩ := (andi_at _ _).1 e3
  intro e
  exact ⟨⟨le_of_sge _ (cmp_at .sge a5 _ _ _ _ h5ge e), lt_of_slt _ (cmp_at .slt a5 _ _ _ _ h5lt e)⟩,
    ⟨le_of_sge _ (cmp_at .sge a6 _ _ _ _ h6ge e), lt_of_slt _ (cmp_at .slt a6 _ _ _ _ h6lt e)⟩⟩

end Cert.PreDecode

end
-- ==== Proof.lean ====
/- The certificate of the entangled-connection kernel against its reference, over the extended reals.

Both programs compute a linear layer `out = x · Wᵀ`, read its 4096 features as 64 nodes of 64 slots, and add to
every node row one half of a weighted sum of the rows of the nodes with an edge into it, the weight of an edge
depending only on its two end nodes. The kernel sums the weights per pair of nodes into a 64 x 64 table first and
applies the table to the node rows; the reference scatters the weighted source rows edge by edge. The two agree on
the extended reals with no finiteness assumption (Proof/Algebra.lean), provided the integer index vectors index
their axis of extent 64 in range — the one precondition added to the statement: out of range the reference's
gather clamps where the kernel's scatter drops, and the results differ.

The three frames: each kernel region runs its body at every grid point (Proof/KI, and the word-level program's
copies Proof/K), the host operations between them are straight-line, and no step writes an argument array. The
values: the matmul region leaves the linear layer (KI/Value0), the host operations the table (KI/HostTable), the
mixing region the mixed rows (KI/Value1); the reference's stages are read one operation at a time (Ref/RefValue). -/
import proofs.«414142_j15384572854802_2_alg».proof.Defs
import proofs.«414142_j15384572854802_2_alg».proof.Proof.Gen.Kernel
import proofs.«414142_j15384572854802_2_alg».proof.Proof.Gen.KernelIdeal
import proofs.«414142_j15384572854802_2_alg».proof.Proof.Gen.ReferenceIdeal
import proofs.«414142_j15384572854802_2_alg».proof.Proof.Gen.Pre_finite_inputs
import proofs.«414142_j15384572854802_2_alg».proof.Proof.K.HostLayout
import proofs.«414142_j15384572854802_2_alg».proof.Proof.KI.Result
import proofs.«414142_j15384572854802_2_alg».proof.Proof.Ref.RefValue
import proofs.«414142_j15384572854802_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments as launched: the run, each argument read off the last
    valuation. -/
theorem frame_k [Cert.Kernel.Facts] [Cert.Pre_finite_inputs.Facts] : Cert.frame_Kernel := fun m ρ _ =>
  (θ_run (Cert.Kernel.defs (F := Bits)) _ _).mono
    (fun r h c => ⟨(h c _ (Cert.Kernel.Hand.mem_uc Cert.Kernel.main_arg0 (by decide))).trans (Cert.Kernel.Hand.W5_main_arg0 m ρ c),
      (h c _ (Cert.Kernel.Hand.mem_uc Cert.Kernel.main_arg1 (by decide))).trans (Cert.Kernel.Hand.W5_main_arg1 m ρ c),
      (h c _ (Cert.Kernel.Hand.mem_uc Cert.Kernel.main_arg2 (by decide))).trans (Cert.Kernel.Hand.W5_main_arg2 m ρ c),
      (h c _ (Cert.Kernel.Hand.mem_uc Cert.Kernel.main_arg3 (by decide))).trans (Cert.Kernel.Hand.W5_main_arg3 m ρ c),
      (h c _ (Cert.Kernel.Hand.mem_uc Cert.Kernel.main_arg4 (by decide))).trans (Cert.Kernel.Hand.W5_main_arg4 m ρ c),
      (h c _ (Cert.Kernel.Hand.mem_uc Cert.Kernel.main_arg5 (by decide))).trans (Cert.Kernel.Hand.W5_main_arg5 m ρ c),
      (h c _ (Cert.Kernel.Hand.mem_uc Cert.Kernel.main_arg6 (by decide))).trans (Cert.Kernel.Hand.W5_main_arg6 m ρ c)⟩)
    (Cert.Kernel.Hand.run_main (F := Bits) m ρ)

/-- The same of the idealized program. -/
theorem frame_ki [Cert.KernelIdeal.Facts] [Cert.Pre_finite_inputs.Facts] : Cert.frame_KernelIdeal := fun m ρ _ =>
  (θ_run (Cert.KernelIdeal.defs (F := Ideal)) _ _).mono
    (fun r h c => ⟨(h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c)⟩)
    (Cert.KernelIdeal.Hand.run_main (F := Ideal) m ρ)

/-- The reference is straight-line host code: its run, the result dropped. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification's array: the kernel program by
    its run and `result_eq`, the reference by its run and `ref_result`; the index vectors are in range by the
    precondition. -/
theorem algebraic [Cert.KernelIdeal.Facts] [Cert.ReferenceIdeal.Facts] [Cert.Pre_finite_inputs.Facts] :
    Cert.algebraic_KernelIdeal_ReferenceIdeal := by
  intro m ρ m' ρ' hpre hagree
  have hr : ∀ (c : Dev Cert.KernelIdeal.nD) (e : Fin 256),
      Cert.Spec.InRange (Cert.KernelIdeal.Hand.inS m c (ix1 e)) ∧ Cert.Spec.InRange (Cert.KernelIdeal.Hand.inD m c (ix1 e)) :=
    fun c => Cert.PreDecode.inRange_of_pre _ _ _ _ _ _ _ (hpre c)
  refine ⟨fun c => Cert.Spec.G (Cert.KernelIdeal.Hand.inX m c) (Cert.KernelIdeal.Hand.inW m c) (Cert.KernelIdeal.Hand.inE m c)
      (Cert.KernelIdeal.Hand.inP m c) (Cert.KernelIdeal.Hand.inT m c) (Cert.KernelIdeal.Hand.inS m c) (Cert.KernelIdeal.Hand.inD m c), ?_, ?_⟩
  · exact (θ_run (Cert.KernelIdeal.defs (F := Ideal)) _ _).mono
      (fun r h c => ⟨(h c _ (Cert.KernelIdeal.Hand.mem_uc Cert.KernelIdeal.main_v68 (by decide))).trans
          (Cert.KernelIdeal.Hand.result_eq m ρ c (fun e => (hr c e).1) (fun e => (hr c e).2)),
        (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c)⟩)
      (Cert.KernelIdeal.Hand.run_main (F := Ideal) m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v74_eq]
    rw [(hagree c).1, (hagree c).2.1, (hagree c).2.2.1, (hagree c).2.2.2.1, (hagree c).2.2.2.2.1, (hagree c).2.2.2.2.2.1,
      (hagree c).2.2.2.2.2.2]
    funext i
    obtain ⟨b, o, rfl⟩ : ∃ (b : Fin 2048) (o : Fin 4096), i = ix2 b o := ⟨i 0, i 1, eq_ix2 i⟩
    exact Cert.ReferenceIdeal.RefValue.ref_result _ _ _ _ _ _ _ (fun e => (hr c e).1) (fun e => (hr c e).2) b o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
